-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel

variable [Facts]

def fn {F : FTy → Type} [FloatOps F] (main_arg0 : FVec F S2000000x8 .f32) (main_arg1 : IVec S2000000x8 32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_c_0 : IVec S_ 32 := constantI S_ 32 0#32
  let main_v4 : IVec S2000000x8 32 := broadcastInDim S2000000x8 ![] bcast_S_S2000000x8 main_c_0
  let main_v5 : IVec S2000000x8 1 := cmpi .sge main_arg1 main_v4
  let main_c_1 : IVec S_ 32 := constantI S_ 32 16#32
  let main_v6 : IVec S2000000x8 32 := broadcastInDim S2000000x8 ![] bcast_S_S2000000x8 main_c_1
  let main_v7 : IVec S2000000x8 1 := cmpi .slt main_arg1 main_v6
  let main_v8 : IVec S2000000x8 1 := andi main_v5 main_v7
  let main_c_2 : IVec S_ 1 := constantI S_ 1 1#1
  let main_v9 : IVec S_ 1 := (fun x v => Host.reduce IntOp.andi x v reducesTo_S2000000x8_S_d0_1 h_S_) main_v8 main_c_2
  let main_v10 : IVec S_ 1 := andi main_v3 main_v9
  main_v10
-- ==== Kernel.lean ====
abbrev S2000000x8 : Shape := ⟨2, ![2000000, 8]⟩
abbrev S2x8x16 : Shape := ⟨3, ![2, 8, 16]⟩
abbrev S20000x8 : Shape := ⟨2, ![20000, 8]⟩
abbrev S1x8x16 : Shape := ⟨3, ![1, 8, 16]⟩
abbrev S8x16 : Shape := ⟨2, ![8, 16]⟩
abbrev S20000 : Shape := ⟨1, ![20000]⟩
abbrev S20000x1 : Shape := ⟨2, ![20000, 1]⟩
abbrev S20000x16 : Shape := ⟨2, ![20000, 16]⟩
abbrev S16 : Shape := ⟨1, ![16]⟩
abbrev S1x16 : Shape := ⟨2, ![1, 16]⟩
abbrev S_ : Shape := ⟨0, ![]⟩
abbrev S8x16x1 : Shape := ⟨3, ![8, 16, 1]⟩
abbrev S8x1x16 : Shape := ⟨3, ![8, 1, 16]⟩
abbrev S8x16x16 : Shape := ⟨3, ![8, 16, 16]⟩
abbrev S16x16 : Shape := ⟨2, ![16, 16]⟩
abbrev S1x16x16 : Shape := ⟨3, ![1, 16, 16]⟩

abbrev nBuf : Space → Nat
  | .hbm => 56
  | .vmem => 10
  | .smem => 0
  | _ => 0

abbrev bufTy : (tb : Table) → Fin (tcTables nBuf tb) → BufTy
  | .hbm, ⟨0, _⟩ => ⟨S2000000x8, .f32⟩
  | .hbm, ⟨1, _⟩ => ⟨S2000000x8, .i32⟩
  | .hbm, ⟨2, _⟩ => ⟨S2x8x16, .f32⟩
  | .hbm, ⟨3, _⟩ => ⟨S2x8x16, .f32⟩
  | .hbm, ⟨4, _⟩ => ⟨S_, .f32⟩
  | .hbm, ⟨5, _⟩ => ⟨S8x16, .f32⟩
  | .hbm, ⟨6, _⟩ => ⟨S_, .f32⟩
  | .hbm, ⟨7, _⟩ => ⟨S8x16, .f32⟩
  | .hbm, ⟨8, _⟩ => ⟨S_, .f32⟩
  | .hbm, ⟨9, _⟩ => ⟨S8x16, .f32⟩
  | .hbm, ⟨10, _⟩ => ⟨S8x16, .f32⟩
  | .hbm, ⟨11, _⟩ => ⟨S8x16, .f32⟩
  | .hbm, ⟨12, _⟩ => ⟨S_, .f32⟩
  | .hbm, ⟨13, _⟩ => ⟨S8x16, .f32⟩
  | .hbm, ⟨14, _⟩ => ⟨S8x16, .i1⟩
  | .hbm, ⟨15, _⟩ => ⟨S8x16x1, .f32⟩
  | .hbm, ⟨16, _⟩ => ⟨S8x1x16, .f32⟩
  | .hbm, ⟨17, _⟩ => ⟨S8x16x16, .f32⟩
  | .hbm, ⟨18, _⟩ => ⟨S8x16x16, .f32⟩
  | .hbm, ⟨19, _⟩ => ⟨S8x16x16, .f32⟩
  | .hbm, ⟨20, _⟩ => ⟨S_, .i1⟩
  | .hbm, ⟨21, _⟩ => ⟨S16x16, .i1⟩
  | .hbm, ⟨22, _⟩ => ⟨S16x16, .i32⟩
  | .hbm, ⟨23, _⟩ => ⟨S_, .i32⟩
  | .hbm, ⟨24, _⟩ => ⟨S16x16, .i32⟩
  | .hbm, ⟨25, _⟩ => ⟨S16x16, .i32⟩
  | .hbm, ⟨26, _⟩ => ⟨S16x16, .i32⟩
  | .hbm, ⟨27, _⟩ => ⟨S16x16, .i1⟩
  | .hbm, ⟨28, _⟩ => ⟨S_, .i1⟩
  | .hbm, ⟨29, _⟩ => ⟨S16x16, .i1⟩
  | .hbm, ⟨30, _⟩ => ⟨S16x16, .i1⟩
  | .hbm, ⟨31, _⟩ => ⟨S8x16x1, .i1⟩
  | .hbm, ⟨32, _⟩ => ⟨S8x1x16, .i1⟩
  | .hbm, ⟨33, _⟩ => ⟨S8x16x16, .i1⟩
  | .hbm, ⟨34, _⟩ => ⟨S8x16x16, .i1⟩
  | .hbm, ⟨35, _⟩ => ⟨S8x16x16, .i1⟩
  | .hbm, ⟨36, _⟩ => ⟨S1x16x16, .i1⟩
  | .hbm, ⟨37, _⟩ => ⟨S8x16x16, .i1⟩
  | .hbm, ⟨38, _⟩ => ⟨S8x16x16, .i1⟩
  | .hbm, ⟨39, _⟩ => ⟨S8x16x16, .f32⟩
  | .hbm, ⟨40, _⟩ => ⟨S_, .f32⟩
  | .hbm, ⟨41, _⟩ => ⟨S_, .f32⟩
  | .hbm, ⟨42, _⟩ => ⟨S8x16x16, .f32⟩
  | .hbm, ⟨43, _⟩ => ⟨S8x16x16, .f32⟩
  | .hbm, ⟨44, _⟩ => ⟨S_, .f32⟩
  | .hbm, ⟨45, _⟩ => ⟨S_, .f32⟩
  | .hbm, ⟨46, _⟩ => ⟨S8x16x16, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S20000x8, .f32⟩
  | .local _ .vmem, ⟨1, _⟩ => ⟨S20000x8, .f32⟩
  | .local _ .vmem, ⟨2, _⟩ => ⟨S20000x8, .i32⟩
  | .local _ .vmem, ⟨3, _⟩ => ⟨S20000x8, .i32⟩
  | .local _ .vmem, ⟨4, _⟩ => ⟨S1x8x16, .f32⟩
  | .local _ .vmem, ⟨5, _⟩ => ⟨S1x8x16, .f32⟩
  | .local _ .vmem, ⟨6, _⟩ => ⟨S1x8x16, .f32⟩
  | .local _ .vmem, ⟨7, _⟩ => ⟨S1x8x16, .f32⟩
  | .local _ .vmem, ⟨8, _⟩ => ⟨S8x16, .f32⟩
  | .local _ .vmem, ⟨9, _⟩ => ⟨S8x16, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_call2_v0 : Ref sig .tc := ⟨.hbm, 54, rfl⟩
abbrev main_v31 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v179 : BitVec 1 := Scalar.cmpi .eq arg1 c49_i32
  let v180 : BitVec 32 := Scalar.extui v179
  let c0_i32_78 : BitVec 32 := 0#32
  let v181 : BitVec 1 := Scalar.cmpi .ne v180 c0_i32_78
  v181

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S20000x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S20000x8_S20000x8_0_0 : ∀ a, (![0, 0] : Fin 2 → Nat) a + S20000x8.size a ≤ S20000x8.size a
  h_S20000x8 : 0 < S20000x8.numel
  reduces_S20000x8_S20000 : S20000x8.Reduces [1] S20000
  shapeCasts_S20000_S20000x1 : S20000.ShapeCasts S20000x1
  iota_S20000x16_d1_w32 : S20000x16.Iotas .tc 32 [1]
  slices_S20000x8_o0_0_S20000x1 : S20000x8.Slices ![0, 0] S20000x1
  broadcasts_S20000x1_S20000x16 : S20000x1.Broadcasts S20000x16
  natLt_1_32 : 1 < 32
  reduces_S20000x16_S16 : S20000x16.Reduces [0] S16
  shapeCasts_S16_S1x16 : S16.ShapeCasts S1x16
  inb_S8x16_S1x16_0_0 : ∀ a, (![0, 0] : Fin 2 → Nat) a + S1x16.size a ≤ S8x16.size a
  h_S1x16 : 0 < S1x16.numel
  shapeCasts_S1x16_S1x16 : S1x16.ShapeCasts S1x16
  slices_S20000x8_o0_1_S20000x1 : S20000x8.Slices ![0, 1] S20000x1
  inb_S8x16_S1x16_1_0 : ∀ a, (![1, 0] : Fin 2 → Nat) a + S1x16.size a ≤ S8x16.size a
  slices_S20000x8_o0_2_S20000x1 : S20000x8.Slices ![0, 2] S20000x1
  inb_S8x16_S1x16_2_0 : ∀ a, (![2, 0] : Fin 2 → Nat) a + S1x16.size a ≤ S8x16.size a
  slices_S20000x8_o0_3_S20000x1 : S20000x8.Slices ![0, 3] S20000x1
  inb_S8x16_S1x16_3_0 : ∀ a, (![3, 0] : Fin 2 → Nat) a + S1x16.size a ≤ S8x16.size a
  slices_S20000x8_o0_4_S20000x1 : S20000x8.Slices ![0, 4] S20000x1
  inb_S8x16_S1x16_4_0 : ∀ a, (![4, 0] : Fin 2 → Nat) a + S1x16.size a ≤ S8x16.size a
  slices_S20000x8_o0_5_S20000x1 : S20000x8.Slices ![0, 5] S20000x1
  inb_S8x16_S1x16_5_0 : ∀ a, (![5, 0] : Fin 2 → Nat) a + S1x16.size a ≤ S8x16.size a
  slices_S20000x8_o0_6_S20000x1 : S20000x8.Slices ![0, 6] S20000x1
  inb_S8x16_S1x16_6_0 : ∀ a, (![6, 0] : Fin 2 → Nat) a + S1x16.size a ≤ S8x16.size a
  slices_S20000x8_o0_7_S20000x1 : S20000x8.Slices ![0, 7] S20000x1
  inb_S8x16_S1x16_7_0 : ∀ a, (![7, 0] : Fin 2 → Nat) a + S1x16.size a ≤ S8x16.size a
  inb_S1x8x16_S1x8x16_0_0_0 : ∀ a, (![0, 0, 0] : Fin 3 → Nat) a + S1x8x16.size a ≤ S1x8x16.size a
  h_S1x8x16 : 0 < S1x8x16.numel
  shapeCasts_S1x8x16_S8x16 : S1x8x16.ShapeCasts S8x16
  shapeCasts_S8x16_S1x8x16 : S8x16.ShapeCasts S1x8x16
  reducesTo_S2x8x16_S8x16_d0 : S2x8x16.ReducesTo [0] S8x16
  h_S_ : 0 < S_.numel
  bcast_S_S8x16 : S_.BroadcastsInDim S8x16 (![] : Fin 0 → Fin S8x16.rank)
  bcast_S8x16_S8x16x1_0_1 : S8x16.BroadcastsInDim S8x16x1 (![0, 1] : Fin 2 → Fin S8x16x1.rank)
  bcast_S8x16_S8x1x16_0_2 : S8x16.BroadcastsInDim S8x1x16 (![0, 2] : Fin 2 → Fin S8x1x16.rank)
  bcast_S8x16x1_S8x16x16_0_1_2 : S8x16x1.BroadcastsInDim S8x16x16 (![0, 1, 2] : Fin 3 → Fin S8x16x16.rank)
  bcast_S8x1x16_S8x16x16_0_1_2 : S8x1x16.BroadcastsInDim S8x16x16 (![0, 1, 2] : Fin 3 → Fin S8x16x16.rank)
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S8x16x16_0_1_2 : S1x16x16.BroadcastsInDim S8x16x16 (![0, 1, 2] : Fin 3 → Fin S8x16x16.rank)
  bcast_S_S8x16x16 : S_.BroadcastsInDim S8x16x16 (![] : Fin 0 → Fin S8x16x16.rank)
  reducesTo_S8x16x16_S_d0_1_2 : S8x16x16.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x8.size a ≤ S2000000x8.size a
  hwx0_0 : ∀ i : grid0.Coords, EltTy.bits .f32 = 32 ∨ (Rect.block (s := S2000000x8) S20000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x8.size a ≤ S2000000x8.size a
  hwx0_1 : ∀ i : grid0.Coords, EltTy.bits .i32 = 32 ∨ (Rect.block (s := S2000000x8) S20000x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x16.size a ≤ S2x8x16.size a
  hwx0_2 : ∀ i : grid0.Coords, EltTy.bits .f32 = 32 ∨ (Rect.block (s := S2x8x16) S1x8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x16.size a ≤ S2x8x16.size a
  hwx0_3 : ∀ i : grid0.Coords, EltTy.bits .f32 = 32 ∨ (Rect.block (s := S2x8x16) S1x8x16.size (cc0_transform_3 i) (hinb0_3 i)).WholeWords (EltTy.packing .f32)

variable [Facts₀]

abbrev win0_0 : Pipeline.Window sig grid0 :=
  Pipeline.Window.ofSpec (Memref.whole main_arg0) S20000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2000000x8 : Shape := ⟨2, ![2000000, 8]⟩
abbrev S_ : Shape := ⟨0, ![]⟩
abbrev S2000000 : Shape := ⟨1, ![2000000]⟩
abbrev S8 : Shape := ⟨1, ![8]⟩
abbrev S1x8 : Shape := ⟨2, ![1, 8]⟩
abbrev S16000000 : Shape := ⟨1, ![16000000]⟩
abbrev S2000000x1 : Shape := ⟨2, ![2000000, 1]⟩
abbrev S128 : Shape := ⟨1, ![128]⟩
abbrev S16000000x1 : Shape := ⟨2, ![16000000, 1]⟩
abbrev S8x16 : Shape := ⟨2, ![8, 16]⟩
abbrev S8x16x1 : Shape := ⟨3, ![8, 16, 1]⟩
abbrev S8x1x16 : Shape := ⟨3, ![8, 1, 16]⟩
abbrev S8x16x16 : Shape := ⟨3, ![8, 16, 16]⟩
abbrev S16x16 : Shape := ⟨2, ![16, 16]⟩
abbrev S1x16x16 : Shape := ⟨3, ![1, 16, 16]⟩

abbrev nBuf : Space → Nat
  | .hbm => 86
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S2000000x8, .i32⟩
  | .hbm, ⟨2, _⟩ => ⟨S2000000x8, .f32⟩
  | .hbm, ⟨3, _⟩ => ⟨S2000000x8, .f32⟩
  | .hbm, ⟨4, _⟩ => ⟨S_, .f32⟩
  | .hbm, ⟨5, _⟩ => ⟨S2000000x8, .f32⟩
  | .hbm, ⟨6, _⟩ => ⟨S2000000x8, .f32⟩
  | .hbm, ⟨7, _⟩ => ⟨S_, .f32⟩
  | .hbm, ⟨8, _⟩ => ⟨S2000000x8, .f32⟩
  | .hbm, ⟨9, _⟩ => ⟨S2000000x8, .f32⟩
  | .hbm, ⟨10, _⟩ => ⟨S_, .f32⟩
  | .hbm, ⟨11, _⟩ => ⟨S2000000, .f32⟩
  | .hbm, ⟨12, _⟩ => ⟨S_, .f32⟩
  | .hbm, ⟨13, _⟩ => ⟨S2000000, .f32⟩
  | .hbm, ⟨14, _⟩ => ⟨S2000000, .f32⟩
  | .hbm, ⟨15, _⟩ => ⟨S8, .i32⟩
  | .hbm, ⟨16, _⟩ => ⟨S1x8, .i32⟩
  | .hbm, ⟨17, _⟩ => ⟨S_, .i32⟩
  | .hbm, ⟨18, _⟩ => ⟨S1x8, .i32⟩
  | .hbm, ⟨19, _⟩ => ⟨S1x8, .i32⟩
  | .hbm, ⟨20, _⟩ => ⟨S2000000x8, .i32⟩
  | .hbm, ⟨21, _⟩ => ⟨S2000000x8, .i32⟩
  | .hbm, ⟨22, _⟩ => ⟨S16000000, .i32⟩
  | .hbm, ⟨23, _⟩ => ⟨S2000000x1, .f32⟩
  | .hbm, ⟨24, _⟩ => ⟨S2000000x8, .f32⟩
  | .hbm, ⟨25, _⟩ => ⟨S16000000, .f32⟩
  | .hbm, ⟨26, _⟩ => ⟨S_, .f32⟩
  | .hbm, ⟨27, _⟩ => ⟨S128, .f32⟩
  | .hbm, ⟨28, _⟩ => ⟨S16000000x1, .i32⟩
  | .hbm, ⟨29, _⟩ => ⟨S128, .f32⟩
  | .hbm, ⟨30, _⟩ => ⟨S_, .f32⟩
  | .hbm, ⟨31, _⟩ => ⟨S16000000, .f32⟩
  | .hbm, ⟨32, _⟩ => ⟨S_, .f32⟩
  | .hbm, ⟨33, _⟩ => ⟨S128, .f32⟩
  | .hbm, ⟨34, _⟩ => ⟨S16000000x1, .i32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S8x16, .f32⟩
  | .hbm, ⟨41, _⟩ => ⟨S_, .f32⟩
  | .hbm, ⟨42, _⟩ => ⟨S128, .f32⟩
  | .hbm, ⟨43, _⟩ => ⟨S128, .i1⟩
  | .hbm, ⟨44, _⟩ => ⟨S8x16, .i1⟩
  | .hbm, ⟨45, _⟩ => ⟨S8x16x1, .f32⟩
  | .hbm, ⟨46, _⟩ => ⟨S8x1x16, .f32⟩
  | .hbm, ⟨47, _⟩ => ⟨S8x16x16, .f32⟩
  | .hbm, ⟨48, _⟩ => ⟨S8x16x16, .f32⟩
  | .hbm, ⟨49, _⟩ => ⟨S8x16x16, .f32⟩
  | .hbm, ⟨50, _⟩ => ⟨S_, .i1⟩
  | .hbm, ⟨51, _⟩ => ⟨S16x16, .i1⟩
  | .hbm, ⟨52, _⟩ => ⟨S16x16, .i32⟩
  | .hbm, ⟨53, _⟩ => ⟨S_, .i32⟩
  | .hbm, ⟨54, _⟩ => ⟨S16x16, .i32⟩
  | .hbm, ⟨55, _⟩ => ⟨S16x16, .i32⟩
  | .hbm, ⟨56, _⟩ => ⟨S16x16, .i32⟩
  | .hbm, ⟨57, _⟩ => ⟨S16x16, .i1⟩
  | .hbm, ⟨58, _⟩ => ⟨S_, .i1⟩
  | .hbm, ⟨59, _⟩ => ⟨S16x16, .i1⟩
  | .hbm, ⟨60, _⟩ => ⟨S16x16, .i1⟩
  | .hbm, ⟨61, _⟩ => ⟨S8x16x1, .i1⟩
  | .hbm, ⟨62, _⟩ => ⟨S8x1x16, .i1⟩
  | .hbm, ⟨63, _⟩ => ⟨S8x16x16, .i1⟩
  | .hbm, ⟨64, _⟩ => ⟨S8x16x16, .i1⟩
  | .hbm, ⟨65, _⟩ => ⟨S8x16x16, .i1⟩
  | .hbm, ⟨66, _⟩ => ⟨S1x16x16, .i1⟩
  | .hbm, ⟨67, _⟩ => ⟨S8x16x16, .i1⟩
  | .hbm, ⟨68, _⟩ => ⟨S8x16x16, .i1⟩
  | .hbm, ⟨69, _⟩ => ⟨S8x16x16, .f32⟩
  | .hbm, ⟨70, _⟩ => ⟨S_, .f32⟩
  | .hbm, ⟨71, _⟩ => ⟨S_, .f32⟩
  | .hbm, ⟨72, _⟩ => ⟨S8x16x16, .f32⟩
  | .hbm, ⟨73, _⟩ => ⟨S8x16x16, .f32⟩
  | .hbm, ⟨74, _⟩ => ⟨S_, .f32⟩
  | .hbm, ⟨75, _⟩ => ⟨S_, .f32⟩
  | .hbm, ⟨76, _⟩ => ⟨S8x16x16, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_call2_v0 : Ref sig .tc := ⟨.hbm, 84, rfl⟩
abbrev main_v56 : Ref sig .tc := ⟨.hbm, 85, rfl⟩

abbrev nD : Nat := 1
abbrev τ : Topo := Topo.v7x

variable {F : FTy → Type} [FloatOps F]

class Facts₀ : Prop where
  bcast_S_S2000000x8 : S_.BroadcastsInDim S2000000x8 (![] : Fin 0 → Fin S2000000x8.rank)
  reducesTo_S2000000x8_S2000000_d1 : S2000000x8.ReducesTo [1] S2000000
  h_S_ : 0 < S_.numel
  bcast_S_S2000000 : S_.BroadcastsInDim S2000000 (![] : Fin 0 → Fin S2000000.rank)
  bcast_S8_S1x8_1 : S8.BroadcastsInDim S1x8 (![1] : Fin 1 → Fin S1x8.rank)
  bcast_S_S1x8 : S_.BroadcastsInDim S1x8 (![] : Fin 0 → Fin S1x8.rank)
  bcast_S1x8_S2000000x8_0_1 : S1x8.BroadcastsInDim S2000000x8 (![0, 1] : Fin 2 → Fin S2000000x8.rank)
  shapeCasts_S2000000x8_S16000000 : S2000000x8.ShapeCasts S16000000
  bcast_S2000000_S2000000x1_0 : S2000000.BroadcastsInDim S2000000x1 (![0] : Fin 1 → Fin S2000000x1.rank)
  bcast_S2000000x1_S2000000x8_0_1 : S2000000x1.BroadcastsInDim S2000000x8 (![0, 1] : Fin 2 → Fin S2000000x8.rank)
  bcast_S_S128 : S_.BroadcastsInDim S128 (![] : Fin 0 → Fin S128.rank)
  bcast_S16000000_S16000000x1_0 : S16000000.BroadcastsInDim S16000000x1 (![0] : Fin 1 → Fin S16000000x1.rank)
  bcast_S_S16000000 : S_.BroadcastsInDim S16000000 (![] : Fin 0 → Fin S16000000.rank)
  shapeCasts_S128_S8x16 : S128.ShapeCasts S8x16
  bcast_S8x16_S8x16x1_0_1 : S8x16.BroadcastsInDim S8x16x1 (![0, 1] : Fin 2 → Fin S8x16x1.rank)
  bcast_S8x16_S8x1x16_0_2 : S8x16.BroadcastsInDim S8x1x16 (![0, 2] : Fin 2 → Fin S8x1x16.rank)
  bcast_S8x16x1_S8x16x16_0_1_2 : S8x16x1.BroadcastsInDim S8x16x16 (![0, 1, 2] : Fin 3 → Fin S8x16x16.rank)
  bcast_S8x1x16_S8x16x16_0_1_2 : S8x1x16.BroadcastsInDim S8x16x16 (![0, 1, 2] : Fin 3 → Fin S8x16x16.rank)
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S8x16x16_0_1_2 : S1x16x16.BroadcastsInDim S8x16x16 (![0, 1, 2] : Fin 3 → Fin S8x16x16.rank)
  bcast_S_S8x16x16 : S_.BroadcastsInDim S8x16x16 (![] : Fin 0 → Fin S8x16x16.rank)
  reducesTo_S8x16x16_S_d0_1_2 : S8x16x16.ReducesTo [0, 1, 2] S_
  natLt_1_32 : 1 < 32
  scatter_S128_S16000000x1_S16000000_n_0_0_1_wf : ScatterDims.WF S128 S16000000x1 S16000000 [] [0] [0] 1

variable [Facts₀]

def scatter_S128_S16000000x1_S16000000_n_0_0_1 : ScatterDims S128 S16000000x1 S16000000 where
  updateWindowDims := []
  insertedWindowDims := [0]
  scatterDimsToOperandDims := [0]
  indexVectorDim := 1
  wf := scatter_S128_S16000000x1_S16000000_n_0_0_1_wf

class Facts : Prop extends Facts₀ where

variable [Facts]
-- ==== Proof.RefStageRun.lean ====
/-
  The idealized reference's run, read stage by stage.

  The reference is a straight line of 84 host operations.  Cut after the row values and the segment numbers
  (`%8`, `%15`), after the group means and presence flags (`%29`, `%32`) and after the pair mask and the squared
  differences (`%47`, `%48`), each of the four stretches reads only the two values the stretch before it left (the
  first: the two arguments), so what a stretch's last operations write is a function of those two values alone: the
  stage functions `val_main_vN` of Proof/RefRead.lean.  Every weakly fair execution of the whole line terminates with
  each buffer at the fold of the operations' results (the library's run of a straight line); read stretch by stretch
  the fold leaves the result `%56` at its stage of the two arguments, and the arguments as they were.
-/
import proofs.«406109_j36258113913169_2_alg».proof.Proof.RefRead
import Idealize.ShloMosaic.Lib.StableHlo.Run
import Idealize.ShloMosaic.Lib.Pipeline.Frame

noncomputable section

namespace Cert.ReferenceIdeal.StageRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 1 … 21: the row values `%8` and the flattened segment numbers `%15`, from the two arguments. -/
abbrev opsA : List (HloOp τ sig (Elt F)) :=
  [ unary main_arg0 main_v0 (Host.negf : (⟨S2000000x8, .f32⟩ : BufTy).Contents (Elt F) → (⟨S2000000x8, .f32⟩ : BufTy).Contents (Elt F)),
    unary main_v0 main_v1 (Host.exp : (⟨S2000000x8, .f32⟩ : BufTy).Contents (Elt F) → (⟨S2000000x8, .f32⟩ : BufTy).Contents (Elt F)),
    nullary main_cst (constant S_ .f32 0x3F800000#32),
    unary main_cst main_v2 (broadcastInDim S2000000x8 ![] bcast_S_S2000000x8 : (⟨S_, .f32⟩ : BufTy).Contents (Elt F) → (⟨S2000000x8, .f32⟩ : BufTy).Contents (Elt F)),
    binary main_v2 main_v1 main_v3 (addf : (⟨S2000000x8, .f32⟩ : BufTy).Contents (Elt F) → (⟨S2000000x8, .f32⟩ : BufTy).Contents (Elt F) → (⟨S2000000x8, .f32⟩ : BufTy).Contents (Elt F)),
    nullary main_cst_0 (constant S_ .f32 0x3F800000#32),
    unary main_cst_0 main_v4 (broadcastInDim S2000000x8 ![] bcast_S_S2000000x8 : (⟨S_, .f32⟩ : BufTy).Contents (Elt F) → (⟨S2000000x8, .f32⟩ : BufTy).Contents (Elt F)),
    binary main_v4 main_v3 main_v5 (Host.divf : (⟨S2000000x8, .f32⟩ : BufTy).Contents (Elt F) → (⟨S2000000x8, .f32⟩ : BufTy).Contents (Elt F) → (⟨S2000000x8, .f32⟩ : BufTy).Contents (Elt F)),
    nullary main_cst_1 (constant S_ .f32 0x00000000#32),
    binary main_v5 main_cst_1 main_v6 ((fun x v => Host.reduceAdd x v reducesTo_S2000000x8_S2000000_d1 h_S_) : (⟨S2000000x8, .f32⟩ : BufTy).Contents (Elt F) → (⟨S_, .f32⟩ : BufTy).Contents (Elt F) → (⟨S2000000, .f32⟩ : BufTy).Contents (Elt F)),
    nullary main_cst_2 (constant S_ .f32 0x41000000#32),
    unary main_cst_2 main_v7 (broadcastInDim S2000000 ![] bcast_S_S2000000 : (⟨S_, .f32⟩ : BufTy).Contents (Elt F) → (⟨S2000000, .f32⟩ : BufTy).Contents (Elt F)),
    binary main_v6 main_v7 main_v8 (Host.divf : (⟨S2000000, .f32⟩ : BufTy).Contents (Elt F) → (⟨S2000000, .f32⟩ : BufTy).Contents (Elt F) → (⟨S2000000, .f32⟩ : BufTy).Contents (Elt F)),
    nullary main_v9 (iotaInDim S8 32 0),
    unary main_v9 main_v10 (broadcastInDim S1x8 ![1] bcast_S8_S1x8_1 : (⟨S8, .i32⟩ : BufTy).Contents (Elt F) → (⟨S1x8, .i32⟩ : BufTy).Contents (Elt F)),
    nullary main_c (constantI S_ 32 16#32),
    unary main_c main_v11 (broadcastInDim S1x8 ![] bcast_S_S1x8 : (⟨S_, .i32⟩ : BufTy).Contents (Elt F) → (⟨S1x8, .i32⟩ : BufTy).Contents (Elt F)),
    binary main_v10 main_v11 main_v12 (muli : (⟨S1x8, .i32⟩ : BufTy).Contents (Elt F) → (⟨S1x8, .i32⟩ : BufTy).Contents (Elt F) → (⟨S1x8, .i32⟩ : BufTy).Contents (Elt F)),
    unary main_v12 main_v13 (broadcastInDim S2000000x8 ![0, 1] bcast_S1x8_S2000000x8_0_1 : (⟨S1x8, .i32⟩ : BufTy).Contents (Elt F) → (⟨S2000000x8, .i32⟩ : BufTy).Contents (Elt F)),
    binary main_arg1 main_v13 main_v14 (addi : (⟨S2000000x8, .i32⟩ : BufTy).Contents (Elt F) → (⟨S2000000x8, .i32⟩ : BufTy).Contents (Elt F) → (⟨S2000000x8, .i32⟩ : BufTy).Contents (Elt F)),
    reshape main_v14 main_v15 rfl shapeCasts_S2000000x8_S16000000 ]

/-- Operations 22 … 43: the group means `%29` and the presence flags `%32`, from `%8` and `%15`. -/
abbrev opsB : List (HloOp τ sig (Elt F)) :=
  [ unary main_v8 main_v16 (broadcastInDim S2000000x1 ![0] bcast_S2000000_S2000000x1_0 : (⟨S2000000, .f32⟩ : BufTy).Contents (Elt F) → (⟨S2000000x1, .f32⟩ : BufTy).Contents (Elt F)),
    unary main_v16 main_v17 (broadcastInDim S2000000x8 ![0, 1] bcast_S2000000x1_S2000000x8_0_1 : (⟨S2000000x1, .f32⟩ : BufTy).Contents (Elt F) → (⟨S2000000x8, .f32⟩ : BufTy).Contents (Elt F)),
    reshape main_v17 main_v18 rfl shapeCasts_S2000000x8_S16000000,
    nullary main_cst_3 (constant S_ .f32 0x00000000#32),
    unary main_cst_3 main_v19 (broadcastInDim S128 ![] bcast_S_S128 : (⟨S_, .f32⟩ : BufTy).Contents (Elt F) → (⟨S128, .f32⟩ : BufTy).Contents (Elt F)),
    unary main_v15 main_v20 (broadcastInDim S16000000x1 ![0] bcast_S16000000_S16000000x1_0 : (⟨S16000000, .i32⟩ : BufTy).Contents (Elt F) → (⟨S16000000x1, .i32⟩ : BufTy).Contents (Elt F)),
    ternary main_v19 main_v20 main_v18 main_v21 ((fun x i u => Host.scatterAdd scatter_S128_S16000000x1_S16000000_n_0_0_1 x i u) : (⟨S128, .f32⟩ : BufTy).Contents (Elt F) → (⟨S16000000x1, .i32⟩ : BufTy).Contents (Elt F) → (⟨S16000000, .f32⟩ : BufTy).Contents (Elt F) → (⟨S128, .f32⟩ : BufTy).Contents (Elt F)),
    nullary main_cst_4 (constant S_ .f32 0x3F800000#32),
    unary main_cst_4 main_v22 (broadcastInDim S16000000 ![] bcast_S_S16000000 : (⟨S_, .f32⟩ : BufTy).Contents (Elt F) → (⟨S16000000, .f32⟩ : BufTy).Contents (Elt F)),
    nullary main_cst_5 (constant S_ .f32 0x00000000#32),
    unary main_cst_5 main_v23 (broadcastInDim S128 ![] bcast_S_S128 : (⟨S_, .f32⟩ : BufTy).Contents (Elt F) → (⟨S128, .f32⟩ : BufTy).Contents (Elt F)),
    unary main_v15 main_v24 (broadcastInDim S16000000x1 ![0] bcast_S16000000_S16000000x1_0 : (⟨S16000000, .i32⟩ : BufTy).Contents (Elt F) → (⟨S16000000x1, .i32⟩ : BufTy).Contents (Elt F)),
    ternary main_v23 main_v24 main_v22 main_v25 ((fun x i u => Host.scatterAdd scatter_S128_S16000000x1_S16000000_n_0_0_1 x i u) : (⟨S128, .f32⟩ : BufTy).Contents (Elt F) → (⟨S16000000x1, .i32⟩ : BufTy).Contents (Elt F) → (⟨S16000000, .f32⟩ : BufTy).Contents (Elt F) → (⟨S128, .f32⟩ : BufTy).Contents (Elt F)),
    nullary main_cst_6 (constant S_ .f32 0x3F800000#32),
    unary main_cst_6 main_v26 (broadcastInDim S128 ![] bcast_S_S128 : (⟨S_, .f32⟩ : BufTy).Contents (Elt F) → (⟨S128, .f32⟩ : BufTy).Contents (Elt F)),
    binary main_v25 main_v26 main_v27 (maximumf : (⟨S128, .f32⟩ : BufTy).Contents (Elt F) → (⟨S128, .f32⟩ : BufTy).Contents (Elt F) → (⟨S128, .f32⟩ : BufTy).Contents (Elt F)),
    binary main_v21 main_v27 main_v28 (Host.divf : (⟨S128, .f32⟩ : BufTy).Contents (Elt F) → (⟨S128, .f32⟩ : BufTy).Contents (Elt F) → (⟨S128, .f32⟩ : BufTy).Contents (Elt F)),
    reshape main_v28 main_v29 rfl shapeCasts_S128_S8x16,
    nullary main_cst_7 (constant S_ .f32 0x00000000#32),
    unary main_cst_7 main_v30 (broadcastInDim S128 ![] bcast_S_S128 : (⟨S_, .f32⟩ : BufTy).Contents (Elt F) → (⟨S128, .f32⟩ : BufTy).Contents (Elt F)),
    binary main_v25 main_v30 main_v31 (cmpf .ogt : (⟨S128, .f32⟩ : BufTy).Contents (Elt F) → (⟨S128, .f32⟩ : BufTy).Contents (Elt F) → (⟨S128, .i1⟩ : BufTy).Contents (Elt F)),
    reshape main_v31 main_v32 rfl shapeCasts_S128_S8x16 ]

/-- Operations 44 … 68: the pair mask `%47` and the squared differences `%48`, from `%29` and `%32`. -/
abbrev opsC : List (HloOp τ sig (Elt F)) :=
  [ unary main_v29 main_v33 (broadcastInDim S8x16x1 ![0, 1] bcast_S8x16_S8x16x1_0_1 : (⟨S8x16, .f32⟩ : BufTy).Contents (Elt F) → (⟨S8x16x1, .f32⟩ : BufTy).Contents (Elt F)),
    unary main_v29 main_v34 (broadcastInDim S8x1x16 ![0, 2] bcast_S8x16_S8x1x16_0_2 : (⟨S8x16, .f32⟩ : BufTy).Contents (Elt F) → (⟨S8x1x16, .f32⟩ : BufTy).Contents (Elt F)),
    unary main_v33 main_v35 (broadcastInDim S8x16x16 ![0, 1, 2] bcast_S8x16x1_S8x16x16_0_1_2 : (⟨S8x16x1, .f32⟩ : BufTy).Contents (Elt F) → (⟨S8x16x16, .f32⟩ : BufTy).Contents (Elt F)),
    unary main_v34 main_v36 (broadcastInDim S8x16x16 ![0, 1, 2] bcast_S8x1x16_S8x16x16_0_1_2 : (⟨S8x1x16, .f32⟩ : BufTy).Contents (Elt F) → (⟨S8x16x16, .f32⟩ : BufTy).Contents (Elt F)),
    binary main_v35 main_v36 main_v37 (subf : (⟨S8x16x16, .f32⟩ : BufTy).Contents (Elt F) → (⟨S8x16x16, .f32⟩ : BufTy).Contents (Elt F) → (⟨S8x16x16, .f32⟩ : BufTy).Contents (Elt F)),
    nullary main_c_8 (constantI S_ 1 1#1),
    unary main_c_8 main_v38 (broadcastInDim S16x16 ![] bcast_S_S16x16 : (⟨S_, .i1⟩ : BufTy).Contents (Elt F) → (⟨S16x16, .i1⟩ : BufTy).Contents (Elt F)),
    TRef.nullary (TRef.of (T := ⟨S16x16, .i32⟩) main_call0_v0) (iotaInDim S16x16 32 0),
    TRef.nullary (TRef.of (T := ⟨S_, .i32⟩) main_call0_c) (constantI S_ 32 0#32),
    TRef.unary (TRef.of (T := ⟨S_, .i32⟩) main_call0_c) (TRef.of (T := ⟨S16x16, .i32⟩) main_call0_v1) (broadcastInDim S16x16 ![] bcast_S_S16x16),
    TRef.binary (TRef.of (T := ⟨S16x16, .i32⟩) main_call0_v0) (TRef.of (T := ⟨S16x16, .i32⟩) main_call0_v1) (TRef.of (T := ⟨S16x16, .i32⟩) main_call0_v2) addi,
    TRef.nullary (TRef.of (T := ⟨S16x16, .i32⟩) main_call0_v3) (iotaInDim S16x16 32 1),
    TRef.binary (TRef.of (T := ⟨S16x16, .i32⟩) main_call0_v2) (TRef.of (T := ⟨S16x16, .i32⟩) main_call0_v3) (TRef.of (T := ⟨S16x16, .i1⟩) main_call0_v4) (cmpi .sge),
    TRef.nullary (TRef.of (T := ⟨S_, .i1⟩) main_call0_c_0) (constantI S_ 1 0#1),
    TRef.unary (TRef.of (T := ⟨S_, .i1⟩) main_call0_c_0) (TRef.of (T := ⟨S16x16, .i1⟩) main_call0_v5) (broadcastInDim S16x16 ![] bcast_S_S16x16),
    TRef.ternary (TRef.of (T := ⟨S16x16, .i1⟩) main_call0_v4) (TRef.of (T := ⟨S16x16, .i1⟩) main_call0_v5) (TRef.of (T := ⟨S16x16, .i1⟩) main_v38) (TRef.of (T := ⟨S16x16, .i1⟩) main_v39) select,
    unary main_v32 main_v40 (broadcastInDim S8x16x1 ![0, 1] bcast_S8x16_S8x16x1_0_1 : (⟨S8x16, .i1⟩ : BufTy).Contents (Elt F) → (⟨S8x16x1, .i1⟩ : BufTy).Contents (Elt F)),
    unary main_v32 main_v41 (broadcastInDim S8x1x16 ![0, 2] bcast_S8x16_S8x1x16_0_2 : (⟨S8x16, .i1⟩ : BufTy).Contents (Elt F) → (⟨S8x1x16, .i1⟩ : BufTy).Contents (Elt F)),
    unary main_v40 main_v42 (broadcastInDim S8x16x16 ![0, 1, 2] bcast_S8x16x1_S8x16x16_0_1_2 : (⟨S8x16x1, .i1⟩ : BufTy).Contents (Elt F) → (⟨S8x16x16, .i1⟩ : BufTy).Contents (Elt F)),
    unary main_v41 main_v43 (broadcastInDim S8x16x16 ![0, 1, 2] bcast_S8x1x16_S8x16x16_0_1_2 : (⟨S8x1x16, .i1⟩ : BufTy).Contents (Elt F) → (⟨S8x16x16, .i1⟩ : BufTy).Contents (Elt F)),
    binary main_v42 main_v43 main_v44 (andi : (⟨S8x16x16, .i1⟩ : BufTy).Contents (Elt F) → (⟨S8x16x16, .i1⟩ : BufTy).Contents (Elt F) → (⟨S8x16x16, .i1⟩ : BufTy).Contents (Elt F)),
    unary main_v39 main_v45 (broadcastInDim S1x16x16 ![1, 2] bcast_S16x16_S1x16x16_1_2 : (⟨S16x16, .i1⟩ : BufTy).Contents (Elt F) → (⟨S1x16x16, .i1⟩ : BufTy).Contents (Elt F)),
    unary main_v45 main_v46 (broadcastInDim S8x16x16 ![0, 1, 2] bcast_S1x16x16_S8x16x16_0_1_2 : (⟨S1x16x16, .i1⟩ : BufTy).Contents (Elt F) → (⟨S8x16x16, .i1⟩ : BufTy).Contents (Elt F)),
    binary main_v44 main_v46 main_v47 (andi : (⟨S8x16x16, .i1⟩ : BufTy).Contents (Elt F) → (⟨S8x16x16, .i1⟩ : BufTy).Contents (Elt F) → (⟨S8x16x16, .i1⟩ : BufTy).Contents (Elt F)),
    binary main_v37 main_v37 main_v48 (mulf : (⟨S8x16x16, .f32⟩ : BufTy).Contents (Elt F) → (⟨S8x16x16, .f32⟩ : BufTy).Contents (Elt F) → (⟨S8x16x16, .f32⟩ : BufTy).Contents (Elt F)) ]

/-- Operations 69 … 84: the result `%56`, from `%47` and `%48`. -/
abbrev opsD : List (HloOp τ sig (Elt F)) :=
  [ nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S8x16x16, .f32⟩) main_call1_v1) (broadcastInDim S8x16x16 ![] bcast_S_S8x16x16),
    TRef.ternary (TRef.of (T := ⟨S8x16x16, .i1⟩) main_v47) (TRef.of (T := ⟨S8x16x16, .f32⟩) main_v48) (TRef.of (T := ⟨S8x16x16, .f32⟩) main_call1_v1) (TRef.of (T := ⟨S8x16x16, .f32⟩) main_v49) select,
    nullary main_cst_10 (constant S_ .f32 0x00000000#32),
    binary main_v49 main_cst_10 main_v50 ((fun x v => Host.reduceAdd x v reducesTo_S8x16x16_S_d0_1_2 h_S_) : (⟨S8x16x16, .f32⟩ : BufTy).Contents (Elt F) → (⟨S_, .f32⟩ : BufTy).Contents (Elt F) → (⟨S_, .f32⟩ : BufTy).Contents (Elt F)),
    unary main_v47 main_v51 ((extui 32 · natLt_1_32) : (⟨S8x16x16, .i1⟩ : BufTy).Contents (Elt F) → (⟨S8x16x16, .i32⟩ : BufTy).Contents (Elt F)),
    nullary main_c_11 (constantI S_ 32 0#32),
    binary main_v51 main_c_11 main_v52 ((fun x v => Host.reduce IntOp.addi x v reducesTo_S8x16x16_S_d0_1_2 h_S_) : (⟨S8x16x16, .i32⟩ : BufTy).Contents (Elt F) → (⟨S_, .i32⟩ : BufTy).Contents (Elt F) → (⟨S_, .i32⟩ : BufTy).Contents (Elt F)),
    nullary main_c_12 (constantI S_ 32 0#32),
    binary main_v52 main_c_12 main_v53 (cmpi .sgt : (⟨S_, .i32⟩ : BufTy).Contents (Elt F) → (⟨S_, .i32⟩ : BufTy).Contents (Elt F) → (⟨S_, .i1⟩ : BufTy).Contents (Elt F)),
    unary main_v52 main_v54 (sitofp .f32 : (⟨S_, .i32⟩ : BufTy).Contents (Elt F) → (⟨S_, .f32⟩ : BufTy).Contents (Elt F)),
    binary main_v50 main_v54 main_v55 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32),
    TRef.unary (TRef.of (T := ⟨S_, .f32⟩) main_cst_13) (TRef.of (T := ⟨S_, .f32⟩) main_call2_v0) id,
    TRef.ternary (TRef.of (T := ⟨S_, .i1⟩) main_v53) (TRef.of (T := ⟨S_, .f32⟩) main_v55) (TRef.of (T := ⟨S_, .f32⟩) main_call2_v0) (TRef.of (T := ⟨S_, .f32⟩) main_v56) select ]

/-- The whole line. -/
abbrev ops : List (HloOp τ sig (Elt F)) := opsA ++ (opsB ++ (opsC ++ opsD))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., nullary_bufs_sub .., unary_bufs_sub .., binary_bufs_sub .., unary_bufs_sub .., binary_bufs_sub .., reshape_bufs_sub ..⟩
theorem opsB_sub : (opsB : List (HloOp τ sig (Elt F))).Forall fun op => op.bufs ⊆ tcRefs τ sig :=
  ⟨unary_bufs_sub .., unary_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub .., reshape_bufs_sub .., nullary_bufs_sub .., unary_bufs_sub .., binary_bufs_sub .., reshape_bufs_sub ..⟩
theorem opsC_sub : (opsC : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., unary_bufs_sub .., binary_bufs_sub .., unary_bufs_sub .., unary_bufs_sub .., binary_bufs_sub .., binary_bufs_sub ..⟩
theorem opsD_sub : (opsD : List (HloOp τ sig (Elt F))).Forall fun op => op.bufs ⊆ tcRefs τ sig :=
  ⟨nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., unary_bufs_sub .., binary_bufs_sub .., nullary_bufs_sub .., unary_bufs_sub .., ternary_bufs_sub ..⟩

theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor

/-- A property of every operation of the four stretches is one of every operation of the line. -/
theorem forall_ops {p : HloOp τ sig (Elt F) → Prop} (hA : (opsA (F := F)).Forall p) (hB : (opsB (F := F)).Forall p)
    (hC : (opsC (F := F)).Forall p) (hD : (opsD (F := F)).Forall p) : ∀ op ∈ (ops : List (HloOp τ sig (Elt F))), p op := by
  intro op h
  simp only [ops, List.mem_append] at h
  rcases h with h | h | h | h
  exacts [List.forall_iff_forall_mem.mp hA op h, List.forall_iff_forall_mem.mp hB op h,
    List.forall_iff_forall_mem.mp hC op h, List.forall_iff_forall_mem.mp hD op h]

/-! ## The four stretches, each read at what it leaves -/

set_option maxRecDepth 8192 in
set_option maxHeartbeats 4000000 in
/-- The first stretch leaves the row values at their stage of the first argument, -/
theorem afterA_v8 (V : Valuation τ sig (Elt F)) :
    after opsA V (Proc.devRef .tc main_v8) = val_main_v8 (F := F) (V (Proc.devRef .tc main_arg0)) := by
  after_results_simp <;> rfl

set_option maxRecDepth 8192 in
set_option maxHeartbeats 4000000 in
/-- the segment numbers at their stage of the second, -/
theorem afterA_v15 (V : Valuation τ sig (Elt F)) :
    after opsA V (Proc.devRef .tc main_v15) = val_main_v15 (F := F) (V (Proc.devRef .tc main_arg1)) := by
  after_results_simp <;> rfl

set_option maxRecDepth 8192 in
set_option maxHeartbeats 4000000 in
/-- and the arguments as they were. -/
theorem afterA_arg0 (V : Valuation τ sig (Elt F)) :
    after opsA V (Proc.devRef .tc main_arg0) = V (Proc.devRef .tc main_arg0) := by
  after_results_simp <;> rfl
set_option maxRecDepth 8192 in
set_option maxHeartbeats 4000000 in
theorem afterA_arg1 (V : Valuation τ sig (Elt F)) :
    after opsA V (Proc.devRef .tc main_arg1) = V (Proc.devRef .tc main_arg1) := by
  after_results_simp <;> rfl

set_option maxRecDepth 8192 in
set_option maxHeartbeats 4000000 in
/-- Over row values and segment numbers at their stages, the second stretch leaves the group means at theirs, -/
theorem afterB_v29 (V : Valuation τ sig (Elt F)) (x0 : (⟨S2000000x8, .f32⟩ : BufTy).Contents (Elt F)) (x1 : (⟨S2000000x8, .i32⟩ : BufTy).Contents (Elt F))
    (h8 : V (Proc.devRef .tc main_v8) = val_main_v8 (F := F) x0) (h15 : V (Proc.devRef .tc main_v15) = val_main_v15 (F := F) x1) :
    after opsB V (Proc.devRef .tc main_v29) = val_main_v29 (F := F) x0 x1 := by
  after_results_simp
  simp only [h8, h15]
  try simp only [TRef.ofBuf, TRef.toBuf, cast_eq]
  rfl

set_option maxRecDepth 8192 in
set_option maxHeartbeats 4000000 in
/-- the presence flags at theirs, -/
theorem afterB_v32 (V : Valuation τ sig (Elt F)) (x1 : (⟨S2000000x8, .i32⟩ : BufTy).Contents (Elt F))
    (h15 : V (Proc.devRef .tc main_v15) = val_main_v15 (F := F) x1) :
    after opsB V (Proc.devRef .tc main_v32) = val_main_v32 (F := F) x1 := by
  after_results_simp
  simp only [h15]
  try simp only [TRef.ofBuf, TRef.toBuf, cast_eq]
  rfl

set_option maxRecDepth 8192 in
set_option maxHeartbeats 4000000 in
/-- and the arguments as they were. -/
theorem afterB_arg0 (V : Valuation τ sig (Elt F)) :
    after opsB V (Proc.devRef .tc main_arg0) = V (Proc.devRef .tc main_arg0) := by
  after_results_simp <;> rfl
set_option maxRecDepth 8192 in
set_option maxHeartbeats 4000000 in
theorem afterB_arg1 (V : Valuation τ sig (Elt F)) :
    after opsB V (Proc.devRef .tc main_arg1) = V (Proc.devRef .tc main_arg1) := by
  after_results_simp <;> rfl

set_option maxRecDepth 8192 in
set_option maxHeartbeats 4000000 in
/-- Over group means and presence flags at their stages, the third stretch leaves the pair mask at its stage, -/
theorem afterC_v47 (V : Valuation τ sig (Elt F)) (x1 : (⟨S2000000x8, .i32⟩ : BufTy).Contents (Elt F))
    (h32 : V (Proc.devRef .tc main_v32) = val_main_v32 (F := F) x1) :
    after opsC V (Proc.devRef .tc main_v47) = val_main_v47 (F := F) x1 := by
  after_results_simp
  simp only [h32]
  try simp only [TRef.ofBuf, TRef.toBuf, cast_eq]
  rfl

set_option maxRecDepth 8192 in
set_option maxHeartbeats 4000000 in
/-- the squared differences at theirs, -/
theorem afterC_v48 (V : Valuation τ sig (Elt F)) (x0 : (⟨S2000000x8, .f32⟩ : BufTy).Contents (Elt F)) (x1 : (⟨S2000000x8, .i32⟩ : BufTy).Contents (Elt F))
    (h29 : V (Proc.devRef .tc main_v29) = val_main_v29 (F := F) x0 x1) :
    after opsC V (Proc.devRef .tc main_v48) = val_main_v48 (F := F) x0 x1 := by
  after_results_simp
  simp only [h29]
  try simp only [TRef.ofBuf, TRef.toBuf, cast_eq]
  rfl

set_option maxRecDepth 8192 in
set_option maxHeartbeats 4000000 in
/-- and the arguments as they were. -/
theorem afterC_arg0 (V : Valuation τ sig (Elt F)) :
    after opsC V (Proc.devRef .tc main_arg0) = V (Proc.devRef .tc main_arg0) := by
  after_results_simp <;> rfl
set_option maxRecDepth 8192 in
set_option maxHeartbeats 4000000 in
theorem afterC_arg1 (V : Valuation τ sig (Elt F)) :
    after opsC V (Proc.devRef .tc main_arg1) = V (Proc.devRef .tc main_arg1) := by
  after_results_simp <;> rfl

set_option maxRecDepth 8192 in
set_option maxHeartbeats 4000000 in
/-- Over pair mask and squared differences at their stages, the last stretch leaves the result at its stage, -/
theorem afterD_v56 (V : Valuation τ sig (Elt F)) (x0 : (⟨S2000000x8, .f32⟩ : BufTy).Contents (Elt F)) (x1 : (⟨S2000000x8, .i32⟩ : BufTy).Contents (Elt F))
    (h47 : V (Proc.devRef .tc main_v47) = val_main_v47 (F := F) x1) (h48 : V (Proc.devRef .tc main_v48) = val_main_v48 (F := F) x0 x1) :
    after opsD V (Proc.devRef .tc main_v56) = val_main_v56 (F := F) x0 x1 := by
  after_results_simp
  simp only [h47, h48]
  try simp only [TRef.ofBuf, TRef.toBuf, cast_eq]
  rfl

set_option maxRecDepth 8192 in
set_option maxHeartbeats 4000000 in
/-- and the arguments as they were. -/
theorem afterD_arg0 (V : Valuation τ sig (Elt F)) :
    after opsD V (Proc.devRef .tc main_arg0) = V (Proc.devRef .tc main_arg0) := by
  after_results_simp <;> rfl
set_option maxRecDepth 8192 in
set_option maxHeartbeats 4000000 in
theorem afterD_arg1 (V : Valuation τ sig (Elt F)) :
    after opsD V (Proc.devRef .tc main_arg1) = V (Proc.devRef .tc main_arg1) := by
  after_results_simp <;> rfl

/-! ## The whole line -/

/-- The whole line leaves the result at its stage of the two arguments, -/
theorem after_ops_v56 (V : Valuation τ sig (Elt F)) :
    after ops V (Proc.devRef .tc main_v56) = val_main_v56 (F := F) (V (Proc.devRef .tc main_arg0)) (V (Proc.devRef .tc main_arg1)) := by
  simp only [ops, StableHlo.after_append]
  have h8 := afterA_v8 V
  have h15 := afterA_v15 V
  have h29 := afterB_v29 (after opsA V) _ _ h8 h15
  have h32 := afterB_v32 (after opsA V) _ h15
  have h47 := afterC_v47 (after opsB (after opsA V)) _ h32
  have h48 := afterC_v48 (after opsB (after opsA V)) _ _ h29
  exact afterD_v56 (after opsC (after opsB (after opsA V))) _ _ h47 h48

/-- and each argument as it was. -/
theorem after_ops_arg0 (V : Valuation τ sig (Elt F)) : after ops V (Proc.devRef .tc main_arg0) = V (Proc.devRef .tc main_arg0) := by
  simp only [ops, StableHlo.after_append]
  rw [afterD_arg0, afterC_arg0, afterB_arg0, afterA_arg0]
theorem after_ops_arg1 (V : Valuation τ sig (Elt F)) : after ops V (Proc.devRef .tc main_arg1) = V (Proc.devRef .tc main_arg1) := by
  simp only [ops, StableHlo.after_append]
  rw [afterD_arg1, afterC_arg1, afterB_arg1, afterA_arg1]

/-- On every device, for any float values, from any memory with zero counters: every weakly fair execution of the
    reference's @main terminates with the result at its stage of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = val_main_v56 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v56).trans (after_ops_v56 (launchContents m c)),
      (h c main_arg0).trans (after_ops_arg0 (launchContents m c)),
      (h c main_arg1).trans (after_ops_arg1 (launchContents m c))⟩)
    (run_seq scopedRefs_eq scopedSems_eq defs main (fun _ => ops) main_eq
      (fun _ => List.forall_iff_forall_mem.mpr (forall_ops opsA_sub opsB_sub opsC_sub opsD_sub)) m ρ
      (hfresh := fun _ => forall_ops opsA_fresh opsB_fresh opsC_fresh opsD_fresh))

end Cert.ReferenceIdeal.StageRun

end
-- ==== Proof.Tail.lean ====
/-
  What both programs do with the group means and the presence flags: for every attribute `a` and every pair of
  values `u < w` that are both present, the squared difference of the two group means; the result is the sum of
  these squares divided by the number of such pairs, and zero when there is no such pair.

  Stated as one function of the table of means and the table of presence flags, operation by operation as both
  programs spell it (the strict upper triangle of the 16 by 16 square built from two iotas, the three masks joined by
  `and`, the masked squares summed over all three axes, the mask counted as integers).
-/
import Idealize.ShloMosaic.PureOps.Ideal
import Idealize.ShloMosaic.PureOps

noncomputable section

namespace Cert.Hist

open Idealize.ShloMosaic

abbrev SG : Shape := ⟨2, ![8, 16]⟩
abbrev S0 : Shape := ⟨0, ![]⟩
abbrev SGc : Shape := ⟨3, ![8, 16, 1]⟩
abbrev SGr : Shape := ⟨3, ![8, 1, 16]⟩
abbrev SP : Shape := ⟨3, ![8, 16, 16]⟩
abbrev SQ : Shape := ⟨2, ![16, 16]⟩
abbrev SQ1 : Shape := ⟨3, ![1, 16, 16]⟩

theorem bc_G_Gc : SG.BroadcastsInDim SGc (![0, 1] : Fin 2 → Fin SGc.rank) := by decide
theorem bc_G_Gr : SG.BroadcastsInDim SGr (![0, 2] : Fin 2 → Fin SGr.rank) := by decide
theorem bc_Gc_P : SGc.BroadcastsInDim SP (![0, 1, 2] : Fin 3 → Fin SP.rank) := by decide
theorem bc_Gr_P : SGr.BroadcastsInDim SP (![0, 1, 2] : Fin 3 → Fin SP.rank) := by decide
theorem bc_0_Q : S0.BroadcastsInDim SQ (![] : Fin 0 → Fin SQ.rank) := by decide
theorem bc_Q_Q1 : SQ.BroadcastsInDim SQ1 (![1, 2] : Fin 2 → Fin SQ1.rank) := by decide
theorem bc_Q1_P : SQ1.BroadcastsInDim SP (![0, 1, 2] : Fin 3 → Fin SP.rank) := by decide
theorem bc_0_P : S0.BroadcastsInDim SP (![] : Fin 0 → Fin SP.rank) := by decide
theorem red_P_0 : SP.ReducesTo [0, 1, 2] S0 := by decide
theorem pos_0 : 0 < S0.numel := by decide
theorem lt_1_32 : 1 < 32 := by decide

/-- The strict upper triangle of the 16 by 16 square: entry `(u, w)` is set exactly when `u < w` (where row ≥ column
    the flag is cleared, elsewhere it keeps the all-set input). -/
def upper : IVec SQ 1 :=
  select (cmpi .sge (addi (iotaInDim SQ 32 0) (broadcastInDim SQ ![] bc_0_Q (constantI S0 32 0#32))) (iotaInDim SQ 32 1))
    (broadcastInDim SQ ![] bc_0_Q (constantI S0 1 0#1)) (broadcastInDim SQ ![] bc_0_Q (constantI S0 1 1#1))

/-- The pairs that count: both values present, and the first below the second. -/
def pairMask (Pm : IVec SG 1) : IVec SP 1 :=
  andi (andi (broadcastInDim SP ![0, 1, 2] bc_Gc_P (broadcastInDim SGc ![0, 1] bc_G_Gc Pm))
      (broadcastInDim SP ![0, 1, 2] bc_Gr_P (broadcastInDim SGr ![0, 2] bc_G_Gr Pm)))
    (broadcastInDim SP ![0, 1, 2] bc_Q1_P (broadcastInDim SQ1 ![1, 2] bc_Q_Q1 upper))

/-- The differences of the means of two values of one attribute. -/
def pairDiff (M : FVec Ideal SG .f32) : FVec Ideal SP .f32 :=
  subf (broadcastInDim SP ![0, 1, 2] bc_Gc_P (broadcastInDim SGc ![0, 1] bc_G_Gc M))
    (broadcastInDim SP ![0, 1, 2] bc_Gr_P (broadcastInDim SGr ![0, 2] bc_G_Gr M))

/-- The number of pairs that count, as a 32-bit word. -/
def pairCount (Pm : IVec SG 1) : IVec S0 32 :=
  Host.reduce IntOp.addi (extui 32 (pairMask Pm) lt_1_32) (constantI S0 32 0#32) red_P_0 pos_0

/-- The mean squared difference over the pairs that count; zero when none does. -/
def pairLoss (M : FVec Ideal SG .f32) (Pm : IVec SG 1) : FVec Ideal S0 .f32 :=
  select (cmpi .sgt (pairCount Pm) (constantI S0 32 0#32))
    (Host.divf
      (Host.reduceAdd
        (select (pairMask Pm) (mulf (pairDiff M) (pairDiff M))
          (broadcastInDim SP ![] bc_0_P (constant (F := Ideal) S0 .f32 0x00000000#32)))
        (constant (F := Ideal) S0 .f32 0x00000000#32) red_P_0 pos_0)
      (sitofp .f32 (pairCount Pm)))
    (constant (F := Ideal) S0 .f32 0x00000000#32)

theorem bc_0_G : S0.BroadcastsInDim SG (![] : Fin 0 → Fin SG.rank) := by decide

/-- The group means from the totals and the counts: a total over its count, the count raised to at least one. -/
def groupMean (S C : FVec Ideal SG .f32) : FVec Ideal SG .f32 :=
  Host.divf S (maximumf C (broadcastInDim SG ![] bc_0_G (constant (F := Ideal) S0 .f32 0x3F800000#32)))

/-- A group is present when its count is positive. -/
def groupPresent (C : FVec Ideal SG .f32) : IVec SG 1 :=
  cmpf .ogt C (broadcastInDim SG ![] bc_0_G (constant (F := Ideal) S0 .f32 0x00000000#32))

end Cert.Hist

end
-- ==== Proof.Spec.lean ====
/-
  The specification both programs meet, stated over plain index types.

  A table `x` of `n` rows by 8 columns of extended reals and a table `attr` of the same extent of 32-bit words.
  Row `b` has the value `meanOf x b`: the sum over its eight columns of the logistic function of the entry, over the
  word `8.0`.  For an attribute `a < 8` and a value `v < 16` the group total `sumOver x attr (a, v)` is the sum of
  `meanOf x b` over the rows `b` whose word in column `a` is `v`, and the group count `countOver attr (a, v)` the number
  of those rows, as an extended real.  Both are stated for any number of rows: the whole tables have 2,000,000, a
  block of them 20,000.  `result` is the mean squared difference of the group means over the pairs of present values.
-/
import proofs.«406109_j36258113913169_2_alg».proof.Proof.Tail
import Idealize.ShloMosaic.Lib.ValueIdx

noncomputable section

namespace Cert.Hist

open Idealize.ShloMosaic Idealize.ShloMosaic.ValueIdx

abbrev SRows : Shape := ⟨2, ![2000000, 8]⟩

/-- Row `b`'s value: the sum over the eight columns of the logistic function of the entry, over the word `8.0`. -/
def meanOf {n : Nat} (x : (⟨2, ![n, 8]⟩ : Shape).Idx → EReal) (b : Fin n) : EReal :=
  Ideal.div (∑ d : Fin 8, Ideal.logistic (x (ix2 b d))) (Ideal.ofBits .f32 0x41000000#32)

/-- The group totals: over the rows whose word in column `j 0` is `j 1`, the sum of the rows' values. -/
def sumOver {n : Nat} (x : (⟨2, ![n, 8]⟩ : Shape).Idx → EReal) (attr : (⟨2, ![n, 8]⟩ : Shape).Idx → BitVec 32) :
    SG.Idx → EReal :=
  fun j => ∑ b : Fin n, if attr (ix2 b (j 0)) = BitVec.ofNat 32 (j 1).val then meanOf x b else 0

/-- The group counts: the number of rows whose word in column `j 0` is `j 1`. -/
def countOver {n : Nat} (attr : (⟨2, ![n, 8]⟩ : Shape).Idx → BitVec 32) : SG.Idx → EReal :=
  fun j => ∑ b : Fin n, if attr (ix2 b (j 0)) = BitVec.ofNat 32 (j 1).val then (1 : EReal) else 0

/-- The result both programs compute from the two argument tables. -/
def result (x : SRows.Idx → EReal) (attr : SRows.Idx → BitVec 32) : FVec Ideal S0 .f32 :=
  pairLoss (groupMean (sumOver x attr) (countOver attr)) (groupPresent (countOver attr))

end Cert.Hist

end
-- ==== Proof.KBodySum.lean ====
/-
  What one run of the kernel's body leaves in the first of its two carried accumulators (the group totals), at the exact instance.

  The body reads a block `x0` of 20,000 rows by 8 columns and the matching block `x1` of words, and for each
  attribute `a` adds to row `a` of the first accumulator the block's group totals (`sumOver x0 x1`) and to row `a` of the
  second the block's group counts (`countOver x1`); at a half's first point the accumulators are zeroed first, at a
  half's last point they are also copied, with a leading unit axis, into the two output blocks.
-/
import proofs.«406109_j36258113913169_2_alg».proof.Proof.Gen.KernelIdeal.Frame
import proofs.«406109_j36258113913169_2_alg».proof.Proof.Spec
import Idealize.ShloMosaic.Lib.Pipeline.Value
import Idealize.ShloMosaic.Lib.ValueLayout
import Idealize.ShloMosaic.Lib.WritesUnit
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.KBodySum

open Cert.KernelIdeal Cert.KernelIdeal.Gen Cert.Hist

/-! ## Words: an equality test, widened and converted -/

/-- The widened one-bit word of a truth value, converted, is 1 or 0. -/
theorem sitofp_ofBool (c : Bool) :
    (FloatOps.sitofp (F := Ideal) .f32 ((BitVec.ofBool c).setWidth 32) : Ideal .f32) = if c then (1 : EReal) else 0 := by
  cases c
  · have e : ((BitVec.ofBool false).setWidth 32).toInt = 0 := by decide
    show ((((BitVec.ofBool false).setWidth 32).toInt : ℝ) : EReal) = _
    rw [e]; simp
  · have e : ((BitVec.ofBool true).setWidth 32).toInt = 1 := by decide
    show ((((BitVec.ofBool true).setWidth 32).toInt : ℝ) : EReal) = _
    rw [e]; simp

/-- An equality test of two words, widened and converted, is the indicator of their equality. -/
theorem sitofp_cmpi_eq (p q : BitVec 32) :
    (FloatOps.sitofp (F := Ideal) .f32 ((IntOp.cmpi .eq p q).setWidth 32) : Ideal .f32) = if p = q then (1 : EReal) else 0 := by
  show FloatOps.sitofp (F := Ideal) .f32 ((BitVec.ofBool (p == q)).setWidth 32) = _
  rw [sitofp_ofBool]
  by_cases h : p = q
  · subst h; simp
  · rw [if_neg h]; simp [h]

/-! ## The block's arithmetic at an index -/

/-- The hit indicator of attribute column `a` at row `r`, lane `v`: 1 where the row's word in that column is `v`. -/
theorem hit_apply (x1 : Vec Ideal S20000x8 .i32) (o : Nat) (a : Fin 8) (ha : a.val = o)
    (hs : S20000x8.Slices ![0, o] S20000x1) (r : Fin 20000) (v : Fin 16) :
    (sitofp (F := Ideal) .f32 (extui 32 (cmpi .eq
        (broadcastTo S20000x16 (extractStridedSlice S20000x1 ![0, o] x1 hs) broadcasts_S20000x1_S20000x16)
        (iota .tc S20000x16 32 [1] iota_S20000x16_d1_w32)) natLt_1_32) : FVec Ideal S20000x16 .f32) (ix2 r v)
      = if x1 (ix2 r a) = BitVec.ofNat 32 v.val then (1 : EReal) else 0 := by
  have e1 : broadcastTo S20000x16 (extractStridedSlice S20000x1 ![0, o] x1 hs) broadcasts_S20000x1_S20000x16 (ix2 r v)
      = x1 (ix2 r a) := by
    refine (broadcastTo_apply _ _ (ix2 r v) (ix2 r (0 : Fin 1)) fun ax => ?_).trans ?_
    · match ax with
      | ⟨0, _⟩ => rfl
      | ⟨1, _⟩ => rfl
    · exact slice2_axis1_apply o x1 hs r 0 a (by simp [ha])
  have e2 : iota .tc S20000x16 32 [1] iota_S20000x16_d1_w32 (ix2 r v) = BitVec.ofNat 32 v.val :=
    iota_single_apply .tc S20000x16 32 1 _ (ix2 r v)
  exact (congrArg₂ (fun p q : BitVec 32 => (FloatOps.sitofp (F := Ideal) .f32 ((IntOp.cmpi .eq p q).setWidth 32) : Ideal .f32)) e1 e2).trans
    (sitofp_cmpi_eq _ _)

/-- The sum over the 20,000 rows of a block of 16 lanes, lane by lane. -/
theorem colsum_apply (src : FVec Ideal S20000x16 .f32) (v : Fin 16) :
    multiReduction (F := Ideal) .add [0] S16 src 0x00000000#32 reduces_S20000x16_S16 (.inl rfl) rfl (ix1 v)
      = ∑ r : Fin 20000, src (ix2 r v) := by
  refine (Ideal.multiReduction_add_single src 0x00000000#32 reduces_S20000x16_S16 (.inl rfl) rfl (ix1 v)).trans ?_
  refine Finset.sum_congr rfl fun r _ => congrArg src ?_
  funext ax
  match ax with
  | ⟨0, _⟩ => rfl
  | ⟨1, _⟩ => rfl

/-- The sum over the 8 columns of a block, row by row. -/
theorem rowsum_apply (src : FVec Ideal S20000x8 .f32) (r : Fin 20000) :
    multiReduction (F := Ideal) .add [1] S20000 src 0x00000000#32 reduces_S20000x8_S20000 (.inl rfl) rfl (ix1 r)
      = ∑ d : Fin 8, src (ix2 r d) := by
  refine (Ideal.multiReduction_add_single src 0x00000000#32 reduces_S20000x8_S20000 (.inl rfl) rfl (ix1 r)).trans ?_
  refine Finset.sum_congr rfl fun d _ => congrArg src ?_
  funext ax
  match ax with
  | ⟨0, _⟩ => rfl
  | ⟨1, _⟩ => rfl

/-- The rows' values: row `r` of the column of means is `meanOf` of the block at `r`. -/
theorem mean_apply (x0 : Vec Ideal S20000x8 .f32) (r : Fin 20000) :
    k0_pay10 (F := Ideal) x0 (ix2 r (0 : Fin 1)) = meanOf x0 r := by
  unfold k0_pay10
  show Ideal.div (shapeCast S20000x1 (multiReduction (F := Ideal) .add [1] S20000 (logistic x0) 0x00000000#32
      reduces_S20000x8_S20000 (.inl rfl) rfl) shapeCasts_S20000_S20000x1 (ix2 r (0 : Fin 1))) (Ideal.ofBits .f32 0x41000000#32) = _
  refine congrArg (fun z : EReal => Ideal.div z (Ideal.ofBits .f32 0x41000000#32)) ?_
  refine (shapeCast_apply _ _ (ix2 r (0 : Fin 1)) (ix1 r) ?_).trans ?_
  · rw [Shape.rowMajor_val_one, Shape.rowMajor_val_two]
    show r.val = r.val * 1 + 0
    omega
  · exact rowsum_apply (logistic x0) r

/-- One row of the totals: the row as the point found it plus, lane by lane, the sum over the block's rows of the
    row's value times the hit indicator. -/
theorem totRow_apply (pn : FVec Ideal S20000x1 .f32) (hit : FVec Ideal S20000x16 .f32) (prev : Vec Ideal S1x16 .f32)
    (v : Fin 16) :
    shapeCast S1x16 (addf prev (shapeCast S1x16 (multiReduction (F := Ideal) .add [0] S16
        (mulf (broadcastTo S20000x16 pn broadcasts_S20000x1_S20000x16) hit) 0x00000000#32 reduces_S20000x16_S16 (.inl rfl) rfl)
        shapeCasts_S16_S1x16)) shapeCasts_S1x16_S1x16 (ix2 (0 : Fin 1) v)
      = prev (ix2 (0 : Fin 1) v) + ∑ r : Fin 20000, pn (ix2 r (0 : Fin 1)) * hit (ix2 r v) := by
  rw [shapeCast_self]
  show prev (ix2 (0 : Fin 1) v) + shapeCast S1x16 (multiReduction (F := Ideal) .add [0] S16
        (mulf (broadcastTo S20000x16 pn broadcasts_S20000x1_S20000x16) hit) 0x00000000#32 reduces_S20000x16_S16 (.inl rfl) rfl)
        shapeCasts_S16_S1x16 (ix2 (0 : Fin 1) v) = _
  refine congrArg (fun z : EReal => prev (ix2 (0 : Fin 1) v) + z) ?_
  refine (shapeCast_a_1a_apply _ _ (0 : Fin 1) v).trans ?_
  refine (colsum_apply _ v).trans ?_
  refine Finset.sum_congr rfl fun r _ => ?_
  show broadcastTo S20000x16 pn broadcasts_S20000x1_S20000x16 (ix2 r v) * hit (ix2 r v) = _
  refine congrArg (fun z : EReal => z * hit (ix2 r v)) ?_
  refine broadcastTo_apply _ _ (ix2 r v) (ix2 r (0 : Fin 1)) fun ax => ?_
  match ax with
  | ⟨0, _⟩ => rfl
  | ⟨1, _⟩ => rfl

/-- Row `a` of the totals after the body: what the point found there plus the block's group totals of attribute `a`. -/
theorem row_eq (x0 : Vec Ideal S20000x8 .f32) (x1 : Vec Ideal S20000x8 .i32) (o : Nat) (a : Fin 8) (ha : a.val = o)
    (hs : S20000x8.Slices ![0, o] S20000x1) (prev : Vec Ideal S1x16 .f32) (v : Fin 16) :
    shapeCast S1x16 (addf prev (shapeCast S1x16 (multiReduction (F := Ideal) .add [0] S16
        (mulf (broadcastTo S20000x16 (k0_pay10 (F := Ideal) x0) broadcasts_S20000x1_S20000x16)
          (sitofp (F := Ideal) .f32 (extui 32 (cmpi .eq
            (broadcastTo S20000x16 (extractStridedSlice S20000x1 ![0, o] x1 hs) broadcasts_S20000x1_S20000x16)
            (iota .tc S20000x16 32 [1] iota_S20000x16_d1_w32)) natLt_1_32)))
        0x00000000#32 reduces_S20000x16_S16 (.inl rfl) rfl)
        shapeCasts_S16_S1x16)) shapeCasts_S1x16_S1x16 (ix2 (0 : Fin 1) v)
      = prev (ix2 (0 : Fin 1) v) + sumOver x0 x1 (ix2 a v) := by
  refine (totRow_apply _ _ prev v).trans ?_
  refine congrArg (fun z : EReal => prev (ix2 (0 : Fin 1) v) + z) ?_
  show _ = ∑ b : Fin 20000, if x1 (ix2 b a) = BitVec.ofNat 32 v.val then meanOf x0 b else 0
  refine Finset.sum_congr rfl fun r _ => ?_
  refine (congrArg₂ (fun p q : EReal => p * q) (mean_apply x0 r) (hit_apply x1 o a ha hs r v)).trans ?_
  show meanOf x0 r * (if x1 (ix2 r a) = BitVec.ofNat 32 v.val then (1 : EReal) else 0) = _
  rw [mul_ite, mul_one, mul_zero]

/-! ## Reading a list of stores into the 8 by 16 accumulator, newest first -/

theorem hz2 : (![0, 0] : Fin 2 → Nat) = fun _ => 0 := funext fun a => by fin_cases a <;> rfl

section Canon

variable {Val : EltTy → Type} [∀ e, Nonempty (Val e)] {e : EltTy}

/-- Row `a`, lane `v` under the newest store, the store being of row `a`: its payload at lane `v`. -/
theorem canon_row_hit (o : Nat) (inb : ∀ ax : Fin 2, (![o, 0] : Fin 2 → Nat) ax + (![1, 16] : Fin 2 → Nat) ax ≤ S8x16.size ax)
    (w : S1x16.Idx → Val e) (L : List (View.Piece Val S8x16 e)) (a : Fin 8) (ha : a.val = o) (v : Fin 16) :
    View.canon ((⟨Rect.unit ![o, 0] ![1, 16] inb, w⟩ : View.Piece Val S8x16 e) :: L) (ix2 a v) = w (ix2 (0 : Fin 1) v) := by
  have hidx : (Rect.unit (s := S8x16) ![o, 0] ![1, 16] inb).emb (ix2 (0 : Fin 1) v) = ix2 a v := by
    funext ax
    apply Fin.ext
    match ax with
    | ⟨0, _⟩ => show o + 1 * 0 = a.val; omega
    | ⟨1, _⟩ => show 0 + 1 * v.val = v.val; omega
  exact (congrArg (View.canon ((⟨Rect.unit ![o, 0] ![1, 16] inb, w⟩ : View.Piece Val S8x16 e) :: L)) hidx.symm).trans
    (View.canon_cons_emb (Rect.unit (s := S8x16) ![o, 0] ![1, 16] inb) w L (ix2 (0 : Fin 1) v))

/-- Row `a` under a newest store of another row: what the older stores left. -/
theorem canon_row_miss (o : Nat) (inb : ∀ ax : Fin 2, (![o, 0] : Fin 2 → Nat) ax + (![1, 16] : Fin 2 → Nat) ax ≤ S8x16.size ax)
    (w : S1x16.Idx → Val e) (L : List (View.Piece Val S8x16 e)) (a : Fin 8) (ha : a.val ≠ o) (v : Fin 16) :
    View.canon ((⟨Rect.unit ![o, 0] ![1, 16] inb, w⟩ : View.Piece Val S8x16 e) :: L) (ix2 a v) = View.canon L (ix2 a v) := by
  refine View.canon_cons_of_not_mem _ L ?_
  show ix2 a v ∉ (Rect.unit (s := S8x16) ![o, 0] ![1, 16] inb).set
  rw [Rect.mem_set_unit]
  intro h
  have h0 : o ≤ a.val ∧ a.val < o + 1 := h 0
  omega

/-- Under a newest store of the whole accumulator: its payload. -/
theorem canon_whole (inb : ∀ ax : Fin 2, (![0, 0] : Fin 2 → Nat) ax + S8x16.size ax ≤ S8x16.size ax)
    (z : S8x16.Idx → Val e) (L : List (View.Piece Val S8x16 e)) (y : S8x16.Idx) :
    View.canon ((⟨Rect.unit ![0, 0] S8x16.size inb, z⟩ : View.Piece Val S8x16 e) :: L) y = z y :=
  congrFun (View.canon_cons_unit_zero (S := S8x16) hz2 inb z L) y

/-- A load of row `o` after the stores `L`, at lane `v`: what they left at row `o`, lane `v`. -/
theorem readCov_row {sg : RefSig} {κ : Kind} {sp : Space} (vw : View sg κ sp S8x16 e) (L : List (View.Piece Val S8x16 e))
    (o : Nat) (ho : o < 8)
    (inb : ∀ ax : Fin 2, (![o, 0] : Fin 2 → Nat) ax + S1x16.size ax ≤ S8x16.size ax) (v : Fin 16) :
    vw.readCov L (Rect.unit (s := S8x16) ![o, 0] S1x16.size inb).toLoadRect (ix2 (0 : Fin 1) v)
      = View.canon L (ix2 (⟨o, ho⟩ : Fin 8) v) := by
  rw [View.readCov_eq_canon']
  show View.canon L ((Rect.unit (s := S8x16) ![o, 0] S1x16.size inb).toLoadRect.idx (ix2 (0 : Fin 1) v)) = _
  refine congrArg (View.canon L) ?_
  funext ax
  apply Fin.ext
  match ax with
  | ⟨0, _⟩ => show o + 1 * 0 = o; omega
  | ⟨1, _⟩ => show 0 + 1 * v.val = v.val; omega

/-- A load of the whole accumulator after the stores `L`: what they left. -/
theorem readCov_whole {sg : RefSig} {κ : Kind} {sp : Space} (vw : View sg κ sp S8x16 e) (L : List (View.Piece Val S8x16 e))
    (inb : ∀ ax : Fin 2, (![0, 0] : Fin 2 → Nat) ax + S8x16.size ax ≤ S8x16.size ax) (y : S8x16.Idx) :
    vw.readCov L (Rect.unit (s := S8x16) ![0, 0] S8x16.size inb).toLoadRect y = View.canon L y := by
  rw [View.readCov_eq_canon']
  show View.canon L ((Rect.unit (s := S8x16) ![0, 0] S8x16.size inb).toLoadRect.idx y) = _
  refine congrArg (View.canon L) ?_
  funext ax
  apply Fin.ext
  show (![0, 0] : Fin 2 → Nat) ax + 1 * (y ax).val = (y ax).val
  rw [congrFun hz2 ax]
  omega

end Canon

/-- THE BODY'S EIGHT ROW STORES, for any loaded blocks and any loaded rows: row `a`, lane `v` of what they leave is the
    row loaded for `a` at lane `v` plus the block's group total. -/
theorem canon_body (x0 : Vec Ideal S20000x8 .f32) (x1 : Vec Ideal S20000x8 .i32)
    (X0 : Vec Ideal S20000x8 .f32) (hX0 : X0 = x0) (X1 : Vec Ideal S20000x8 .i32) (hX1 : X1 = x1)
    (pv0 pv1 pv2 pv3 pv4 pv5 pv6 pv7 : Vec Ideal S1x16 .f32) (L : List (View.Piece (Elt Ideal) S8x16 .f32))
    (a : Fin 8) (v : Fin 16) :
    View.canon
      ((⟨Rect.unit ![7, 0] ![1, 16] inb_S8x16_S1x16_7_0,
          k0_pay4 X1 (k0_pay10 X0) (iota .tc S20000x16 32 [1] iota_S20000x16_d1_w32) pv7⟩ : View.Piece (Elt Ideal) S8x16 .f32) ::
        ⟨Rect.unit ![6, 0] ![1, 16] inb_S8x16_S1x16_6_0,
          k0_pay1 (k0_pay32 X1 (k0_pay10 X0) (iota .tc S20000x16 32 [1] iota_S20000x16_d1_w32) pv6)⟩ ::
        ⟨Rect.unit ![5, 0] ![1, 16] inb_S8x16_S1x16_5_0,
          k0_pay28 X1 (k0_pay10 X0) (iota .tc S20000x16 32 [1] iota_S20000x16_d1_w32) pv5⟩ ::
        ⟨Rect.unit ![4, 0] ![1, 16] inb_S8x16_S1x16_4_0,
          k0_pay25 X1 (k0_pay10 X0) (iota .tc S20000x16 32 [1] iota_S20000x16_d1_w32) pv4⟩ ::
        ⟨Rect.unit ![3, 0] ![1, 16] inb_S8x16_S1x16_3_0,
          k0_pay21 X1 (k0_pay10 X0) (iota .tc S20000x16 32 [1] iota_S20000x16_d1_w32) pv3⟩ ::
        ⟨Rect.unit ![2, 0] ![1, 16] inb_S8x16_S1x16_2_0,
          k0_pay18 X1 (k0_pay10 X0) (iota .tc S20000x16 32 [1] iota_S20000x16_d1_w32) pv2⟩ ::
        ⟨Rect.unit ![1, 0] ![1, 16] inb_S8x16_S1x16_1_0, k0_pay15 (k0_pay10 X0) (k0_pay14 X1) pv1⟩ ::
        ⟨Rect.unit ![0, 0] ![1, 16] inb_S8x16_S1x16_0_0, k0_pay12 X0 X1 pv0⟩ :: L) (ix2 a v)
      = (![pv0, pv1, pv2, pv3, pv4, pv5, pv6, pv7] a) (ix2 (0 : Fin 1) v) + sumOver x0 x1 (ix2 a v) := by
  subst hX0 hX1
  fin_cases a
  · iterate 7 refine (canon_row_miss _ _ _ _ _ (by decide) v).trans ?_
    refine (canon_row_hit _ _ _ _ _ (by rfl) v).trans ?_
    exact row_eq X0 X1 0 0 rfl _ pv0 v
  · iterate 6 refine (canon_row_miss _ _ _ _ _ (by decide) v).trans ?_
    refine (canon_row_hit _ _ _ _ _ (by rfl) v).trans ?_
    exact row_eq X0 X1 1 1 rfl _ pv1 v
  · iterate 5 refine (canon_row_miss _ _ _ _ _ (by decide) v).trans ?_
    refine (canon_row_hit _ _ _ _ _ (by rfl) v).trans ?_
    exact row_eq X0 X1 2 2 rfl _ pv2 v
  · iterate 4 refine (canon_row_miss _ _ _ _ _ (by decide) v).trans ?_
    refine (canon_row_hit _ _ _ _ _ (by rfl) v).trans ?_
    exact row_eq X0 X1 3 3 rfl _ pv3 v
  · iterate 3 refine (canon_row_miss _ _ _ _ _ (by decide) v).trans ?_
    refine (canon_row_hit _ _ _ _ _ (by rfl) v).trans ?_
    exact row_eq X0 X1 4 4 rfl _ pv4 v
  · iterate 2 refine (canon_row_miss _ _ _ _ _ (by decide) v).trans ?_
    refine (canon_row_hit _ _ _ _ _ (by rfl) v).trans ?_
    exact row_eq X0 X1 5 5 rfl _ pv5 v
  · iterate 1 refine (canon_row_miss _ _ _ _ _ (by decide) v).trans ?_
    refine (canon_row_hit _ _ _ _ _ (by rfl) v).trans ?_
    exact row_eq X0 X1 6 6 rfl _ pv6 v
  · refine (canon_row_hit _ _ _ _ _ (by rfl) v).trans ?_
    exact row_eq X0 X1 7 7 rfl _ pv7 v

/-! ## The loads -/

/-- A load of a whole buffer reads its contents. -/
theorem ld_whole {S : Shape} {el : EltTy} (M : Memref sig .tc .vmem S el) (h : M.IsWhole) (X : Vec Ideal S el)
    (off : Fin S.rank → Nat) (hz : off = fun _ => 0) (inb : ∀ ax, off ax + S.size ax ≤ S.size ax) :
    View.readAt (Elt Ideal) M.view (Rect.unit off S.size inb).toLoadRect (h.unread X) = X := by
  rw [View.readAt_eq_ld, h.read_unread, View.ld_unit_zero hz]

/-- A load of row `a` of the accumulator, at lane `v`, reads its contents at row `a`, lane `v`. -/
theorem ld_row (M : Memref sig .tc .vmem S8x16 .f32) (h : M.IsWhole) (X : Vec Ideal S8x16 .f32) (o : Nat) (a : Fin 8)
    (ha : a.val = o) (inb : ∀ ax : Fin 2, (![o, 0] : Fin 2 → Nat) ax + S1x16.size ax ≤ S8x16.size ax) (v : Fin 16) :
    View.readAt (Elt Ideal) M.view (Rect.unit (s := S8x16) ![o, 0] S1x16.size inb).toLoadRect (h.unread X) (ix2 (0 : Fin 1) v)
      = X (ix2 a v) := by
  rw [View.readAt_eq_ld, h.read_unread]
  show X ((Rect.unit (s := S8x16) ![o, 0] S1x16.size inb).idx (ix2 (0 : Fin 1) v)) = _
  refine congrArg X ?_
  funext ax
  apply Fin.ext
  match ax with
  | ⟨0, _⟩ => show o + 1 * 0 = a.val; omega
  | ⟨1, _⟩ => show 0 + 1 * v.val = v.val; omega

/-- The block of zeros a half's first point stores is zero everywhere. -/
theorem pay8_apply (y : S8x16.Idx) : k0_pay8 (F := Ideal) y = 0 := by
  unfold k0_pay8
  rw [shapeCast_self]
  exact Ideal.ofBits_zero_f32

theorem hz3 : (![0, 0, 0] : Fin 3 → Nat) = fun _ => 0 := funext fun a => by fin_cases a <;> rfl

/-! ## What one run of the body leaves in the first accumulator and in the first output block -/

/-- A half's first point: the first accumulator ends at the block's group totals (zero plus them). -/
theorem sout_A_0 (c : Dev nD) (i : grid0.Coords) (arg2 : Memref sig .tc .vmem S20000x8 .f32) (harg2 : arg2.IsWhole) (arg3 : Memref sig .tc .vmem S20000x8 .i32) (harg3 : arg3.IsWhole) (arg4 : Memref sig .tc .vmem S1x8x16 .f32) (harg4 : arg4.IsWhole) (arg5 : Memref sig .tc .vmem S1x8x16 .f32) (harg5 : arg5.IsWhole) (arg6 : Memref sig .tc .vmem S8x16 .f32) (harg6 : arg6.IsWhole) (arg7 : Memref sig .tc .vmem S8x16 .f32) (harg7 : arg7.IsWhole) (hc0 : cond0_0 i) (hc1 : ¬cond0_1 i)
    (x0 : Vec Ideal S20000x8 .f32) (x1 : Vec Ideal S20000x8 .i32) :
    sout0_A_0 (F := Ideal) c i arg2 harg2 arg3 harg3 arg4 harg4 arg5 harg5 arg6 harg6 arg7 harg7 hc0 hc1 x0 x1 = fun j => sumOver x0 x1 j := by
  funext j
  obtain ⟨a, v, rfl⟩ : ∃ (a : Fin 8) (v : Fin 16), j = ix2 a v := ⟨j 0, j 1, eq_ix2 j⟩
  unfold sout0_A_0 kernelRun0_A
  dsimp only
  sl_unfold_words
  refine (congrFun (View.read_writes_junk_eq_canon VS0_0 _) (ix2 a v)).trans ?_
  refine (canon_body x0 x1 _ (ld_whole arg2 harg2 x0 _ hz2 _) _ (ld_whole arg3 harg3 x1 _ hz2 _) _ _ _ _ _ _ _ _ _ a v).trans ?_
  refine (congrArg (fun z : EReal => z + sumOver x0 x1 (ix2 a v)) ?_).trans (zero_add _)
  fin_cases a
  · refine (readCov_row _ _ 0 (by decide) _ v).trans ?_
    exact (canon_whole _ _ _ _).trans (pay8_apply _)
  · refine (readCov_row _ _ 1 (by decide) _ v).trans ?_
    iterate 1 refine (canon_row_miss _ _ _ _ _ (by decide) v).trans ?_
    exact (canon_whole _ _ _ _).trans (pay8_apply _)
  · refine (readCov_row _ _ 2 (by decide) _ v).trans ?_
    iterate 2 refine (canon_row_miss _ _ _ _ _ (by decide) v).trans ?_
    exact (canon_whole _ _ _ _).trans (pay8_apply _)
  · refine (readCov_row _ _ 3 (by decide) _ v).trans ?_
    iterate 3 refine (canon_row_miss _ _ _ _ _ (by decide) v).trans ?_
    exact (canon_whole _ _ _ _).trans (pay8_apply _)
  · refine (readCov_row _ _ 4 (by decide) _ v).trans ?_
    iterate 4 refine (canon_row_miss _ _ _ _ _ (by decide) v).trans ?_
    exact (canon_whole _ _ _ _).trans (pay8_apply _)
  · refine (readCov_row _ _ 5 (by decide) _ v).trans ?_
    iterate 5 refine (canon_row_miss _ _ _ _ _ (by decide) v).trans ?_
    exact (canon_whole _ _ _ _).trans (pay8_apply _)
  · refine (readCov_row _ _ 6 (by decide) _ v).trans ?_
    iterate 6 refine (canon_row_miss _ _ _ _ _ (by decide) v).trans ?_
    exact (canon_whole _ _ _ _).trans (pay8_apply _)
  · refine (readCov_row _ _ 7 (by decide) _ v).trans ?_
    iterate 7 refine (canon_row_miss _ _ _ _ _ (by decide) v).trans ?_
    exact (canon_whole _ _ _ _).trans (pay8_apply _)

/-- A middle point: the first accumulator gains the block's group totals. -/
theorem sout_B_0 (c : Dev nD) (i : grid0.Coords) (arg2 : Memref sig .tc .vmem S20000x8 .f32) (harg2 : arg2.IsWhole) (arg3 : Memref sig .tc .vmem S20000x8 .i32) (harg3 : arg3.IsWhole) (arg4 : Memref sig .tc .vmem S1x8x16 .f32) (harg4 : arg4.IsWhole) (arg5 : Memref sig .tc .vmem S1x8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : ¬cond0_1 i)
    (x0 : Vec Ideal S20000x8 .f32) (x1 : Vec Ideal S20000x8 .i32) (xs0 xs1 : Vec Ideal S8x16 .f32) :
    sout0_B_0 (F := Ideal) c i arg2 harg2 arg3 harg3 arg4 harg4 arg5 harg5 arg6 harg6 arg7 harg7 hc0 hc1 x0 x1 xs0 xs1 = fun j => xs0 j + sumOver x0 x1 j := by
  funext j
  obtain ⟨a, v, rfl⟩ : ∃ (a : Fin 8) (v : Fin 16), j = ix2 a v := ⟨j 0, j 1, eq_ix2 j⟩
  unfold sout0_B_0 kernelRun0_B
  dsimp only
  sl_unfold_words
  refine (congrFun (View.read_writes_junk_eq_canon VS0_0 _) (ix2 a v)).trans ?_
  refine (canon_body x0 x1 _ (ld_whole arg2 harg2 x0 _ hz2 _) _ (ld_whole arg3 harg3 x1 _ hz2 _) _ _ _ _ _ _ _ _ [] a v).trans ?_
  refine congrArg (fun z : EReal => z + sumOver x0 x1 (ix2 a v)) ?_
  fin_cases a <;> exact ld_row arg6 harg6 xs0 _ _ (by rfl) _ v

/-- A half's last point: the first accumulator gains the block's group totals, -/
theorem sout_C_0 (c : Dev nD) (i : grid0.Coords) (arg2 : Memref sig .tc .vmem S20000x8 .f32) (harg2 : arg2.IsWhole) (arg3 : Memref sig .tc .vmem S20000x8 .i32) (harg3 : arg3.IsWhole) (arg4 : Memref sig .tc .vmem S1x8x16 .f32) (harg4 : arg4.IsWhole) (arg5 : Memref sig .tc .vmem S1x8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : cond0_1 i)
    (x0 : Vec Ideal S20000x8 .f32) (x1 : Vec Ideal S20000x8 .i32) (xs0 xs1 : Vec Ideal S8x16 .f32) :
    sout0_C_0 (F := Ideal) c i arg2 harg2 arg3 harg3 arg4 harg4 arg5 harg5 arg6 harg6 arg7 harg7 hc0 hc1 x0 x1 xs0 xs1 = fun j => xs0 j + sumOver x0 x1 j := by
  funext j
  obtain ⟨a, v, rfl⟩ : ∃ (a : Fin 8) (v : Fin 16), j = ix2 a v := ⟨j 0, j 1, eq_ix2 j⟩
  unfold sout0_C_0 kernelRun0_C
  dsimp only
  sl_unfold_words
  refine (congrFun (View.read_writes_junk_eq_canon VS0_0 _) (ix2 a v)).trans ?_
  refine (canon_body x0 x1 _ (ld_whole arg2 harg2 x0 _ hz2 _) _ (ld_whole arg3 harg3 x1 _ hz2 _) _ _ _ _ _ _ _ _ [] a v).trans ?_
  refine congrArg (fun z : EReal => z + sumOver x0 x1 (ix2 a v)) ?_
  fin_cases a <;> exact ld_row arg6 harg6 xs0 _ _ (by rfl) _ v

/-- and the first output block is the first accumulator's new contents under a leading unit axis. -/
theorem out_C_2 (c : Dev nD) (i : grid0.Coords) (arg2 : Memref sig .tc .vmem S20000x8 .f32) (harg2 : arg2.IsWhole) (arg3 : Memref sig .tc .vmem S20000x8 .i32) (harg3 : arg3.IsWhole) (arg4 : Memref sig .tc .vmem S1x8x16 .f32) (harg4 : arg4.IsWhole) (arg5 : Memref sig .tc .vmem S1x8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : cond0_1 i)
    (x0 : Vec Ideal S20000x8 .f32) (x1 : Vec Ideal S20000x8 .i32) (xs0 xs1 : Vec Ideal S8x16 .f32) :
    out0_C_2 (F := Ideal) c i arg2 harg2 arg3 harg3 arg4 harg4 arg5 harg5 arg6 harg6 arg7 harg7 hc0 hc1 x0 x1 xs0 xs1
      = fun j : S1x8x16.Idx => xs0 (ix2 (j 1) (j 2)) + sumOver x0 x1 (ix2 (j 1) (j 2)) := by
  funext j
  obtain ⟨u, a, v, rfl⟩ : ∃ (u : Fin 1) (a : Fin 8) (v : Fin 16), j = ix3 u a v := ⟨j 0, j 1, j 2, eq_ix3 j⟩
  show _ = xs0 (ix2 a v) + sumOver x0 x1 (ix2 a v)
  unfold out0_C_2 kernelRun0_C
  dsimp only
  sl_unfold_words
  refine (congrFun (View.read_writes_junk_eq_canon VO0_2 _) (ix3 u a v)).trans ?_
  refine (congrFun (View.canon_unit_zero (S := S1x8x16) hz3 _ _) (ix3 u a v)).trans ?_
  unfold k0_pay6
  refine (shapeCast_ab_1ab_apply _ _ u a v).trans ?_
  refine (readCov_whole _ _ _ (ix2 a v)).trans ?_
  refine (canon_body x0 x1 _ (ld_whole arg2 harg2 x0 _ hz2 _) _ (ld_whole arg3 harg3 x1 _ hz2 _) _ _ _ _ _ _ _ _ [] a v).trans ?_
  refine congrArg (fun z : EReal => z + sumOver x0 x1 (ix2 a v)) ?_
  fin_cases a <;> exact ld_row arg6 harg6 xs0 _ _ (by rfl) _ v

end Cert.KernelIdeal.KBodySum

end
-- ==== Proof.KBodyCnt.lean ====
/-
  What one run of the kernel's body leaves in the second of its two carried accumulators (the group counts), at the exact instance.

  The body reads a block `x0` of 20,000 rows by 8 columns and the matching block `x1` of words, and for each
  attribute `a` adds to row `a` of the first accumulator the block's group totals (`sumOver x0 x1`) and to row `a` of the
  second the block's group counts (`countOver x1`); at a half's first point the accumulators are zeroed first, at a
  half's last point they are also copied, with a leading unit axis, into the two output blocks.
-/
import proofs.«406109_j36258113913169_2_alg».proof.Proof.Gen.KernelIdeal.Frame
import proofs.«406109_j36258113913169_2_alg».proof.Proof.Spec
import Idealize.ShloMosaic.Lib.Pipeline.Value
import Idealize.ShloMosaic.Lib.WritesUnit
import Idealize.ShloMosaic.Lib.ValueLayout
import Idealize.ShloMosaic.Lib.Pipeline.RowLoads
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.KBodyCnt

open Cert.KernelIdeal Cert.KernelIdeal.Gen Cert.Hist

/-! ## Words and layout operations at an index -/

/-- Both offsets of a rank-two rectangle at the origin, as the constant function. -/
theorem hz2 : (![0, 0] : Fin 2 → Nat) = fun _ => 0 := funext fun a => by fin_cases a <;> rfl

/-- The three offsets of a rank-three rectangle at the origin, as the constant function. -/
theorem hz3 : (![0, 0, 0] : Fin 3 → Nat) = fun _ => 0 := funext fun a => by fin_cases a <;> rfl

/-- The equality bit of two words, widened to 32 bits and converted to a float: one where the words agree, zero
    where they differ. -/
theorem bit_eq_ite (w y : BitVec 32) :
    (FloatOps.sitofp (F := Ideal) .f32 ((IntOp.cmpi .eq w y).setWidth 32) : Ideal .f32) = if w = y then (1 : EReal) else 0 := by
  show ((((IntOp.cmpi .eq w y).setWidth 32).toInt : ℝ) : EReal) = _
  by_cases h : w = y
  · subst h
    rw [if_pos rfl]
    have e : (IntOp.cmpi .eq w w).setWidth 32 = 1#32 := by simp [IntOp.cmpi]
    rw [e]
    simp
  · rw [if_neg h]
    have hb : (w == y) = false := beq_eq_false_iff_ne.mpr h
    have e : (IntOp.cmpi .eq w y).setWidth 32 = 0#32 := by simp [IntOp.cmpi, hb]
    rw [e]
    simp

/-- The lane numbers of a block of 20,000 rows by 16 lanes. -/
abbrev lanes : IVec S20000x16 32 := iota .tc S20000x16 32 [1] iota_S20000x16_d1_w32

/-- THE HIT INDICATOR of attribute column `a` at row `r`, lane `v`: one where the row's word in that column is the
    lane's number, zero elsewhere. -/
theorem hit_apply (x1 : Vec Ideal S20000x8 .i32) (o : Nat) (a : Fin 8) (ha : a.val = o)
    (hs : S20000x8.Slices ![0, o] S20000x1) (r : Fin 20000) (v : Fin 16) :
    (sitofp (F := Ideal) .f32 (extui 32 (cmpi .eq
        (broadcastTo S20000x16 (extractStridedSlice S20000x1 ![0, o] x1 hs) broadcasts_S20000x1_S20000x16)
        lanes) natLt_1_32) : FVec Ideal S20000x16 .f32) (ix2 r v)
      = if x1 (ix2 r a) = BitVec.ofNat 32 v.val then (1 : EReal) else 0 := by
  have hcol : broadcastTo S20000x16 (extractStridedSlice S20000x1 ![0, o] x1 hs) broadcasts_S20000x1_S20000x16 (ix2 r v)
      = x1 (ix2 r a) :=
    (broadcastTo_apply _ _ (ix2 r v) (ix2 r (0 : Fin 1)) fun ax => by
      match ax with
      | ⟨0, _⟩ => rfl
      | ⟨1, _⟩ => rfl).trans (slice2_axis1_apply o x1 hs r 0 a (by rw [ha]; rfl))
  have hlane : lanes (ix2 r v) = BitVec.ofNat 32 v.val := iota_single_apply .tc S20000x16 32 1 _ (ix2 r v)
  exact (congrArg₂ (fun p q : BitVec 32 =>
    (FloatOps.sitofp (F := Ideal) .f32 ((IntOp.cmpi .eq p q).setWidth 32) : Ideal .f32)) hcol hlane).trans (bit_eq_ite _ _)

/-- The sum over the 20,000 rows of a block of 16 lanes, lane by lane. -/
theorem colsum_apply (src : FVec Ideal S20000x16 .f32) (v : Fin 16) :
    multiReduction (F := Ideal) .add [0] S16 src 0x00000000#32 reduces_S20000x16_S16 (.inl rfl) rfl (ix1 v)
      = ∑ r : Fin 20000, src (ix2 r v) := by
  refine (Ideal.multiReduction_add_single src 0x00000000#32 reduces_S20000x16_S16 (.inl rfl) rfl (ix1 v)).trans ?_
  refine Finset.sum_congr rfl fun r _ => congrArg src ?_
  funext ax
  match ax with
  | ⟨0, _⟩ => rfl
  | ⟨1, _⟩ => rfl

/-- ONE ROW OF THE COUNTS: the row as the point found it plus, lane by lane, the number of the block's rows whose word
    in column `a` is the lane's number — for any vector `hit` that is that column's hit indicator. -/
theorem cntRow_apply (x1 : Vec Ideal S20000x8 .i32) (a : Fin 8) (hit : FVec Ideal S20000x16 .f32)
    (hhit : ∀ (r : Fin 20000) (v : Fin 16),
      hit (ix2 r v) = if x1 (ix2 r a) = BitVec.ofNat 32 v.val then (1 : EReal) else 0)
    (prev : Vec Ideal S1x16 .f32) (v : Fin 16) :
    shapeCast S1x16 (addf prev (shapeCast S1x16 (multiReduction (F := Ideal) .add [0] S16 hit 0x00000000#32
        reduces_S20000x16_S16 (.inl rfl) rfl) shapeCasts_S16_S1x16)) shapeCasts_S1x16_S1x16 (ix2 (0 : Fin 1) v)
      = prev (ix2 (0 : Fin 1) v) + countOver x1 (ix2 a v) := by
  rw [shapeCast_self]
  show prev (ix2 (0 : Fin 1) v) + shapeCast S1x16 (multiReduction (F := Ideal) .add [0] S16 hit 0x00000000#32
        reduces_S20000x16_S16 (.inl rfl) rfl) shapeCasts_S16_S1x16 (ix2 (0 : Fin 1) v) = _
  refine congrArg (fun z : EReal => prev (ix2 (0 : Fin 1) v) + z) ?_
  refine (shapeCast_a_1a_apply _ _ (0 : Fin 1) v).trans ?_
  refine (colsum_apply hit v).trans ?_
  exact Finset.sum_congr rfl fun r _ => hhit r v

/-! ## The eight payloads the body stores into the rows of the second accumulator

The body is cut into four parts, so a row's payload is one definition or a composition of two, the lane numbers passed
in or stated again inside; each unfolds to the shape of `cntRow_apply`. -/

theorem pay_row0 (x1 : Vec Ideal S20000x8 .i32) (prev : Vec Ideal S1x16 .f32) (v : Fin 16) :
    k0_pay13 (F := Ideal) x1 prev (ix2 (0 : Fin 1) v) = prev (ix2 (0 : Fin 1) v) + countOver x1 (ix2 (0 : Fin 8) v) :=
  cntRow_apply x1 0 (k0_pay11 (F := Ideal) x1) (fun r v => hit_apply x1 0 0 rfl slices_S20000x8_o0_0_S20000x1 r v) prev v

theorem pay_row1 (x1 : Vec Ideal S20000x8 .i32) (prev : Vec Ideal S1x16 .f32) (v : Fin 16) :
    k0_pay16 (F := Ideal) (k0_pay14 x1) prev (ix2 (0 : Fin 1) v) = prev (ix2 (0 : Fin 1) v) + countOver x1 (ix2 (1 : Fin 8) v) :=
  cntRow_apply x1 1 (k0_pay14 (F := Ideal) x1) (fun r v => hit_apply x1 1 1 rfl slices_S20000x8_o0_1_S20000x1 r v) prev v

theorem pay_row2 (x1 : Vec Ideal S20000x8 .i32) (prev : Vec Ideal S1x16 .f32) (v : Fin 16) :
    k0_pay19 (F := Ideal) x1 lanes prev (ix2 (0 : Fin 1) v) = prev (ix2 (0 : Fin 1) v) + countOver x1 (ix2 (2 : Fin 8) v) :=
  cntRow_apply x1 2 (k0_pay17 (F := Ideal) x1 lanes) (fun r v => hit_apply x1 2 2 rfl slices_S20000x8_o0_2_S20000x1 r v) prev v

theorem pay_row3 (x1 : Vec Ideal S20000x8 .i32) (prev : Vec Ideal S1x16 .f32) (v : Fin 16) :
    k0_pay22 (F := Ideal) x1 lanes prev (ix2 (0 : Fin 1) v) = prev (ix2 (0 : Fin 1) v) + countOver x1 (ix2 (3 : Fin 8) v) :=
  cntRow_apply x1 3 (k0_pay20 (F := Ideal) x1 lanes) (fun r v => hit_apply x1 3 3 rfl slices_S20000x8_o0_3_S20000x1 r v) prev v

theorem pay_row4 (x1 : Vec Ideal S20000x8 .i32) (prev : Vec Ideal S1x16 .f32) (v : Fin 16) :
    k0_pay26 (F := Ideal) (k0_pay24 x1 lanes) prev (ix2 (0 : Fin 1) v) = prev (ix2 (0 : Fin 1) v) + countOver x1 (ix2 (4 : Fin 8) v) :=
  cntRow_apply x1 4 (k0_pay23 (F := Ideal) x1 lanes) (fun r v => hit_apply x1 4 4 rfl slices_S20000x8_o0_4_S20000x1 r v) prev v

theorem pay_row5 (x1 : Vec Ideal S20000x8 .i32) (prev : Vec Ideal S1x16 .f32) (v : Fin 16) :
    k0_pay29 (F := Ideal) x1 lanes prev (ix2 (0 : Fin 1) v) = prev (ix2 (0 : Fin 1) v) + countOver x1 (ix2 (5 : Fin 8) v) :=
  cntRow_apply x1 5 (k0_pay27 (F := Ideal) x1 lanes) (fun r v => hit_apply x1 5 5 rfl slices_S20000x8_o0_5_S20000x1 r v) prev v

theorem pay_row6 (x1 : Vec Ideal S20000x8 .i32) (prev : Vec Ideal S1x16 .f32) (v : Fin 16) :
    k0_pay2 (F := Ideal) (k0_pay31 x1 lanes) prev (ix2 (0 : Fin 1) v) = prev (ix2 (0 : Fin 1) v) + countOver x1 (ix2 (6 : Fin 8) v) :=
  cntRow_apply x1 6 (k0_pay30 (F := Ideal) x1 lanes) (fun r v => hit_apply x1 6 6 rfl slices_S20000x8_o0_6_S20000x1 r v) prev v

theorem pay_row7 (x1 : Vec Ideal S20000x8 .i32) (prev : Vec Ideal S1x16 .f32) (v : Fin 16) :
    k0_pay5 (F := Ideal) x1 lanes prev (ix2 (0 : Fin 1) v) = prev (ix2 (0 : Fin 1) v) + countOver x1 (ix2 (7 : Fin 8) v) :=
  cntRow_apply x1 7 (k0_pay3 (F := Ideal) x1 lanes) (fun r v => hit_apply x1 7 7 rfl slices_S20000x8_o0_7_S20000x1 r v) prev v

/-- The zero store's payload is zero everywhere. -/
theorem pay_zero (y : S8x16.Idx) : k0_pay9 (F := Ideal) y = 0 := Ideal.ofBits_zero_f32

/-! ## Eight one-row stores read back at an index -/

section Rows8

variable {sg : RefSig} {κ : Kind} {sp : Space} {e : EltTy} {Val : EltTy → Type}

/-- Eight stores of one row each into an 8 by 16 buffer, row 7 the newest and row 0 the oldest, over any earlier stores:
    row `a`, lane `l` reads the payload stored into row `a` at lane `l`. -/
theorem read_rows8 (V : View sg κ sp S8x16 e) (f : V.ty.Contents Val)
    {i0 : ∀ b, (![0, 0] : Fin 2 → Nat) b + (![1, 16] : Fin 2 → Nat) b ≤ S8x16.size b}
    {i1 : ∀ b, (![1, 0] : Fin 2 → Nat) b + (![1, 16] : Fin 2 → Nat) b ≤ S8x16.size b}
    {i2 : ∀ b, (![2, 0] : Fin 2 → Nat) b + (![1, 16] : Fin 2 → Nat) b ≤ S8x16.size b}
    {i3 : ∀ b, (![3, 0] : Fin 2 → Nat) b + (![1, 16] : Fin 2 → Nat) b ≤ S8x16.size b}
    {i4 : ∀ b, (![4, 0] : Fin 2 → Nat) b + (![1, 16] : Fin 2 → Nat) b ≤ S8x16.size b}
    {i5 : ∀ b, (![5, 0] : Fin 2 → Nat) b + (![1, 16] : Fin 2 → Nat) b ≤ S8x16.size b}
    {i6 : ∀ b, (![6, 0] : Fin 2 → Nat) b + (![1, 16] : Fin 2 → Nat) b ≤ S8x16.size b}
    {i7 : ∀ b, (![7, 0] : Fin 2 → Nat) b + (![1, 16] : Fin 2 → Nat) b ≤ S8x16.size b}
    (w0 w1 w2 w3 w4 w5 w6 w7 : S1x16.Idx → Val e) (L : List (View.Piece Val S8x16 e)) (a : Fin 8) (l : Fin 16) :
    V.read Val (V.writes Val f (
        (⟨Rect.unit ![7, 0] ![1, 16] i7, w7⟩ : View.Piece Val S8x16 e) :: ⟨Rect.unit ![6, 0] ![1, 16] i6, w6⟩ ::
        ⟨Rect.unit ![5, 0] ![1, 16] i5, w5⟩ :: ⟨Rect.unit ![4, 0] ![1, 16] i4, w4⟩ ::
        ⟨Rect.unit ![3, 0] ![1, 16] i3, w3⟩ :: ⟨Rect.unit ![2, 0] ![1, 16] i2, w2⟩ ::
        ⟨Rect.unit ![1, 0] ![1, 16] i1, w1⟩ :: ⟨Rect.unit ![0, 0] ![1, 16] i0, w0⟩ :: L)) (ix2 a l)
      = ![w0, w1, w2, w3, w4, w5, w6, w7] a (ix2 (0 : Fin 1) l) := by
  fin_cases a
  · iterate 7 refine (View.read_writes_cons_rows_of_not_mem V f _ _ _ _ rfl rfl (Or.inl (by decide : (0 : ℕ) < _))).trans ?_
    exact View.read_writes_cons_rows_of_mem V f _ _ _ _ (ix2 (0 : Fin 1) l) rfl rfl rfl
  · iterate 6 refine (View.read_writes_cons_rows_of_not_mem V f _ _ _ _ rfl rfl (Or.inl (by decide : (1 : ℕ) < _))).trans ?_
    exact View.read_writes_cons_rows_of_mem V f _ _ _ _ (ix2 (0 : Fin 1) l) rfl rfl rfl
  · iterate 5 refine (View.read_writes_cons_rows_of_not_mem V f _ _ _ _ rfl rfl (Or.inl (by decide : (2 : ℕ) < _))).trans ?_
    exact View.read_writes_cons_rows_of_mem V f _ _ _ _ (ix2 (0 : Fin 1) l) rfl rfl rfl
  · iterate 4 refine (View.read_writes_cons_rows_of_not_mem V f _ _ _ _ rfl rfl (Or.inl (by decide : (3 : ℕ) < _))).trans ?_
    exact View.read_writes_cons_rows_of_mem V f _ _ _ _ (ix2 (0 : Fin 1) l) rfl rfl rfl
  · iterate 3 refine (View.read_writes_cons_rows_of_not_mem V f _ _ _ _ rfl rfl (Or.inl (by decide : (4 : ℕ) < _))).trans ?_
    exact View.read_writes_cons_rows_of_mem V f _ _ _ _ (ix2 (0 : Fin 1) l) rfl rfl rfl
  · iterate 2 refine (View.read_writes_cons_rows_of_not_mem V f _ _ _ _ rfl rfl (Or.inl (by decide : (5 : ℕ) < _))).trans ?_
    exact View.read_writes_cons_rows_of_mem V f _ _ _ _ (ix2 (0 : Fin 1) l) rfl rfl rfl
  · refine (View.read_writes_cons_rows_of_not_mem V f _ _ _ _ rfl rfl (Or.inl (by decide : (6 : ℕ) < _))).trans ?_
    exact View.read_writes_cons_rows_of_mem V f _ _ _ _ (ix2 (0 : Fin 1) l) rfl rfl rfl
  · exact View.read_writes_cons_rows_of_mem V f _ _ _ _ (ix2 (0 : Fin 1) l) rfl rfl rfl

/-- A load of row `a` of an 8 by 16 buffer reads, at lane `v`, the buffer's contents at row `a`, lane `v`. -/
theorem ld_row_apply (X : S8x16.Idx → Val e) (o : Nat) (a : Fin 8) (ha : a.val = o)
    (inb : ∀ b, (![o, 0] : Fin 2 → Nat) b + S1x16.size b ≤ S8x16.size b) (v : Fin 16) :
    View.ld X (Rect.unit (s := S8x16) ![o, 0] S1x16.size inb) (ix2 (0 : Fin 1) v) = X (ix2 a v) := by
  subst ha
  show X ((Rect.unit (s := S8x16) ![a.val, 0] S1x16.size inb).idx (ix2 (0 : Fin 1) v)) = _
  refine congrArg X (funext fun b => Fin.ext ?_)
  match b with
  | ⟨0, _⟩ => show a.val + 1 * 0 = a.val; omega
  | ⟨1, _⟩ => show 0 + 1 * v.val = v.val; omega

end Rows8

/-! ## The eight row stores of one run of the body -/

/-- The eight pieces one run of the body stores into the second accumulator, newest first, over any earlier stores:
    row `a` gets the row as the point found it (`pa`) plus the counts of column `a`. -/
abbrev rowPieces (x1 : Vec Ideal S20000x8 .i32) (p0 p1 p2 p3 p4 p5 p6 p7 : Vec Ideal S1x16 .f32)
    (L : List (View.Piece (Elt Ideal) S8x16 .f32)) : List (View.Piece (Elt Ideal) S8x16 .f32) :=
  ⟨Rect.unit ![7, 0] ![1, 16] inb_S8x16_S1x16_7_0, k0_pay5 (F := Ideal) x1 lanes p7⟩ ::
  ⟨Rect.unit ![6, 0] ![1, 16] inb_S8x16_S1x16_6_0, k0_pay2 (F := Ideal) (k0_pay31 x1 lanes) p6⟩ ::
  ⟨Rect.unit ![5, 0] ![1, 16] inb_S8x16_S1x16_5_0, k0_pay29 (F := Ideal) x1 lanes p5⟩ ::
  ⟨Rect.unit ![4, 0] ![1, 16] inb_S8x16_S1x16_4_0, k0_pay26 (F := Ideal) (k0_pay24 x1 lanes) p4⟩ ::
  ⟨Rect.unit ![3, 0] ![1, 16] inb_S8x16_S1x16_3_0, k0_pay22 (F := Ideal) x1 lanes p3⟩ ::
  ⟨Rect.unit ![2, 0] ![1, 16] inb_S8x16_S1x16_2_0, k0_pay19 (F := Ideal) x1 lanes p2⟩ ::
  ⟨Rect.unit ![1, 0] ![1, 16] inb_S8x16_S1x16_1_0, k0_pay16 (F := Ideal) (k0_pay14 x1) p1⟩ ::
  ⟨Rect.unit ![0, 0] ![1, 16] inb_S8x16_S1x16_0_0, k0_pay13 (F := Ideal) x1 p0⟩ :: L

/-- Read back at row `a`, lane `v`: what the rows held before (`q`, which each `pa` reads at row `a`) plus the block's
    group count. -/
theorem rowPieces_read {sg : RefSig} {κ : Kind} {sp : Space} (V : View sg κ sp S8x16 .f32) (f : V.ty.Contents (Elt Ideal))
    (x1 : Vec Ideal S20000x8 .i32) (p0 p1 p2 p3 p4 p5 p6 p7 : Vec Ideal S1x16 .f32)
    (L : List (View.Piece (Elt Ideal) S8x16 .f32)) (q : S8x16.Idx → EReal)
    (h0 : ∀ v : Fin 16, p0 (ix2 (0 : Fin 1) v) = q (ix2 (0 : Fin 8) v))
    (h1 : ∀ v : Fin 16, p1 (ix2 (0 : Fin 1) v) = q (ix2 (1 : Fin 8) v))
    (h2 : ∀ v : Fin 16, p2 (ix2 (0 : Fin 1) v) = q (ix2 (2 : Fin 8) v))
    (h3 : ∀ v : Fin 16, p3 (ix2 (0 : Fin 1) v) = q (ix2 (3 : Fin 8) v))
    (h4 : ∀ v : Fin 16, p4 (ix2 (0 : Fin 1) v) = q (ix2 (4 : Fin 8) v))
    (h5 : ∀ v : Fin 16, p5 (ix2 (0 : Fin 1) v) = q (ix2 (5 : Fin 8) v))
    (h6 : ∀ v : Fin 16, p6 (ix2 (0 : Fin 1) v) = q (ix2 (6 : Fin 8) v))
    (h7 : ∀ v : Fin 16, p7 (ix2 (0 : Fin 1) v) = q (ix2 (7 : Fin 8) v))
    (a : Fin 8) (v : Fin 16) :
    V.read (Elt Ideal) (V.writes (Elt Ideal) f (rowPieces x1 p0 p1 p2 p3 p4 p5 p6 p7 L)) (ix2 a v)
      = q (ix2 a v) + countOver x1 (ix2 a v) := by
  refine (read_rows8 V f _ _ _ _ _ _ _ _ L a v).trans ?_
  fin_cases a
  · exact (pay_row0 x1 p0 v).trans (congrArg (fun z : EReal => z + countOver x1 (ix2 (0 : Fin 8) v)) (h0 v))
  · exact (pay_row1 x1 p1 v).trans (congrArg (fun z : EReal => z + countOver x1 (ix2 (1 : Fin 8) v)) (h1 v))
  · exact (pay_row2 x1 p2 v).trans (congrArg (fun z : EReal => z + countOver x1 (ix2 (2 : Fin 8) v)) (h2 v))
  · exact (pay_row3 x1 p3 v).trans (congrArg (fun z : EReal => z + countOver x1 (ix2 (3 : Fin 8) v)) (h3 v))
  · exact (pay_row4 x1 p4 v).trans (congrArg (fun z : EReal => z + countOver x1 (ix2 (4 : Fin 8) v)) (h4 v))
  · exact (pay_row5 x1 p5 v).trans (congrArg (fun z : EReal => z + countOver x1 (ix2 (5 : Fin 8) v)) (h5 v))
  · exact (pay_row6 x1 p6 v).trans (congrArg (fun z : EReal => z + countOver x1 (ix2 (6 : Fin 8) v)) (h6 v))
  · exact (pay_row7 x1 p7 v).trans (congrArg (fun z : EReal => z + countOver x1 (ix2 (7 : Fin 8) v)) (h7 v))

/-! ## The three control cases -/

/-- A half's first point: the second accumulator ends at the block's group counts. -/
theorem sout_A_1 (c : Dev nD) (i : grid0.Coords) (arg2 : Memref sig .tc .vmem S20000x8 .f32) (harg2 : arg2.IsWhole) (arg3 : Memref sig .tc .vmem S20000x8 .i32) (harg3 : arg3.IsWhole) (arg4 : Memref sig .tc .vmem S1x8x16 .f32) (harg4 : arg4.IsWhole) (arg5 : Memref sig .tc .vmem S1x8x16 .f32) (harg5 : arg5.IsWhole) (arg6 : Memref sig .tc .vmem S8x16 .f32) (harg6 : arg6.IsWhole) (arg7 : Memref sig .tc .vmem S8x16 .f32) (harg7 : arg7.IsWhole) (hc0 : cond0_0 i) (hc1 : ¬cond0_1 i)
    (x0 : Vec Ideal S20000x8 .f32) (x1 : Vec Ideal S20000x8 .i32) :
    sout0_A_1 (F := Ideal) c i arg2 harg2 arg3 harg3 arg4 harg4 arg5 harg5 arg6 harg6 arg7 harg7 hc0 hc1 x0 x1 = fun j => countOver x1 j := by
  unfold sout0_A_1
  unfold kernelRun0_A
  dsimp only
  sl_unfold_words
  simp only [View.readAt_eq_ld, harg3.read_unread, View.ld_unit_zero (S := S20000x8) hz2]
  funext j
  obtain ⟨a, v, rfl⟩ : ∃ (a : Fin 8) (v : Fin 16), j = ix2 a v := ⟨j 0, j 1, eq_ix2 j⟩
  refine (rowPieces_read VS0_1 _ x1 _ _ _ _ _ _ _ _ _ (fun _ => 0) ?_ ?_ ?_ ?_ ?_ ?_ ?_ ?_ a v).trans (zero_add _)
  · intro v
    rw [View.readCov_eq_canon',
      View.canon_unit_zero (S := S8x16) hz2]
    exact pay_zero _
  · intro v
    rw [View.readCov_cons_of_rows_disjoint (k := 1) (k' := 1) arg7.view 0 1 (Or.inl (by decide)),
      View.readCov_eq_canon',
      View.canon_unit_zero (S := S8x16) hz2]
    exact pay_zero _
  · intro v
    rw [View.readCov_cons_of_rows_disjoint (k := 1) (k' := 1) arg7.view 1 2 (Or.inl (by decide)),
      View.readCov_cons_of_rows_disjoint (k := 1) (k' := 1) arg7.view 0 2 (Or.inl (by decide)),
      View.readCov_eq_canon',
      View.canon_unit_zero (S := S8x16) hz2]
    exact pay_zero _
  · intro v
    rw [View.readCov_cons_of_rows_disjoint (k := 1) (k' := 1) arg7.view 2 3 (Or.inl (by decide)),
      View.readCov_cons_of_rows_disjoint (k := 1) (k' := 1) arg7.view 1 3 (Or.inl (by decide)),
      View.readCov_cons_of_rows_disjoint (k := 1) (k' := 1) arg7.view 0 3 (Or.inl (by decide)),
      View.readCov_eq_canon',
      View.canon_unit_zero (S := S8x16) hz2]
    exact pay_zero _
  · intro v
    rw [View.readCov_cons_of_rows_disjoint (k := 1) (k' := 1) arg7.view 3 4 (Or.inl (by decide)),
      View.readCov_cons_of_rows_disjoint (k := 1) (k' := 1) arg7.view 2 4 (Or.inl (by decide)),
      View.readCov_cons_of_rows_disjoint (k := 1) (k' := 1) arg7.view 1 4 (Or.inl (by decide)),
      View.readCov_cons_of_rows_disjoint (k := 1) (k' := 1) arg7.view 0 4 (Or.inl (by decide)),
      View.readCov_eq_canon',
      View.canon_unit_zero (S := S8x16) hz2]
    exact pay_zero _
  · intro v
    rw [View.readCov_cons_of_rows_disjoint (k := 1) (k' := 1) arg7.view 4 5 (Or.inl (by decide)),
      View.readCov_cons_of_rows_disjoint (k := 1) (k' := 1) arg7.view 3 5 (Or.inl (by decide)),
      View.readCov_cons_of_rows_disjoint (k := 1) (k' := 1) arg7.view 2 5 (Or.inl (by decide)),
      View.readCov_cons_of_rows_disjoint (k := 1) (k' := 1) arg7.view 1 5 (Or.inl (by decide)),
      View.readCov_cons_of_rows_disjoint (k := 1) (k' := 1) arg7.view 0 5 (Or.inl (by decide)),
      View.readCov_eq_canon',
      View.canon_unit_zero (S := S8x16) hz2]
    exact pay_zero _
  · intro v
    rw [View.readCov_cons_of_rows_disjoint (k := 1) (k' := 1) arg7.view 5 6 (Or.inl (by decide)),
      View.readCov_cons_of_rows_disjoint (k := 1) (k' := 1) arg7.view 4 6 (Or.inl (by decide)),
      View.readCov_cons_of_rows_disjoint (k := 1) (k' := 1) arg7.view 3 6 (Or.inl (by decide)),
      View.readCov_cons_of_rows_disjoint (k := 1) (k' := 1) arg7.view 2 6 (Or.inl (by decide)),
      View.readCov_cons_of_rows_disjoint (k := 1) (k' := 1) arg7.view 1 6 (Or.inl (by decide)),
      View.readCov_cons_of_rows_disjoint (k := 1) (k' := 1) arg7.view 0 6 (Or.inl (by decide)),
      View.readCov_eq_canon',
      View.canon_unit_zero (S := S8x16) hz2]
    exact pay_zero _
  · intro v
    rw [View.readCov_cons_of_rows_disjoint (k := 1) (k' := 1) arg7.view 6 7 (Or.inl (by decide)),
      View.readCov_cons_of_rows_disjoint (k := 1) (k' := 1) arg7.view 5 7 (Or.inl (by decide)),
      View.readCov_cons_of_rows_disjoint (k := 1) (k' := 1) arg7.view 4 7 (Or.inl (by decide)),
      View.readCov_cons_of_rows_disjoint (k := 1) (k' := 1) arg7.view 3 7 (Or.inl (by decide)),
      View.readCov_cons_of_rows_disjoint (k := 1) (k' := 1) arg7.view 2 7 (Or.inl (by decide)),
      View.readCov_cons_of_rows_disjoint (k := 1) (k' := 1) arg7.view 1 7 (Or.inl (by decide)),
      View.readCov_cons_of_rows_disjoint (k := 1) (k' := 1) arg7.view 0 7 (Or.inl (by decide)),
      View.readCov_eq_canon',
      View.canon_unit_zero (S := S8x16) hz2]
    exact pay_zero _

/-- A middle point: the second accumulator gains the block's group counts. -/
theorem sout_B_1 (c : Dev nD) (i : grid0.Coords) (arg2 : Memref sig .tc .vmem S20000x8 .f32) (harg2 : arg2.IsWhole) (arg3 : Memref sig .tc .vmem S20000x8 .i32) (harg3 : arg3.IsWhole) (arg4 : Memref sig .tc .vmem S1x8x16 .f32) (harg4 : arg4.IsWhole) (arg5 : Memref sig .tc .vmem S1x8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : ¬cond0_1 i)
    (x0 : Vec Ideal S20000x8 .f32) (x1 : Vec Ideal S20000x8 .i32) (xs0 xs1 : Vec Ideal S8x16 .f32) :
    sout0_B_1 (F := Ideal) c i arg2 harg2 arg3 harg3 arg4 harg4 arg5 harg5 arg6 harg6 arg7 harg7 hc0 hc1 x0 x1 xs0 xs1 = fun j => xs1 j + countOver x1 j := by
  unfold sout0_B_1
  unfold kernelRun0_B
  dsimp only
  sl_unfold_words
  simp only [View.readAt_eq_ld, harg3.read_unread, harg7.read_unread, View.ld_unit_zero (S := S20000x8) hz2]
  funext j
  obtain ⟨a, v, rfl⟩ : ∃ (a : Fin 8) (v : Fin 16), j = ix2 a v := ⟨j 0, j 1, eq_ix2 j⟩
  refine rowPieces_read VS0_1 _ x1 _ _ _ _ _ _ _ _ [] xs1 ?_ ?_ ?_ ?_ ?_ ?_ ?_ ?_ a v
  · exact fun v => ld_row_apply xs1 0 0 rfl _ v
  · exact fun v => ld_row_apply xs1 1 1 rfl _ v
  · exact fun v => ld_row_apply xs1 2 2 rfl _ v
  · exact fun v => ld_row_apply xs1 3 3 rfl _ v
  · exact fun v => ld_row_apply xs1 4 4 rfl _ v
  · exact fun v => ld_row_apply xs1 5 5 rfl _ v
  · exact fun v => ld_row_apply xs1 6 6 rfl _ v
  · exact fun v => ld_row_apply xs1 7 7 rfl _ v

/-- A half's last point: the second accumulator gains the block's group counts, -/
theorem sout_C_1 (c : Dev nD) (i : grid0.Coords) (arg2 : Memref sig .tc .vmem S20000x8 .f32) (harg2 : arg2.IsWhole) (arg3 : Memref sig .tc .vmem S20000x8 .i32) (harg3 : arg3.IsWhole) (arg4 : Memref sig .tc .vmem S1x8x16 .f32) (harg4 : arg4.IsWhole) (arg5 : Memref sig .tc .vmem S1x8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : cond0_1 i)
    (x0 : Vec Ideal S20000x8 .f32) (x1 : Vec Ideal S20000x8 .i32) (xs0 xs1 : Vec Ideal S8x16 .f32) :
    sout0_C_1 (F := Ideal) c i arg2 harg2 arg3 harg3 arg4 harg4 arg5 harg5 arg6 harg6 arg7 harg7 hc0 hc1 x0 x1 xs0 xs1 = fun j => xs1 j + countOver x1 j := by
  unfold sout0_C_1
  unfold kernelRun0_C
  dsimp only
  sl_unfold_words
  simp only [View.readAt_eq_ld, harg3.read_unread, harg7.read_unread, View.ld_unit_zero (S := S20000x8) hz2]
  funext j
  obtain ⟨a, v, rfl⟩ : ∃ (a : Fin 8) (v : Fin 16), j = ix2 a v := ⟨j 0, j 1, eq_ix2 j⟩
  refine rowPieces_read VS0_1 _ x1 _ _ _ _ _ _ _ _ [] xs1 ?_ ?_ ?_ ?_ ?_ ?_ ?_ ?_ a v
  · exact fun v => ld_row_apply xs1 0 0 rfl _ v
  · exact fun v => ld_row_apply xs1 1 1 rfl _ v
  · exact fun v => ld_row_apply xs1 2 2 rfl _ v
  · exact fun v => ld_row_apply xs1 3 3 rfl _ v
  · exact fun v => ld_row_apply xs1 4 4 rfl _ v
  · exact fun v => ld_row_apply xs1 5 5 rfl _ v
  · exact fun v => ld_row_apply xs1 6 6 rfl _ v
  · exact fun v => ld_row_apply xs1 7 7 rfl _ v

/-- and the second output block is the second accumulator's new contents under a leading unit axis. -/
theorem out_C_3 (c : Dev nD) (i : grid0.Coords) (arg2 : Memref sig .tc .vmem S20000x8 .f32) (harg2 : arg2.IsWhole) (arg3 : Memref sig .tc .vmem S20000x8 .i32) (harg3 : arg3.IsWhole) (arg4 : Memref sig .tc .vmem S1x8x16 .f32) (harg4 : arg4.IsWhole) (arg5 : Memref sig .tc .vmem S1x8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : cond0_1 i)
    (x0 : Vec Ideal S20000x8 .f32) (x1 : Vec Ideal S20000x8 .i32) (xs0 xs1 : Vec Ideal S8x16 .f32) :
    out0_C_3 (F := Ideal) c i arg2 harg2 arg3 harg3 arg4 harg4 arg5 harg5 arg6 harg6 arg7 harg7 hc0 hc1 x0 x1 xs0 xs1
      = fun j : S1x8x16.Idx => xs1 (ix2 (j 1) (j 2)) + countOver x1 (ix2 (j 1) (j 2)) := by
  unfold out0_C_3
  unfold kernelRun0_C
  dsimp only
  sl_unfold_words
  simp only [View.readAt_eq_ld, harg3.read_unread, harg7.read_unread, View.ld_unit_zero (S := S20000x8) hz2]
  funext j
  obtain ⟨u, a, v, rfl⟩ : ∃ (u : Fin 1) (a : Fin 8) (v : Fin 16), j = ix3 u a v := ⟨j 0, j 1, j 2, eq_ix3 j⟩
  refine (View.read_writes_junk_apply_eq_canon VO0_3 (ix3 u a v) _).trans ?_
  rw [View.canon_unit_zero (S := S1x8x16) hz3]
  unfold k0_pay7
  refine (shapeCast_ab_1ab_apply _ _ u a v).trans ?_
  rw [View.readCov_eq_canon']
  refine (congrFun (View.ld_unit_zero (S := S8x16) hz2 _ (View.canon _)) (ix2 a v)).trans ?_
  refine (View.read_writes_junk_apply_eq_canon VS0_1 (ix2 a v) _).symm.trans ?_
  refine rowPieces_read VS0_1 _ x1 _ _ _ _ _ _ _ _ [] xs1 ?_ ?_ ?_ ?_ ?_ ?_ ?_ ?_ a v
  · exact fun v => ld_row_apply xs1 0 0 rfl _ v
  · exact fun v => ld_row_apply xs1 1 1 rfl _ v
  · exact fun v => ld_row_apply xs1 2 2 rfl _ v
  · exact fun v => ld_row_apply xs1 3 3 rfl _ v
  · exact fun v => ld_row_apply xs1 4 4 rfl _ v
  · exact fun v => ld_row_apply xs1 5 5 rfl _ v
  · exact fun v => ld_row_apply xs1 6 6 rfl _ v
  · exact fun v => ld_row_apply xs1 7 7 rfl _ v

end Cert.KernelIdeal.KBodyCnt

end
-- ==== Proof.KAcc.lean ====
/-
  What the two result arrays of the kernel's region hold when the region ends, at the exact instance.

  The grid has 100 points, two halves of 50.  Within a half the two accumulators start from zero and gain, point by
  point, the group totals and counts of the point's block of rows; the half's last point copies them into block `h`
  of the two result arrays.  So entry `(h, a, v)` of the first result array is the sum over the half's 50 points of
  their blocks' group totals at `(a, v)`, and of the second the sum of their group counts.
-/
import proofs.«406109_j36258113913169_2_alg».proof.Proof.KBodySum
import proofs.«406109_j36258113913169_2_alg».proof.Proof.KBodyCnt

noncomputable section

open Idealize.ShloMosaic Idealize.ShloMosaic.TcCoe Idealize.SL.Sem Idealize.ShloMosaic.ValueIdx
open Idealize.ShloMosaic.Pipeline (Dat)

namespace Cert.KernelIdeal.KAcc

open Cert.KernelIdeal Cert.KernelIdeal.Gen Cert.Hist

variable (m : (ℓ : Loc nD τ sig) → Buf (Elt Ideal) ℓ)

/-- Point `i` of half `h`, as a grid point. -/
def pt (h : Fin 2) (i : Fin 50) : Fin cfg0.N :=
  ⟨50 * h.val + i.val, by
    have h1 := h.isLt; have h2 := i.isLt
    show _ < cfg0.N
    rw [show cfg0.N = 100 from N_0]; omega⟩

/-- The block of rows the first input window holds at a grid point, and the block of words the second holds. -/
abbrev xblk (c : Dev nD) (t : Fin cfg0.N) : Vec Ideal S20000x8 .f32 := iblk m c 0 t
abbrev ablk (c : Dev nD) (t : Fin cfg0.N) : Vec Ideal S20000x8 .i32 := iblk m c 1 t

/-! ## One point: what the accumulators and the two output blocks hold after it, over what the point before left -/

/-- At a half's first point the accumulators hold that point's block's group totals and group counts. -/
theorem acc_first (c : Dev nD) (t : Fin cfg0.N) (h0 : t.val % 50 = 0) :
    (outsAt0 m c t.val t.isLt).2.2.1 = sumOver (xblk m c t) (ablk m c t)
    ∧ (outsAt0 m c t.val t.isLt).2.2.2 = countOver (ablk m c t) := by
  have h1 : ¬t.val % 50 = 49 := by omega
  rw [outsAt0_A m c t h0 h1]
  dsimp only
  exact ⟨KBodySum.sout_A_0 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) ((hcond0_0 t).mpr h0) (fun h => h1 ((hcond0_1 t).mp h)) (xblk m c t) (ablk m c t),
    KBodyCnt.sout_A_1 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) ((hcond0_0 t).mpr h0) (fun h => h1 ((hcond0_1 t).mp h)) (xblk m c t) (ablk m c t)⟩

/-- At any later point of a half each accumulator is what the point before left plus the point's block's group
    totals, respectively group counts. -/
theorem acc_next (c : Dev nD) (t : Fin cfg0.N) (h0 : ¬t.val % 50 = 0) :
    (outsAt0 m c t.val t.isLt).2.2.1
        = (fun j : S8x16.Idx => (outsAt0 m c (t.val - 1) (Nat.lt_of_le_of_lt (Nat.sub_le _ _) t.isLt)).2.2.1 j + sumOver (xblk m c t) (ablk m c t) j)
    ∧ (outsAt0 m c t.val t.isLt).2.2.2
        = (fun j : S8x16.Idx => (outsAt0 m c (t.val - 1) (Nat.lt_of_le_of_lt (Nat.sub_le _ _) t.isLt)).2.2.2 j + countOver (ablk m c t) j) := by
  by_cases h1 : t.val % 50 = 49
  · rw [outsAt0_C m c t h0 h1]
    dsimp only
    exact ⟨KBodySum.sout_C_0 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (fun h => h0 ((hcond0_0 t).mp h)) ((hcond0_1 t).mpr h1) (xblk m c t) (ablk m c t) (outsAt0 m c (t.val - 1) (Nat.lt_of_le_of_lt (Nat.sub_le _ _) t.isLt)).2.2.1 (outsAt0 m c (t.val - 1) (Nat.lt_of_le_of_lt (Nat.sub_le _ _) t.isLt)).2.2.2,
      KBodyCnt.sout_C_1 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (fun h => h0 ((hcond0_0 t).mp h)) ((hcond0_1 t).mpr h1) (xblk m c t) (ablk m c t) (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨KBodySum.sout_B_0 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (fun h => h0 ((hcond0_0 t).mp h)) (fun h => h1 ((hcond0_1 t).mp h)) (xblk m c t) (ablk m c t) (outsAt0 m c (t.val - 1) (Nat.lt_of_le_of_lt (Nat.sub_le _ _) t.isLt)).2.2.1 (outsAt0 m c (t.val - 1) (Nat.lt_of_le_of_lt (Nat.sub_le _ _) t.isLt)).2.2.2,
      KBodyCnt.sout_B_1 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (fun h => h0 ((hcond0_0 t).mp h)) (fun h => h1 ((hcond0_1 t).mp h)) (xblk m c t) (ablk m c t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At a half's last point the two output blocks are the accumulators' new contents under a leading unit axis. -/
theorem stage_last (c : Dev nD) (t : Fin cfg0.N) (h1 : t.val % 50 = 49) :
    (outsAt0 m c t.val t.isLt).1
        = (fun j : S1x8x16.Idx => (outsAt0 m c (t.val - 1) (Nat.lt_of_le_of_lt (Nat.sub_le _ _) t.isLt)).2.2.1 (ix2 (j 1) (j 2)) + sumOver (xblk m c t) (ablk m c t) (ix2 (j 1) (j 2)))
    ∧ (outsAt0 m c t.val t.isLt).2.1
        = (fun j : S1x8x16.Idx => (outsAt0 m c (t.val - 1) (Nat.lt_of_le_of_lt (Nat.sub_le _ _) t.isLt)).2.2.2 (ix2 (j 1) (j 2)) + countOver (ablk m c t) (ix2 (j 1) (j 2))) := by
  have h0 : ¬t.val % 50 = 0 := by omega
  rw [outsAt0_C m c t h0 h1]
  dsimp only
  exact ⟨KBodySum.out_C_2 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (fun h => h0 ((hcond0_0 t).mp h)) ((hcond0_1 t).mpr h1) (xblk m c t) (ablk m c t) (outsAt0 m c (t.val - 1) (Nat.lt_of_le_of_lt (Nat.sub_le _ _) t.isLt)).2.2.1 (outsAt0 m c (t.val - 1) (Nat.lt_of_le_of_lt (Nat.sub_le _ _) t.isLt)).2.2.2,
    KBodyCnt.out_C_3 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (fun h => h0 ((hcond0_0 t).mp h)) ((hcond0_1 t).mpr h1) (xblk m c t) (ablk m c t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-! ## The accumulators in closed form: sums over the points of the half so far -/

/-- The group totals of the block of rows at grid position `k`, as a function of any natural number (zero beyond the grid). -/
def sTerm (c : Dev nD) (k : ℕ) : SG.Idx → EReal :=
  if h : k < cfg0.N then sumOver (xblk m c ⟨k, h⟩) (ablk m c ⟨k, h⟩) else fun _ => 0

/-- The group counts of the block of words at grid position `k` (zero beyond the grid). -/
def cTerm (c : Dev nD) (k : ℕ) : SG.Idx → EReal :=
  if h : k < cfg0.N then countOver (ablk m c ⟨k, h⟩) else fun _ => 0

theorem sTerm_of_lt (c : Dev nD) (k : ℕ) (h : k < cfg0.N) : sTerm m c k = sumOver (xblk m c ⟨k, h⟩) (ablk m c ⟨k, h⟩) :=
  dif_pos h

theorem cTerm_of_lt (c : Dev nD) (k : ℕ) (h : k < cfg0.N) : cTerm m c k = countOver (ablk m c ⟨k, h⟩) :=
  dif_pos h

/-- Position `n = 50 q + r` (`r < 50`) is point `r` of half `q`: after it the accumulators hold the sums of the
    group totals, respectively counts, of the blocks at positions `50 q, …, 50 q + r`. By induction on `n`: a half's
    first point starts the sums afresh, every other point adds its own block's term to what the point before left. -/
theorem acc_closed (c : Dev nD) (n : ℕ) : ∀ (hn : n < cfg0.N) (q r : ℕ), n = 50 * q + r → r < 50 →
    (outsAt0 m c n hn).2.2.1 = (fun j : S8x16.Idx => ∑ i ∈ Finset.range (r + 1), sTerm m c (50 * q + i) j)
    ∧ (outsAt0 m c n hn).2.2.2 = (fun j : S8x16.Idx => ∑ i ∈ Finset.range (r + 1), cTerm m c (50 * q + i) j) := by
  -- the first point of a half, at any position
  have first : ∀ (n : ℕ) (hn : n < cfg0.N) (q : ℕ), n = 50 * q + 0 →
      (outsAt0 m c n hn).2.2.1 = (fun j : S8x16.Idx => ∑ i ∈ Finset.range (0 + 1), sTerm m c (50 * q + i) j)
      ∧ (outsAt0 m c n hn).2.2.2 = (fun j : S8x16.Idx => ∑ i ∈ Finset.range (0 + 1), cTerm m c (50 * q + i) j) := by
    intro n hn q e
    obtain ⟨a1, a2⟩ := acc_first m c ⟨n, hn⟩ (by show n % 50 = 0; omega)
    refine ⟨a1.trans ?_, a2.trans ?_⟩
    · funext j
      rw [Finset.sum_range_succ, Finset.sum_range_zero, zero_add, ← e, sTerm_of_lt m c n hn]
    · funext j
      rw [Finset.sum_range_succ, Finset.sum_range_zero, zero_add, ← e, cTerm_of_lt m c n hn]
  induction n with
  | zero => intro hn q r e hr; obtain rfl : r = 0 := by omega
            exact first 0 hn q e
  | succ n ih =>
    intro hn q r e hr
    by_cases hr0 : r = 0
    · subst hr0; exact first (n + 1) hn q e
    · obtain ⟨r', rfl⟩ : ∃ r', r = r' + 1 := ⟨r - 1, by omega⟩
      obtain ⟨i1, i2⟩ := ih (Nat.lt_of_succ_lt hn) q r' (by omega) (by omega)
      obtain ⟨s1, s2⟩ := acc_next m c ⟨n + 1, hn⟩ (by show ¬(n + 1) % 50 = 0; omega)
      have e' : 50 * q + (r' + 1) = n + 1 := by omega
      refine ⟨s1.trans ?_, s2.trans ?_⟩
      · funext j
        rw [Finset.sum_range_succ (fun i => sTerm m c (50 * q + i) j) (r' + 1), e', sTerm_of_lt m c (n + 1) hn]
        show (outsAt0 m c n (Nat.lt_of_succ_lt hn)).2.2.1 j + _ = _
        rw [i1]
      · funext j
        rw [Finset.sum_range_succ (fun i => cTerm m c (50 * q + i) j) (r' + 1), e', cTerm_of_lt m c (n + 1) hn]
        show (outsAt0 m c n (Nat.lt_of_succ_lt hn)).2.2.2 j + _ = _
        rw [i2]

/-- After a half's last point, at position `50 q + 49`, the two output blocks hold, under their leading unit axis,
    the half's full sums: the 49 earlier points' from the accumulators, the last point's own added. -/
theorem stage_closed (c : Dev nD) (t : Fin cfg0.N) (q : ℕ) (e : t.val = 50 * q + 49) :
    (outsAt0 m c t.val t.isLt).1
        = (fun j : S1x8x16.Idx => ∑ i ∈ Finset.range 50, sTerm m c (50 * q + i) (ix2 (j 1) (j 2)))
    ∧ (outsAt0 m c t.val t.isLt).2.1
        = (fun j : S1x8x16.Idx => ∑ i ∈ Finset.range 50, cTerm m c (50 * q + i) (ix2 (j 1) (j 2))) := by
  obtain ⟨s1, s2⟩ := stage_last m c t (by omega)
  obtain ⟨p1, p2⟩ := acc_closed m c (t.val - 1) (Nat.lt_of_le_of_lt (Nat.sub_le _ _) t.isLt) q 48 (by omega) (by omega)
  have e' : 50 * q + 49 = t.val := e.symm
  refine ⟨s1.trans ?_, s2.trans ?_⟩
  · funext j
    rw [Finset.sum_range_succ (fun i => sTerm m c (50 * q + i) (ix2 (j 1) (j 2))) 49, e', sTerm_of_lt m c t.val t.isLt, p1]
  · funext j
    rw [Finset.sum_range_succ (fun i => cTerm m c (50 * q + i) (ix2 (j 1) (j 2))) 49, e', cTerm_of_lt m c t.val t.isLt, p2]

/-! ## From the output blocks to the result arrays -/

/-- The sums over the positions `50 h, …, 50 h + 49` are the sums over the 50 points of half `h`. -/
theorem half_sums (c : Dev nD) (h : Fin 2) (jj : SG.Idx) :
    ∑ i ∈ Finset.range 50, sTerm m c (50 * h.val + i) jj = ∑ i : Fin 50, sumOver (xblk m c (pt h i)) (ablk m c (pt h i)) jj := by
  rw [Finset.sum_range]
  exact Finset.sum_congr rfl fun i _ => congrFun (sTerm_of_lt m c (50 * h.val + i.val) (pt h i).isLt) jj

/-- What the first result array ends holding: per half, the sum over its points of the blocks' group totals. -/
abbrev sumsArr (c : Dev nD) : S2x8x16.Idx → EReal :=
  fun j => ∑ i : Fin 50, sumOver (xblk m c (pt (j 0) i)) (ablk m c (pt (j 0) i)) (ix2 (j 1) (j 2))

/-- An entry of that array, its index given by coordinates. -/
theorem sums_entry (c : Dev nD) (q : ℕ) (a : Fin 8) (v : Fin 16) (j : S2x8x16.Idx)
    (h0 : (j 0).val = q) (h1 : (j 1).val = a.val) (h2 : (j 2).val = v.val) :
    ∑ i ∈ Finset.range 50, sTerm m c (50 * q + i) (ix2 a v) = sumsArr m c j := by
  subst h0
  obtain rfl : j 1 = a := Fin.ext h1
  obtain rfl : j 2 = v := Fin.ext h2
  exact half_sums m c (j 0) (ix2 (j 1) (j 2))

/-- The block index of window 2 at a grid position: the half on the leading axis, zero on the other two. -/
theorem sums_block_index : ∀ t : Fin cfg0.N, win0_2.index t (0 : Fin 3) = t.val / 50 ∧ win0_2.index t (1 : Fin 3) = 0
    ∧ win0_2.index t (2 : Fin 3) = 0 :=
  (by decide +kernel : ∀ t : Fin grid0.N, _)

/-- What a half's last point writes back is its block of that array: block `h` is the entries with leading
    coordinate `h`, and the output block holds the half's sums under its unit axis. -/
theorem flushed_sums (c : Dev nD) (t : Fin cfg0.N) (hf : (cfg0.win 2).flush t = true) :
    (dats (F := Ideal) m 0 c).flushed 2 t = ((cfg0.win 2).blk t).view.read (Elt Ideal) (sumsArr m c) := by
  have h49 : t.val % 50 = 49 := (flush0_2 t).mp hf
  have hN : t.val < 100 := lt_of_lt_of_eq t.isLt (show cfg0.N = 100 from N_0)
  obtain ⟨e0, e1, e2⟩ := sums_block_index t
  show (cfg0.win 2).cut (grid0.coords t) ((dats m 0 c).after 2 t) = _
  rw [after0_2, (stage_closed m c t (t.val / 50) (by omega)).1]
  funext y
  rw [View.read_apply]
  have hy0 : (y 0).val < 1 := (y 0).isLt
  have hy1 : (y 1).val < 8 := (y 1).isLt
  have hy2 : (y 2).val < 16 := (y 2).isLt
  refine sums_entry m c (t.val / 50) ⟨(y 1).val, hy1⟩ ⟨(y 2).val, hy2⟩ _ ?_ ?_ ?_
  · show win0_2.index t (0 : Fin 3) * 1 + 1 * (y 0).val = t.val / 50; omega
  · show win0_2.index t (1 : Fin 3) * 8 + 1 * (y 1).val = (y 1).val; omega
  · show win0_2.index t (2 : Fin 3) * 16 + 1 * (y 2).val = (y 2).val; omega

/-- An index of the array is in a position's block iff each coordinate is in the block's range on its axis. -/
theorem mem_sums_block (t : Fin cfg0.N) (i : S2x8x16.Idx) :
    i ∈ ((cfg0.win 2).blk t).view.set ↔ ∀ a : Fin 3, win0_2.index t a * S1x8x16.size a ≤ (i a).val
      ∧ (i a).val < win0_2.index t a * S1x8x16.size a + S1x8x16.size a := by
  show i ∈ ((View.whole main_v0_0).slice (win0_2.rect t)).set ↔ _
  rw [View.set_slice_whole, Rect.mem_set_unit]
  exact Iff.rfl

/-- Entry `(h, a, v)` lies in the block half `h`'s last point writes back. -/
theorem sums_covered (i : S2x8x16.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 16 := (i 2).isLt
  have hlt : 50 * (i 0).val + 49 < cfg0.N := by rw [show cfg0.N = 100 from N_0]; omega
  refine ⟨⟨50 * (i 0).val + 49, hlt⟩, (flush0_2 _).mpr (by show (50 * (i 0).val + 49) % 50 = 49; omega), ?_⟩
  obtain ⟨e0, e1, e2⟩ := sums_block_index ⟨50 * (i 0).val + 49, hlt⟩
  have ev : (50 * (i 0).val + 49) / 50 = (i 0).val := by omega
  rw [mem_sums_block]
  intro a
  match a with
  | ⟨0, _⟩ =>
    show win0_2.index ⟨50 * (i 0).val + 49, hlt⟩ (0 : Fin 3) * 1 ≤ (i 0).val
      ∧ (i 0).val < win0_2.index ⟨50 * (i 0).val + 49, hlt⟩ (0 : Fin 3) * 1 + 1
    rw [e0]; show (50 * (i 0).val + 49) / 50 * 1 ≤ (i 0).val ∧ (i 0).val < (50 * (i 0).val + 49) / 50 * 1 + 1
    omega
  | ⟨1, _⟩ =>
    show win0_2.index ⟨50 * (i 0).val + 49, hlt⟩ (1 : Fin 3) * 8 ≤ (i 1).val
      ∧ (i 1).val < win0_2.index ⟨50 * (i 0).val + 49, hlt⟩ (1 : Fin 3) * 8 + 8
    omega
  | ⟨2, _⟩ =>
    show win0_2.index ⟨50 * (i 0).val + 49, hlt⟩ (2 : Fin 3) * 16 ≤ (i 2).val
      ∧ (i 2).val < win0_2.index ⟨50 * (i 0).val + 49, hlt⟩ (2 : Fin 3) * 16 + 16
    omega

/-- The sums over the positions `50 h, …, 50 h + 49` are the sums over the 50 points of half `h`. -/
theorem half_counts (c : Dev nD) (h : Fin 2) (jj : SG.Idx) :
    ∑ i ∈ Finset.range 50, cTerm m c (50 * h.val + i) jj = ∑ i : Fin 50, countOver (ablk m c (pt h i)) jj := by
  rw [Finset.sum_range]
  exact Finset.sum_congr rfl fun i _ => congrFun (cTerm_of_lt m c (50 * h.val + i.val) (pt h i).isLt) jj

/-- What the second result array ends holding: per half, the sum over its points of the blocks' group counts. -/
abbrev countsArr (c : Dev nD) : S2x8x16.Idx → EReal :=
  fun j => ∑ i : Fin 50, countOver (ablk m c (pt (j 0) i)) (ix2 (j 1) (j 2))

/-- An entry of that array, its index given by coordinates. -/
theorem counts_entry (c : Dev nD) (q : ℕ) (a : Fin 8) (v : Fin 16) (j : S2x8x16.Idx)
    (h0 : (j 0).val = q) (h1 : (j 1).val = a.val) (h2 : (j 2).val = v.val) :
    ∑ i ∈ Finset.range 50, cTerm m c (50 * q + i) (ix2 a v) = countsArr m c j := by
  subst h0
  obtain rfl : j 1 = a := Fin.ext h1
  obtain rfl : j 2 = v := Fin.ext h2
  exact half_counts m c (j 0) (ix2 (j 1) (j 2))

/-- The block index of window 3 at a grid position: the half on the leading axis, zero on the other two. -/
theorem counts_block_index : ∀ t : Fin cfg0.N, win0_3.index t (0 : Fin 3) = t.val / 50 ∧ win0_3.index t (1 : Fin 3) = 0
    ∧ win0_3.index t (2 : Fin 3) = 0 :=
  (by decide +kernel : ∀ t : Fin grid0.N, _)

/-- What a half's last point writes back is its block of that array: block `h` is the entries with leading
    coordinate `h`, and the output block holds the half's sums under its unit axis. -/
theorem flushed_counts (c : Dev nD) (t : Fin cfg0.N) (hf : (cfg0.win 3).flush t = true) :
    (dats (F := Ideal) m 0 c).flushed 3 t = ((cfg0.win 3).blk t).view.read (Elt Ideal) (countsArr m c) := by
  have h49 : t.val % 50 = 49 := (flush0_3 t).mp hf
  have hN : t.val < 100 := lt_of_lt_of_eq t.isLt (show cfg0.N = 100 from N_0)
  obtain ⟨e0, e1, e2⟩ := counts_block_index t
  show (cfg0.win 3).cut (grid0.coords t) ((dats m 0 c).after 3 t) = _
  rw [after0_3, (stage_closed m c t (t.val / 50) (by omega)).2]
  funext y
  rw [View.read_apply]
  have hy0 : (y 0).val < 1 := (y 0).isLt
  have hy1 : (y 1).val < 8 := (y 1).isLt
  have hy2 : (y 2).val < 16 := (y 2).isLt
  refine counts_entry m c (t.val / 50) ⟨(y 1).val, hy1⟩ ⟨(y 2).val, hy2⟩ _ ?_ ?_ ?_
  · show win0_3.index t (0 : Fin 3) * 1 + 1 * (y 0).val = t.val / 50; omega
  · show win0_3.index t (1 : Fin 3) * 8 + 1 * (y 1).val = (y 1).val; omega
  · show win0_3.index t (2 : Fin 3) * 16 + 1 * (y 2).val = (y 2).val; omega

/-- An index of the array is in a position's block iff each coordinate is in the block's range on its axis. -/
theorem mem_counts_block (t : Fin cfg0.N) (i : S2x8x16.Idx) :
    i ∈ ((cfg0.win 3).blk t).view.set ↔ ∀ a : Fin 3, win0_3.index t a * S1x8x16.size a ≤ (i a).val
      ∧ (i a).val < win0_3.index t a * S1x8x16.size a + S1x8x16.size a := by
  show i ∈ ((View.whole main_v0_1).slice (win0_3.rect t)).set ↔ _
  rw [View.set_slice_whole, Rect.mem_set_unit]
  exact Iff.rfl

/-- Entry `(h, a, v)` lies in the block half `h`'s last point writes back. -/
theorem counts_covered (i : S2x8x16.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 16 := (i 2).isLt
  have hlt : 50 * (i 0).val + 49 < cfg0.N := by rw [show cfg0.N = 100 from N_0]; omega
  refine ⟨⟨50 * (i 0).val + 49, hlt⟩, (flush0_3 _).mpr (by show (50 * (i 0).val + 49) % 50 = 49; omega), ?_⟩
  obtain ⟨e0, e1, e2⟩ := counts_block_index ⟨50 * (i 0).val + 49, hlt⟩
  have ev : (50 * (i 0).val + 49) / 50 = (i 0).val := by omega
  rw [mem_counts_block]
  intro a
  match a with
  | ⟨0, _⟩ =>
    show win0_3.index ⟨50 * (i 0).val + 49, hlt⟩ (0 : Fin 3) * 1 ≤ (i 0).val
      ∧ (i 0).val < win0_3.index ⟨50 * (i 0).val + 49, hlt⟩ (0 : Fin 3) * 1 + 1
    rw [e0]; show (50 * (i 0).val + 49) / 50 * 1 ≤ (i 0).val ∧ (i 0).val < (50 * (i 0).val + 49) / 50 * 1 + 1
    omega
  | ⟨1, _⟩ =>
    show win0_3.index ⟨50 * (i 0).val + 49, hlt⟩ (1 : Fin 3) * 8 ≤ (i 1).val
      ∧ (i 1).val < win0_3.index ⟨50 * (i 0).val + 49, hlt⟩ (1 : Fin 3) * 8 + 8
    omega
  | ⟨2, _⟩ =>
    show win0_3.index ⟨50 * (i 0).val + 49, hlt⟩ (2 : Fin 3) * 16 ≤ (i 2).val
      ∧ (i 2).val < win0_3.index ⟨50 * (i 0).val + 49, hlt⟩ (2 : Fin 3) * 16 + 16
    omega

/-! ## The two result arrays when the region ends -/

/-- The first result array when the region ends: per half, the sum over its points of the blocks' group totals. -/
theorem arr_sums (c : Dev nD) :
    (dats (F := Ideal) m 0 c).arrAt 2 cfg0.N
      = fun j : S2x8x16.Idx => ∑ i : Fin 50, sumOver (xblk m c (pt (j 0) i)) (ablk m c (pt (j 0) i)) (ix2 (j 1) (j 2)) :=
  (dats (F := Ideal) m 0 c).arrAt_eq_of_cover 2 (sumsArr m c) (fun t hf => flushed_sums m c t hf) sums_covered

/-- The second result array when the region ends: per half, the sum over its points of the blocks' group counts. -/
theorem arr_counts (c : Dev nD) :
    (dats (F := Ideal) m 0 c).arrAt 3 cfg0.N
      = fun j : S2x8x16.Idx => ∑ i : Fin 50, countOver (ablk m c (pt (j 0) i)) (ix2 (j 1) (j 2)) :=
  (dats (F := Ideal) m 0 c).arrAt_eq_of_cover 3 (countsArr m c) (fun t hf => flushed_counts m c t hf) counts_covered

end Cert.KernelIdeal.KAcc

end
-- ==== Proof.SumIndex.lean ====
/-
  Sums over a product of extents, re-indexed: a sum over `a · b` positions is the double sum over `a` groups of
  `b` positions, position `b · t + r` being position `r` of group `t`.  Used three ways: the 2,000,000 rows as 100
  blocks of 20,000; the 100 blocks as 2 halves of 50; the 16,000,000 flattened entries as 2,000,000 rows of 8.
-/
import Mathlib.Algebra.BigOperators.Fin
import Mathlib.Data.EReal.Basic

noncomputable section

namespace Cert.Hist

/-- Position `r` of group `t`, of `a` groups of `b` positions. -/
def posOf {a b : Nat} (t : Fin a) (r : Fin b) : Fin (a * b) :=
  ⟨b * t.val + r.val, by
    have h1 := t.isLt; have h2 := r.isLt
    calc b * t.val + r.val < b * t.val + b := by omega
      _ = b * (t.val + 1) := by ring
      _ ≤ b * a := Nat.mul_le_mul_left b h1
      _ = a * b := Nat.mul_comm b a⟩

@[simp] theorem posOf_val {a b : Nat} (t : Fin a) (r : Fin b) : (posOf t r).val = b * t.val + r.val := rfl

/-- A sum over `a · b` positions is the double sum over the groups and the positions within a group. -/
theorem sum_posOf {M : Type} [AddCommMonoid M] {a b : Nat} (g : Fin (a * b) → M) :
    ∑ j : Fin (a * b), g j = ∑ t : Fin a, ∑ r : Fin b, g (posOf t r) := by
  -- every position is `r + b · t` for exactly one pair `(t, r)`: re-index along that bijection, then split the pair
  rw [← finProdFinEquiv.sum_comp g, Fintype.sum_prod_type]
  refine Finset.sum_congr rfl fun t _ => Finset.sum_congr rfl fun r _ => congrArg g (Fin.ext ?_)
  show r.val + b * t.val = b * t.val + r.val
  exact Nat.add_comm _ _

/-- The 2,000,000 rows as 100 blocks of 20,000: row `20000 · t + r` is row `r` of block `t`. -/
theorem sum_rows_blocks (g : Fin 2000000 → EReal) :
    ∑ b : Fin 2000000, g b
      = ∑ t : Fin 100, ∑ r : Fin 20000, g ⟨20000 * t.val + r.val, by have := t.isLt; have := r.isLt; omega⟩ := by
  -- 2,000,000 = 100 · 20,000
  have h := sum_posOf (M := EReal) (a := 100) (b := 20000) g
  exact h

/-- The 100 blocks as 2 halves of 50: block `50 · h + i` is block `i` of half `h`. -/
theorem sum_blocks_halves (g : Fin 100 → EReal) :
    ∑ t : Fin 100, g t
      = ∑ h : Fin 2, ∑ i : Fin 50, g ⟨50 * h.val + i.val, by have := h.isLt; have := i.isLt; omega⟩ := by
  -- 100 = 2 · 50
  have h := sum_posOf (M := EReal) (a := 2) (b := 50) g
  exact h

/-- The 16,000,000 flattened entries as 2,000,000 rows of 8: entry `8 · b + a` is column `a` of row `b`. -/
theorem sum_flat_rows (g : Fin 16000000 → EReal) :
    ∑ j : Fin 16000000, g j
      = ∑ b : Fin 2000000, ∑ a : Fin 8, g ⟨8 * b.val + a.val, by have := b.isLt; have := a.isLt; omega⟩ := by
  -- 16,000,000 = 2,000,000 · 8
  have h := sum_posOf (M := EReal) (a := 2000000) (b := 8) g
  exact h

end Cert.Hist

end
-- ==== Proof.KValue.lean ====
/-
  The idealized kernel's run, read as a value: its result is `Cert.Hist.result` of its two argument tables.

  After the region the host adds the two halves of each result array, forms the group means and presence flags and
  the mean squared difference over present pairs.  A point's block of rows is rows `20000 · t` onward of the argument
  table, so the halves' sums over their points' blocks add up to the sums over all 2,000,000 rows.
-/
import proofs.«406109_j36258113913169_2_alg».proof.Proof.KAcc
import proofs.«406109_j36258113913169_2_alg».proof.Proof.SumIndex
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Hist

section Aux

open Cert.KernelIdeal.KAcc Idealize.ShloMosaic.StableHlo

/-! ## The host's lines after the region

Six stretches of operations, cut where a function is called.  Each stretch is read over ANY contents `U` of the
buffers, at the few values a later stretch uses; the six readings then compose by rewriting. -/

/-- The half-sums: the host's sum over the first axis of a 2 by 8 by 16 array, from zero. -/
abbrev halves (A : FVec Ideal S2x8x16 .f32) : FVec Ideal S8x16 .f32 :=
  Host.reduceAdd A (constant (F := Ideal) S_ .f32 0x00000000#32) reducesTo_S2x8x16_S8x16_d0 h_S_

/-- A 16 by 16 square of flags cleared where row ≥ column. -/
def triOf (T : IVec SQ 1) : IVec SQ 1 :=
  select (cmpi .sge (addi (iotaInDim SQ 32 0) (broadcastInDim SQ ![] bc_0_Q (constantI S0 32 0#32))) (iotaInDim SQ 32 1))
    (broadcastInDim SQ ![] bc_0_Q (constantI S0 1 0#1)) T

/-- The pairs that count, from the presence flags and a triangle of the square. -/
def maskOf (Pm : IVec SG 1) (T : IVec SQ 1) : IVec SP 1 :=
  andi (andi (broadcastInDim SP ![0, 1, 2] bc_Gc_P (broadcastInDim SGc ![0, 1] bc_G_Gc Pm))
      (broadcastInDim SP ![0, 1, 2] bc_Gr_P (broadcastInDim SGr ![0, 2] bc_G_Gr Pm)))
    (broadcastInDim SP ![0, 1, 2] bc_Q1_P (broadcastInDim SQ1 ![1, 2] bc_Q_Q1 T))

/-- The number of set flags of a mask, as a 32-bit word. -/
def countOf (Mk : IVec SP 1) : IVec S0 32 :=
  Host.reduce IntOp.addi (extui 32 Mk lt_1_32) (constantI S0 32 0#32) red_P_0 pos_0

/-- The squares of an array of differences. -/
def sqOf (D : FVec Ideal SP .f32) : FVec Ideal SP .f32 := mulf D D

theorem triOf_ones : triOf (broadcastInDim SQ ![] bc_0_Q (constantI S0 1 1#1)) = upper := rfl
theorem maskOf_upper (Pm : IVec SG 1) : maskOf Pm upper = pairMask Pm := rfl
theorem countOf_mask (Pm : IVec SG 1) : countOf (pairMask Pm) = pairCount Pm := rfl

/-- The first stretch: the presence flags are those of the second result array's half-sums. -/
theorem s1_v7 (U : Valuation τ sig (Elt Ideal)) :
    (StableHlo.after (hostOps1 (F := Ideal)) U (Proc.devRef .tc main_v7) : IVec S8x16 1)
      = groupPresent (halves (U (Proc.devRef .tc main_v0_1))) := by
  simp only [hostOps1]
  after_results_simp <;> rfl

/-- The first stretch: the differences of the group means, the means being the first array's half-sums over the second's. -/
theorem s1_v12 (U : Valuation τ sig (Elt Ideal)) :
    (StableHlo.after (hostOps1 (F := Ideal)) U (Proc.devRef .tc main_v12) : FVec Ideal S8x16x16 .f32)
      = pairDiff (groupMean (halves (U (Proc.devRef .tc main_v0_0))) (halves (U (Proc.devRef .tc main_v0_1)))) := by
  simp only [hostOps1]
  after_results_simp <;> rfl

/-- The first stretch: the all-set 16 by 16 square handed to the triangle function. -/
theorem s1_v13 (U : Valuation τ sig (Elt Ideal)) :
    (StableHlo.after (hostOps1 (F := Ideal)) U (Proc.devRef .tc main_v13) : IVec S16x16 1)
      = broadcastInDim SQ ![] bc_0_Q (constantI S0 1 1#1) := by
  simp only [hostOps1]
  after_results_simp <;> rfl

/-- The triangle function: the square it is given, cleared where row ≥ column. -/
theorem s2_v14 (U : Valuation τ sig (Elt Ideal)) :
    (StableHlo.after (hostOps1_1 (F := Ideal)) U (Proc.devRef .tc main_v14) : IVec S16x16 1)
      = triOf (U (Proc.devRef .tc main_v13)) := by
  simp only [hostOps1_1]
  after_results_simp <;> rfl

/-- The triangle function writes only its own values: the presence flags stay. -/
theorem s2_v7 (U : Valuation τ sig (Elt Ideal)) :
    (StableHlo.after (hostOps1_1 (F := Ideal)) U (Proc.devRef .tc main_v7) : IVec S8x16 1) = U (Proc.devRef .tc main_v7) := by
  simp only [hostOps1_1]
  after_results_simp

/-- Nor does it touch the differences. -/
theorem s2_v12 (U : Valuation τ sig (Elt Ideal)) :
    (StableHlo.after (hostOps1_1 (F := Ideal)) U (Proc.devRef .tc main_v12) : FVec Ideal S8x16x16 .f32) = U (Proc.devRef .tc main_v12) := by
  simp only [hostOps1_1]
  after_results_simp

/-- The third stretch: the three masks joined. -/
theorem s3_v22 (U : Valuation τ sig (Elt Ideal)) :
    (StableHlo.after (hostOps1_2 (F := Ideal)) U (Proc.devRef .tc main_v22) : IVec S8x16x16 1)
      = maskOf (U (Proc.devRef .tc main_v7)) (U (Proc.devRef .tc main_v14)) := by
  simp only [hostOps1_2]
  after_results_simp <;> rfl

/-- The third stretch: the squared differences. -/
theorem s3_v23 (U : Valuation τ sig (Elt Ideal)) :
    (StableHlo.after (hostOps1_2 (F := Ideal)) U (Proc.devRef .tc main_v23) : FVec Ideal S8x16x16 .f32)
      = sqOf (U (Proc.devRef .tc main_v12)) := by
  simp only [hostOps1_2]
  after_results_simp <;> rfl

/-- The third stretch: the zero the selection falls back to. -/
theorem s3_cst3 (U : Valuation τ sig (Elt Ideal)) :
    (StableHlo.after (hostOps1_2 (F := Ideal)) U (Proc.devRef .tc main_cst_3) : FVec Ideal S_ .f32)
      = constant (F := Ideal) S0 .f32 0x00000000#32 := by
  simp only [hostOps1_2]
  after_results_simp <;> rfl

/-- The first selection: the squares where the mask is set, zero elsewhere. -/
theorem s4_v24 (U : Valuation τ sig (Elt Ideal)) :
    (StableHlo.after (hostOps1_3 (F := Ideal)) U (Proc.devRef .tc main_v24) : FVec Ideal S8x16x16 .f32)
      = select (U (Proc.devRef .tc main_v22)) (U (Proc.devRef .tc main_v23)) (broadcastInDim SP ![] bc_0_P (U (Proc.devRef .tc main_cst_3))) := by
  simp only [hostOps1_3]
  after_results_simp <;> rfl

/-- The selection leaves the mask as it was. -/
theorem s4_v22 (U : Valuation τ sig (Elt Ideal)) :
    (StableHlo.after (hostOps1_3 (F := Ideal)) U (Proc.devRef .tc main_v22) : IVec S8x16x16 1) = U (Proc.devRef .tc main_v22) := by
  simp only [hostOps1_3]
  after_results_simp

/-- The fifth stretch: whether any pair counts. -/
theorem s5_v28 (U : Valuation τ sig (Elt Ideal)) :
    (StableHlo.after (hostOps1_4 (F := Ideal)) U (Proc.devRef .tc main_v28) : IVec S_ 1)
      = cmpi .sgt (countOf (U (Proc.devRef .tc main_v22))) (constantI S0 32 0#32) := by
  simp only [hostOps1_4]
  after_results_simp <;> rfl

/-- The fifth stretch: the sum of the masked squares over the number of pairs. -/
theorem s5_v30 (U : Valuation τ sig (Elt Ideal)) :
    (StableHlo.after (hostOps1_4 (F := Ideal)) U (Proc.devRef .tc main_v30) : FVec Ideal S_ .f32)
      = Host.divf (Host.reduceAdd (U (Proc.devRef .tc main_v24)) (constant (F := Ideal) S0 .f32 0x00000000#32) red_P_0 pos_0) (sitofp .f32 (countOf (U (Proc.devRef .tc main_v22)))) := by
  simp only [hostOps1_4]
  after_results_simp <;> rfl

/-- The fifth stretch: the zero the last selection falls back to. -/
theorem s5_cst7 (U : Valuation τ sig (Elt Ideal)) :
    (StableHlo.after (hostOps1_4 (F := Ideal)) U (Proc.devRef .tc main_cst_7) : FVec Ideal S_ .f32)
      = constant (F := Ideal) S0 .f32 0x00000000#32 := by
  simp only [hostOps1_4]
  after_results_simp <;> rfl

/-- The last selection: the quotient when some pair counts, zero otherwise. -/
theorem s6_v31 (U : Valuation τ sig (Elt Ideal)) :
    (StableHlo.after (hostOps1_5 (F := Ideal)) U (Proc.devRef .tc main_v31) : FVec Ideal S_ .f32)
      = select (U (Proc.devRef .tc main_v28)) (U (Proc.devRef .tc main_v30)) (U (Proc.devRef .tc main_cst_7)) := by
  simp only [hostOps1_5]
  after_results_simp <;> rfl

/-- Six stretches in a row are six folds, one inside the other. -/
theorem after_six (l1 l2 l3 l4 l5 l6 : List (HloOp τ sig (Elt Ideal))) (W : Valuation τ sig (Elt Ideal)) :
    StableHlo.after (List.flatten [l1, l2, l3, l4, l5, l6]) W
      = StableHlo.after l6 (StableHlo.after l5 (StableHlo.after l4 (StableHlo.after l3 (StableHlo.after l2 (StableHlo.after l1 W))))) := by
  simp only [List.flatten_cons, List.flatten_nil, List.append_nil, StableHlo.after_append]

/-- The host's lines after the region, from any contents `W`: the result is the mean squared difference over present
    pairs of the group means formed from the two result arrays' half-sums. -/
theorem tail_at (W : Valuation τ sig (Elt Ideal)) :
    (StableHlo.after (List.flatten [(hostOps1 (F := Ideal)), (hostOps1_1 (F := Ideal)), (hostOps1_2 (F := Ideal)), (hostOps1_3 (F := Ideal)), (hostOps1_4 (F := Ideal)), (hostOps1_5 (F := Ideal))]) W (Proc.devRef .tc main_v31) : FVec Ideal S_ .f32)
      = pairLoss (groupMean (halves (W (Proc.devRef .tc main_v0_0))) (halves (W (Proc.devRef .tc main_v0_1))))
          (groupPresent (halves (W (Proc.devRef .tc main_v0_1)))) := by
  rw [after_six, s6_v31, s5_v28, s5_v30, s5_cst7, s4_v24, s4_v22, s3_v22, s3_v23, s3_cst3, s2_v14, s2_v7, s2_v12, s1_v7, s1_v12, s1_v13,
    triOf_ones, maskOf_upper, countOf_mask]
  rfl

/-- The same with the two half-sums named: what is left to show of the result is what the half-sums are. -/
theorem tail_of (W : Valuation τ sig (Elt Ideal)) (S C : FVec Ideal SG .f32)
    (hS : halves (W (Proc.devRef .tc main_v0_0)) = S) (hC : halves (W (Proc.devRef .tc main_v0_1)) = C) :
    (StableHlo.after (List.flatten [(hostOps1 (F := Ideal)), (hostOps1_1 (F := Ideal)), (hostOps1_2 (F := Ideal)), (hostOps1_3 (F := Ideal)), (hostOps1_4 (F := Ideal)), (hostOps1_5 (F := Ideal))]) W (Proc.devRef .tc main_v31) : FVec Ideal S_ .f32)
      = pairLoss (groupMean S C) (groupPresent C) := by
  subst hS hC
  exact tail_at W

section Blocks

variable (m : (ℓ : Loc nD τ sig) → Buf (Elt Ideal) ℓ)

/-! ## A block's rows are rows of the argument tables -/

/-- The two argument tables of core `c`, at their literal types. -/
abbrev xarr (c : Dev nD) : SRows.Idx → EReal := m ((c.tc : Thread nD τ).loc main_arg0)
abbrev aarr (c : Dev nD) : SRows.Idx → BitVec 32 := m ((c.tc : Thread nD τ).loc main_arg1)

/-- The two input windows' index maps over the grid: at point `t`, block `t` of the rows and block 0 of the columns. -/
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel

/-- Row `r` of block `t` is a row of the table: 100 blocks of 20,000 rows. -/
theorem lt_rows (t : Fin cfg0.N) (r : Fin 20000) : 20000 * t.val + r.val < 2000000 := by
  have h1 : t.val < 100 := Nat.lt_of_lt_of_eq t.isLt (show cfg0.N = 100 from N_0)
  have h2 := r.isLt
  omega

/-- Row `r` of block `t`, as a row of the whole table. -/
def rowOf (t : Fin cfg0.N) (r : Fin 20000) : Fin 2000000 := ⟨20000 * t.val + r.val, lt_rows t r⟩

/-- Entry `(r, d)` of the first window's block at point `t` is entry `(20000 t + r, d)` of the first table: a block's
    coordinate is the block index times the block's extent plus the coordinate inside. -/
theorem xblk_read (c : Dev nD) (t : Fin cfg0.N) (r : Fin 20000) (d : Fin 8) :
    xblk m c t (ix2 r d) = xarr m c (ix2 (rowOf t r) d) := by
  unfold xblk iblk
  rw [View.read_apply]
  show m ((c.tc : Thread nD τ).loc main_arg0) _ = _
  refine congrArg (m ((c.tc : Thread nD τ).loc main_arg0)) (funext fun a => Fin.ext ?_)
  match a with
  | ⟨0, _⟩ =>
    show win0_0.index t 0 * 20000 + 1 * r.val = 20000 * t.val + r.val
    rw [(idx0 t).1]; omega
  | ⟨1, _⟩ =>
    show win0_0.index t 1 * 8 + 1 * d.val = d.val
    rw [(idx0 t).2]; omega

/-- The same for the second window and the table of words. -/
theorem ablk_read (c : Dev nD) (t : Fin cfg0.N) (r : Fin 20000) (d : Fin 8) :
    ablk m c t (ix2 r d) = aarr m c (ix2 (rowOf t r) d) := by
  unfold ablk iblk
  rw [View.read_apply]
  show m ((c.tc : Thread nD τ).loc main_arg1) _ = _
  refine congrArg (m ((c.tc : Thread nD τ).loc main_arg1)) (funext fun a => Fin.ext ?_)
  match a with
  | ⟨0, _⟩ =>
    show win0_1.index t 0 * 20000 + 1 * r.val = 20000 * t.val + r.val
    rw [(idx1 t).1]; omega
  | ⟨1, _⟩ =>
    show win0_1.index t 1 * 8 + 1 * d.val = d.val
    rw [(idx1 t).2]; omega

/-- So a row's value within its block is its value within the table. -/
theorem mean_blk (c : Dev nD) (t : Fin cfg0.N) (r : Fin 20000) :
    meanOf (xblk m c t) r = meanOf (xarr m c) (rowOf t r) := by
  unfold meanOf
  refine congrArg (fun s => Ideal.div s (Ideal.ofBits .f32 0x41000000#32)) (Finset.sum_congr rfl fun d _ => ?_)
  exact congrArg Ideal.logistic (xblk_read m c t r d)

/-! ## The halves' sums over their points' blocks are the sums over all rows -/

/-- Row `b`'s share of the group total at attribute `a`, value `v`; and its share of the group count. -/
def gS (c : Dev nD) (a : Fin 8) (v : Fin 16) (b : Fin 2000000) : EReal :=
  if aarr m c (ix2 b a) = BitVec.ofNat 32 v.val then meanOf (xarr m c) b else 0
def gC (c : Dev nD) (a : Fin 8) (v : Fin 16) (b : Fin 2000000) : EReal :=
  if aarr m c (ix2 b a) = BitVec.ofNat 32 v.val then (1 : EReal) else 0

/-- A block's group total is the sum of its rows' shares. -/
theorem sumOver_blk (c : Dev nD) (t : Fin cfg0.N) (a : Fin 8) (v : Fin 16) :
    sumOver (xblk m c t) (ablk m c t) (ix2 a v) = ∑ r : Fin 20000, gS m c a v (rowOf t r) := by
  unfold sumOver
  refine Finset.sum_congr rfl fun r _ => ?_
  show (if ablk m c t (ix2 r a) = BitVec.ofNat 32 v.val then meanOf (xblk m c t) r else 0) = _
  rw [ablk_read m c t r a, mean_blk m c t r]
  rfl

/-- A block's group count is the sum of its rows' shares. -/
theorem countOver_blk (c : Dev nD) (t : Fin cfg0.N) (a : Fin 8) (v : Fin 16) :
    countOver (ablk m c t) (ix2 a v) = ∑ r : Fin 20000, gC m c a v (rowOf t r) := by
  unfold countOver
  refine Finset.sum_congr rfl fun r _ => ?_
  show (if ablk m c t (ix2 r a) = BitVec.ofNat 32 v.val then (1 : EReal) else 0) = _
  rw [ablk_read m c t r a]
  rfl

theorem red_halves : S2x8x16.Reduces [0] S8x16 := by decide

/-- The host's sum over the first axis, from zero, at `(a, v)`: the two halves' entries added. -/
theorem halves_apply (A : FVec Ideal S2x8x16 .f32) (a : Fin 8) (v : Fin 16) :
    halves A (ix2 a v) = ∑ h : Fin 2, A (ix3 h a v) := by
  show Ideal.hostReduceAdd reducesTo_S2x8x16_S8x16_d0 A (Ideal.ofBits .f32 0x00000000#32) (ix2 a v) = _
  rw [Ideal.hostReduceAdd_single reducesTo_S2x8x16_S8x16_d0 red_halves, Ideal.ofBits_zero_f32, zero_add]
  show (∑ h : Fin 2, A (red_halves.lift (ix2 a v) h)) = _
  refine Finset.sum_congr rfl fun h _ => congrArg A (funext fun b => Fin.ext ?_)
  match b with
  | ⟨0, _⟩ => rfl
  | ⟨1, _⟩ => rfl
  | ⟨2, _⟩ => rfl

/-- The two result arrays when the region ends, at their literal type. -/
abbrev sarr (c : Dev nD) : FVec Ideal S2x8x16 .f32 := (dats (F := Ideal) m 0 c).arrAt 2 cfg0.N
abbrev carr (c : Dev nD) : FVec Ideal S2x8x16 .f32 := (dats (F := Ideal) m 0 c).arrAt 3 cfg0.N

/-- At `(h, a, v)` they hold half `h`'s points' blocks' group totals, and group counts. -/
theorem sums_apply (c : Dev nD) (h : Fin 2) (a : Fin 8) (v : Fin 16) :
    sarr m c (ix3 h a v) = ∑ i : Fin 50, sumOver (xblk m c (pt h i)) (ablk m c (pt h i)) (ix2 a v) :=
  congrFun (arr_sums m c) (ix3 h a v)
theorem counts_apply (c : Dev nD) (h : Fin 2) (a : Fin 8) (v : Fin 16) :
    carr m c (ix3 h a v) = ∑ i : Fin 50, countOver (ablk m c (pt h i)) (ix2 a v) :=
  congrFun (arr_counts m c) (ix3 h a v)

/-- The first result array's half-sums are the group totals of the whole tables: 2 halves of 50 points of 20,000 rows
    are the 2,000,000 rows, row `r` of point `i` of half `h` being row `20000 (50 h + i) + r`. -/
theorem halves_sums (c : Dev nD) :
    halves (sarr m c) = sumOver (xarr m c) (aarr m c) := by
  funext j
  obtain ⟨a, v, rfl⟩ : ∃ a v, j = ix2 a v := ⟨j 0, j 1, eq_ix2 j⟩
  rw [halves_apply]
  show _ = ∑ b : Fin 2000000, gS m c a v b
  refine Eq.trans ?_ ((sum_rows_blocks (gS m c a v)).trans (sum_blocks_halves _)).symm
  exact Finset.sum_congr rfl fun h _ => (sums_apply m c h a v).trans
    (Finset.sum_congr rfl fun i _ => (sumOver_blk m c (pt h i) a v).trans (Finset.sum_congr rfl fun r _ => rfl))

/-- The second's are the group counts. -/
theorem halves_counts (c : Dev nD) :
    halves (carr m c) = countOver (aarr m c) := by
  funext j
  obtain ⟨a, v, rfl⟩ : ∃ a v, j = ix2 a v := ⟨j 0, j 1, eq_ix2 j⟩
  rw [halves_apply]
  show _ = ∑ b : Fin 2000000, gC m c a v b
  refine Eq.trans ?_ ((sum_rows_blocks (gC m c a v)).trans (sum_blocks_halves _)).symm
  exact Finset.sum_congr rfl fun h _ => (counts_apply m c h a v).trans
    (Finset.sum_congr rfl fun i _ => (countOver_blk m c (pt h i) a v).trans (Finset.sum_congr rfl fun r _ => rfl))

/-! ## The result -/

/-- What the lines after the region leave in the result's buffer: they run from the region's arrays, the two result
    arrays among them, and every other buffer as the region found it. -/
theorem result_eq (c : Dev nD) :
    (Pipeline.afterTail₀ cfgs (dats (F := Ideal) m) 0 (V0 m) [hostOps1, hostOps1_1, hostOps1_2, hostOps1_3, hostOps1_4, hostOps1_5] c main_v31
        : FVec Ideal S_ .f32)
      = Cert.Hist.result (xarr m c) (aarr m c) := by
  unfold Pipeline.afterTail₀
  have e2 : (Pipeline.withArrays (cfgs 0).spec c (V0 m c) (fun w => (dats (F := Ideal) m 0 c).arrAt w (cfgs 0).N)
      (Proc.devRef .tc main_v0_0) : FVec Ideal S2x8x16 .f32) = sarr m c :=
    Pipeline.withArrays_arr spec0 launch0.win.arr_inj c _ _ 2
  have e3 : (Pipeline.withArrays (cfgs 0).spec c (V0 m c) (fun w => (dats (F := Ideal) m 0 c).arrAt w (cfgs 0).N)
      (Proc.devRef .tc main_v0_1) : FVec Ideal S2x8x16 .f32) = carr m c :=
    Pipeline.withArrays_arr spec0 launch0.win.arr_inj c _ _ 3
  exact tail_of _ _ _ ((congrArg halves e2).trans (halves_sums m c)) ((congrArg halves e3).trans (halves_counts m c))

end Blocks

end Aux

/-- Every weakly fair execution of the idealized kernel's @main terminates with its result at `Cert.Hist.result` of
    the argument tables, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
          = Cert.Hist.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  -- the frame run's post, read at the result's buffer (no array of the pipeline: the lines after the region leave it)
  -- and at the two argument arrays (staged inputs: as the region found them)
  (θ_run (defs (F := Ideal)) _ _).mono (fun r h c =>
    ⟨((h c).2 main_v31 (Pipeline.mem_restRefs_of main_v31 rfl (by decide))).trans (result_eq m c),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c)))⟩)
    (run_main (F := Ideal) m ρ)

end Cert.KernelIdeal.KValue

end
-- ==== Proof.LibScatterFlat.lean ====
/-
  A float scatter-add of a flat list of updates into a flat array, one index per update, read at an element.

  The operand has `n` elements, there are `k` updates, and update `j` carries the one-component start index
  `idx (j, 0)`, read signed.  Element `i` of the result is the operand's element plus the sum of the updates whose
  index is `i`; an update whose index is negative or at least `n` lands nowhere.
-/
import Idealize.ShloMosaic.PureOps.Ideal
import Idealize.ShloMosaic.Lib.ValueIdx

noncomputable section

namespace Cert.Hist

open Idealize.ShloMosaic Idealize.ShloMosaic.ValueIdx

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- An update lands at `t` exactly when, on every operand axis, its start plus its window coordinate is `t`'s
    coordinate there: the range test of the result index says no more than that, `t`'s coordinates being in range. -/
theorem resultIdx?_eq_some_iff {s si u : Shape} (d : ScatterDims s si u) {w : Nat} (j : u.Idx) (idx : IVec si w)
    (t : s.Idx) :
    d.resultIdx? j idx = some t ↔ ∀ a, d.start j idx a + (d.window j a : Int) = ((t a).val : Int) := by
  unfold ScatterDims.resultIdx?
  constructor
  · intro h a
    by_cases hc : ∀ a, 0 ≤ d.start j idx a + d.window j a ∧ d.start j idx a + d.window j a < s.size a
    · rw [dif_pos hc] at h
      have h2 := congrArg Fin.val (congrFun (Option.some.inj h) a)
      simp only at h2
      have := hc a
      omega
    · rw [dif_neg hc] at h
      exact absurd h (by simp)
  · intro h
    have hc : ∀ a, 0 ≤ d.start j idx a + d.window j a ∧ d.start j idx a + d.window j a < s.size a := by
      intro a
      have := h a
      have := (t a).isLt
      omega
    rw [dif_pos hc]
    congr 1
    funext a
    apply Fin.ext
    show (d.start j idx a + d.window j a).toNat = (t a).val
    have := h a
    omega

section Flat
variable {n k w : Nat}
  (wf : ScatterDims.WF (⟨1, ![n]⟩ : Shape) (⟨2, ![k, 1]⟩ : Shape) (⟨1, ![k]⟩ : Shape) [] [0] [0] 1)

/-- The flat scatter's dimension numbers: no window axes, the operand's axis inserted and named by component 0 of the
    index vector, which lies on axis 1 of the indices. -/
abbrev flatDims : ScatterDims (⟨1, ![n]⟩ : Shape) (⟨2, ![k, 1]⟩ : Shape) (⟨1, ![k]⟩ : Shape) :=
  ⟨[], [0], [0], 1, wf⟩

/-- The operand's one axis is inserted, so no update has a window coordinate on it. -/
theorem flat_window (j : (⟨1, ![k]⟩ : Shape).Idx) (a : Fin 1) : (flatDims wf).window j a = 0 := by
  unfold ScatterDims.window
  rw [dif_neg]
  intro h
  simp only [ScatterDims.sKept, Shape.kept, List.mem_filter] at h
  exact absurd (List.mem_singleton.mpr (Subsingleton.elim a 0)) (by simpa using h.2)

/-- Update `j` reads its start index at `(j, 0)` of the indices: its own coordinate on the indices' axis 0 and the
    one component on the index vector's axis. -/
theorem flat_siIdx (j : (⟨1, ![k]⟩ : Shape).Idx) (c : Fin (flatDims wf).scatterDimsToOperandDims.length) :
    (flatDims wf).siIdx j c = ix2 (j 0) (0 : Fin 1) := by
  funext b
  apply Fin.ext
  match b with
  | ⟨0, _⟩ =>
    unfold ScatterDims.siIdx
    rw [dif_neg Nat.zero_ne_one]
    unfold ScatterDims.siCoord
    show (j _).val = (j 0).val
    exact congrArg (fun q => (j q).val) (Subsingleton.elim _ _)
  | ⟨1, _⟩ =>
    unfold ScatterDims.siIdx
    rw [dif_pos rfl]
    show c.val = 0
    have := c.isLt
    simp only [List.length_singleton] at this
    omega

/-- The start of update `j` on the operand's axis is the index `(j, 0)`, read signed. -/
theorem flat_start (j : (⟨1, ![k]⟩ : Shape).Idx) (idx : IVec (⟨2, ![k, 1]⟩ : Shape) w) (a : Fin 1) :
    (flatDims wf).start j idx a = (idx (ix2 (j 0) (0 : Fin 1))).toInt := by
  unfold ScatterDims.start
  rw [dif_pos (List.mem_singleton.mpr (Subsingleton.elim a 0)), flat_siIdx]
  rfl

/-- Update `j` lands at element `i` exactly when its index, read signed, is `i`. -/
theorem flat_resultIdx? (j : Fin k) (idx : IVec (⟨2, ![k, 1]⟩ : Shape) w) (i : Fin n) :
    (flatDims wf).resultIdx? (ix1 j) idx = some (ix1 i) ↔ (idx (ix2 j (0 : Fin 1))).toInt = (i.val : Int) := by
  rw [resultIdx?_eq_some_iff]
  constructor
  · intro h
    have := h 0
    rw [flat_start, flat_window, Nat.cast_zero, add_zero] at this
    exact this
  · intro h a
    rw [flat_start, flat_window, Nat.cast_zero, add_zero]
    obtain rfl : a = 0 := Subsingleton.elim _ _
    exact h

end Flat

/-- The exact accumulating scatter of `k` scalar updates into `n` elements (no window axes, the operand's one axis
    inserted and named by the one-component index vector on axis 1 of the indices), at element `i`. -/
theorem hostScatterAdd_flat {n k w : Nat} (d : ScatterDims (⟨1, ![n]⟩ : Shape) (⟨2, ![k, 1]⟩ : Shape) (⟨1, ![k]⟩ : Shape))
    (h1 : d.updateWindowDims = []) (h2 : d.insertedWindowDims = [0]) (h3 : d.scatterDimsToOperandDims = [0])
    (h4 : d.indexVectorDim = 1)
    (x : (⟨1, ![n]⟩ : Shape).Idx → EReal) (idx : IVec (⟨2, ![k, 1]⟩ : Shape) w) (upd : (⟨1, ![k]⟩ : Shape).Idx → EReal)
    (i : Fin n) :
    Ideal.hostScatterAdd d x idx upd (ix1 i)
      = x (ix1 i) + ∑ j : Fin k, if (idx (ix2 j (0 : Fin 1))).toInt = (i.val : Int) then upd (ix1 j) else 0 := by
  obtain ⟨uw, iw, sd, iv, wf⟩ := d
  simp only at h1 h2 h3 h4
  subst h1 h2 h3 h4
  unfold Ideal.hostScatterAdd
  congr 1
  rw [Finset.sum_filter, sum_idx1]
  refine Finset.sum_congr rfl fun j _ => ?_
  exact if_congr (flat_resultIdx? wf j idx i) rfl rfl

end Cert.Hist

end
-- ==== Proof.RValue.lean ====
/-
  The idealized reference's result term is `Cert.Hist.result` of its two argument tables, when every word of the
  second table lies in `[0, 16)`.

  The reference flattens the tables row-major into 16,000,000 entries, entry `8 · b + a` carrying the row value of
  row `b` and the segment number `attr (b, a) + 16 · a`, and scatter-adds the values (and ones) into 128 segments.  With
  the words in `[0, 16)` the entries that land on segment `16 · a + v` are exactly the `(b, a)` with `attr (b, a) = v`,
  so segment `16 · a + v` holds group `(a, v)`'s total (count); the quotient and the comparison commute with the
  reshape of the 128 segments to 8 by 16, and from there on the reference is `pairLoss`.
-/
import proofs.«406109_j36258113913169_2_alg».proof.Proof.RefRead
import proofs.«406109_j36258113913169_2_alg».proof.Proof.Spec
import proofs.«406109_j36258113913169_2_alg».proof.Proof.SumIndex
import proofs.«406109_j36258113913169_2_alg».proof.Proof.LibScatterFlat
import Idealize.ShloMosaic.Lib.IdealHost

noncomputable section

open Idealize.ShloMosaic Idealize.ShloMosaic.TcCoe Idealize.SL.Sem Idealize.ShloMosaic.ValueIdx

namespace Cert.ReferenceIdeal.RValue

open Cert.ReferenceIdeal Cert.ReferenceIdeal.Gen Cert.ReferenceIdeal.Read Cert.Hist

/-! ## The segment number of a flattened entry -/

/-- A word that reads signed in `[0, 16)` reads unsigned below 16. -/
theorem word_lt (w : BitVec 32) (hw : 0 ≤ w.toInt ∧ w.toInt < 16) : w.toNat < 16 := by
  have h := BitVec.toInt_eq_toNat_cond w
  obtain ⟨h0, h1⟩ := hw
  have hlt := w.isLt
  split at h <;> omega

/-- The segment number `w + a' · 16` of a small word does not wrap around. -/
theorem seg_toNat (w : BitVec 32) (hn : w.toNat < 16) (a' : Fin 8) :
    (IntOp.addi w (IntOp.muli (BitVec.ofNat 32 a'.val) 16#32)).toNat = w.toNat + 16 * a'.val := by
  have ha' := a'.isLt
  show (w + BitVec.ofNat 32 a'.val * 16#32).toNat = _
  rw [BitVec.toNat_add, BitVec.toNat_mul, BitVec.toNat_ofNat]
  show (w.toNat + (a'.val % 2 ^ 32 * 16) % 2 ^ 32) % 2 ^ 32 = _
  omega

/-- Read signed, the segment number of column `a'` is `16 · a + v` exactly when the column is `a` and the word is `v`. -/
theorem seg_word_iff (w : BitVec 32) (hw : 0 ≤ w.toInt ∧ w.toInt < 16) (a' a : Fin 8) (v : Fin 16) :
    (IntOp.addi w (IntOp.muli (BitVec.ofNat 32 a'.val) 16#32)).toInt = ((16 * a.val + v.val : Nat) : Int)
      ↔ a' = a ∧ w = BitVec.ofNat 32 v.val := by
  have ha' := a'.isLt; have ha := a.isLt; have hv := v.isLt
  have hn := word_lt w hw
  have hint : (IntOp.addi w (IntOp.muli (BitVec.ofNat 32 a'.val) 16#32)).toInt = ((w.toNat + 16 * a'.val : Nat) : Int) := by
    rw [BitVec.toInt_eq_toNat_cond, seg_toNat w hn a', if_pos (by omega)]
  rw [hint]
  constructor
  · intro h
    have h' : w.toNat + 16 * a'.val = 16 * a.val + v.val := by exact_mod_cast h
    refine ⟨Fin.ext (by omega), BitVec.eq_of_toNat_eq ?_⟩
    rw [BitVec.toNat_ofNat]; omega
  · rintro ⟨rfl, h2⟩
    have h3 : w.toNat = v.val := by rw [h2, BitVec.toNat_ofNat]; omega
    rw [h3]; congr 1; omega

/-- The quotient `1 / (1 + e⁻ˣ)` with its two ones spelt as words is the logistic function. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

/-! ## The flat scatter-add, read at a segment -/

/-- The flat scatter-add of per-entry values into 128 segments, read at segment `16 · a + v`: when entry `8 · b + a'`
    carries the segment number `attr (b, a') + 16 · a'` and the value `val b`, and the operand is zero, the segment
    holds the sum of `val b` over the rows `b` whose word in column `a` is `v`.  Of the eight entries of row `b` only
    the one in column `a` can carry that segment number, and it does exactly when its word is `v`. -/
theorem scatter_groups
    (d : ScatterDims (⟨1, ![128]⟩ : Shape) (⟨2, ![16000000, 1]⟩ : Shape) (⟨1, ![16000000]⟩ : Shape))
    (h1 : d.updateWindowDims = []) (h2 : d.insertedWindowDims = [0]) (h3 : d.scatterDimsToOperandDims = [0])
    (h4 : d.indexVectorDim = 1)
    (z : (⟨1, ![128]⟩ : Shape).Idx → EReal) (seg : IVec (⟨2, ![16000000, 1]⟩ : Shape) 32)
    (upd : (⟨1, ![16000000]⟩ : Shape).Idx → EReal)
    (attr : SRows.Idx → BitVec 32) (val : Fin 2000000 → EReal)
    (hattr : ∀ i, 0 ≤ (attr i).toInt ∧ (attr i).toInt < 16)
    (hz : ∀ i, z i = 0)
    (hseg : ∀ (b : Fin 2000000) (a' : Fin 8) (h : 8 * b.val + a'.val < 16000000),
      seg (ix2 (⟨8 * b.val + a'.val, h⟩ : Fin 16000000) (0 : Fin 1))
        = IntOp.addi (attr (ix2 b a')) (IntOp.muli (BitVec.ofNat 32 a'.val) 16#32))
    (hupd : ∀ (b : Fin 2000000) (a' : Fin 8) (h : 8 * b.val + a'.val < 16000000),
      upd (ix1 (⟨8 * b.val + a'.val, h⟩ : Fin 16000000)) = val b)
    (a : Fin 8) (v : Fin 16) (h : 16 * a.val + v.val < 128) :
    Ideal.hostScatterAdd d z seg upd (ix1 (⟨16 * a.val + v.val, h⟩ : Fin 128))
      = ∑ b : Fin 2000000, if attr (ix2 b a) = BitVec.ofNat 32 v.val then val b else 0 := by
  rw [hostScatterAdd_flat d h1 h2 h3 h4, hz, zero_add, sum_flat_rows]
  refine Finset.sum_congr rfl fun b _ => ?_
  trans ∑ a' : Fin 8, if a' = a then (if attr (ix2 b a) = BitVec.ofNat 32 v.val then val b else 0) else 0
  · refine Finset.sum_congr rfl fun a' _ => ?_
    rw [hseg, hupd]
    by_cases ha : a' = a
    · subst ha
      rw [if_pos rfl]
      exact if_congr ((seg_word_iff _ (hattr _) _ _ _).trans (and_iff_right rfl)) rfl rfl
    · rw [if_neg ha, if_neg]
      intro hc
      exact ha ((seg_word_iff _ (hattr _) _ _ _).mp hc).1
  · rw [Finset.sum_ite_eq', if_pos (Finset.mem_univ a)]

/-! ## The means and the presence flags, read at a group -/

/-- The group mean read at an index: the total over the count raised to at least the word one. -/
theorem groupMean_apply (S C : FVec Ideal SG .f32) (j : SG.Idx) :
    groupMean S C j = FloatOps.hostDivf (S j) (FloatOps.maximumf (C j) (FloatOps.ofBits (F := Ideal) .f32 0x3F800000#32)) := rfl

/-- The presence flag read at an index: the count compared with the word zero. -/
theorem groupPresent_apply (C : FVec Ideal SG .f32) (j : SG.Idx) :
    groupPresent C j = FloatOps.cmpf .ogt (C j) (FloatOps.ofBits (F := Ideal) .f32 0x00000000#32) := rfl

/-! ## The reference's flattened arrays at entry `8 · b + a'` -/

/-- What the reference computes for one table entry, `1 / (1 + e⁻ˣ)`, is the logistic function of the entry. -/
theorem logistic_at (x0 : (⟨S2000000x8, .f32⟩ : BufTy).Contents (Elt Ideal)) (i : S2000000x8.Idx) :
    val_main_v5 (F := Ideal) x0 i = Ideal.logistic (x0 i) := by
  rw [val_main_v5_apply, val_main_v4_apply, val_main_v3_apply, val_main_v2_apply, val_main_v1_apply, val_main_v0_apply]
  exact logistic_spelt (x0 i)

/-- Row `b`'s value in the reference, the sum of the row's eight logistic values over the word `8.0`, is `meanOf`. -/
theorem row_value (x0 : (⟨S2000000x8, .f32⟩ : BufTy).Contents (Elt Ideal)) (b : Fin 2000000) :
    val_main_v8 (F := Ideal) x0 (ix1 b) = meanOf x0 b := by
  rw [val_main_v8_apply, val_main_v6_apply, val_main_v7_apply]
  have hsum : (val_main_cst_1 (F := Ideal)) (Shape.Idx.first h_S_)
        + ∑ k : Fin 8, val_main_v5 (F := Ideal) x0 (idx_main_v6 (ix1 b) k)
      = ∑ d : Fin 8, Ideal.logistic (x0 (ix2 b d)) := by
    rw [val_main_cst_1_apply]
    show Ideal.ofBits .f32 0x00000000#32 + _ = _
    rw [Ideal.ofBits_zero_f32, zero_add]
    refine Finset.sum_congr rfl fun d _ => ?_
    rw [logistic_at]
    exact congrArg (fun i => Ideal.logistic (x0 i))
      (funext fun c => by match c with | ⟨0, _⟩ => rfl | ⟨1, _⟩ => rfl)
  rw [hsum]
  rfl

/-- The flattened values: entry `8 · b + a'` carries row `b`'s value. -/
theorem upd_at (x0 : (⟨S2000000x8, .f32⟩ : BufTy).Contents (Elt Ideal)) (b : Fin 2000000) (a' : Fin 8) (h : 8 * b.val + a'.val < 16000000) :
    val_main_v18 (F := Ideal) x0 (ix1 (⟨8 * b.val + a'.val, h⟩ : Fin 16000000)) = meanOf x0 b := by
  rw [val_main_v18_apply, val_main_v17_apply, val_main_v16_apply]
  have hi : idx_main_v16 (idx_main_v17 (idx_main_v18 (ix1 (⟨8 * b.val + a'.val, h⟩ : Fin 16000000)))) = ix1 b := by
    funext c
    match c with
    | ⟨0, _⟩ => exact Fin.ext (by show (8 * b.val + a'.val) / 8 = b.val; have := a'.isLt; omega)
  rw [hi]
  exact row_value x0 b

/-- The flattened segment numbers: entry `8 · b + a'` carries `attr (b, a') + a' · 16` (the reshape is row-major). -/
theorem seg_at (x1 : (⟨S2000000x8, .i32⟩ : BufTy).Contents (Elt Ideal)) (b : Fin 2000000) (a' : Fin 8) (h : 8 * b.val + a'.val < 16000000) :
    val_main_v20 (F := Ideal) x1 (ix2 (⟨8 * b.val + a'.val, h⟩ : Fin 16000000) (0 : Fin 1))
      = IntOp.addi (x1 (ix2 b a')) (IntOp.muli (BitVec.ofNat 32 a'.val) 16#32) := by
  rw [val_main_v20_apply, val_main_v15_apply, val_main_v14_apply, val_main_v13_apply, val_main_v12_apply,
    val_main_v10_apply, val_main_v11_apply]
  have hi : idx_main_v15 (idx_main_v20 (ix2 (⟨8 * b.val + a'.val, h⟩ : Fin 16000000) (0 : Fin 1))) = ix2 b a' := by
    funext c
    match c with
    | ⟨0, _⟩ => exact Fin.ext (by show (8 * b.val + a'.val) / 8 = b.val; have := a'.isLt; omega)
    | ⟨1, _⟩ => exact Fin.ext (by show (8 * b.val + a'.val) % 8 = a'.val; have := a'.isLt; omega)
  rw [hi]
  rfl

/-- The counts' updates are the constant one. -/
theorem one_at (j : S16000000.Idx) : val_main_v22 (F := Ideal) j = 1 := by
  rw [val_main_v22_apply]
  exact Ideal.ofBits_one_f32

/-- The totals are accumulated into zeros … -/
theorem zero_at_v19 (i : S128.Idx) : val_main_v19 (F := Ideal) i = 0 := by
  rw [val_main_v19_apply]
  exact Ideal.ofBits_zero_f32

/-- … and so are the counts. -/
theorem zero_at_v23 (i : S128.Idx) : val_main_v23 (F := Ideal) i = 0 := by
  rw [val_main_v23_apply]
  exact Ideal.ofBits_zero_f32

/-! ## The two scatters at segment `16 · a + v` -/

/-- At the ideal values the host's accumulating float scatter is the exact one: each operand element plus the sum of the
    updates that land on it. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- Segment `16 · a + v` of the scattered values is group `(a, v)`'s total. -/
theorem totals_at (x0 : (⟨S2000000x8, .f32⟩ : BufTy).Contents (Elt Ideal)) (x1 : (⟨S2000000x8, .i32⟩ : BufTy).Contents (Elt Ideal))
    (hattr : ∀ i, 0 ≤ (x1 i).toInt ∧ (x1 i).toInt < 16) (a : Fin 8) (v : Fin 16) (h : 16 * a.val + v.val < 128) :
    val_main_v21 (F := Ideal) x0 x1 (ix1 (⟨16 * a.val + v.val, h⟩ : Fin 128)) = sumOver x0 x1 (ix2 a v) := by
  have e : val_main_v21 (F := Ideal) x0 x1
      = Ideal.hostScatterAdd scatter_S128_S16000000x1_S16000000_n_0_0_1 (val_main_v19 (F := Ideal))
          (val_main_v20 (F := Ideal) x1) (val_main_v18 (F := Ideal) x0) :=
    scatterAdd_ideal _ _ _ _
  rw [e, scatter_groups scatter_S128_S16000000x1_S16000000_n_0_0_1 rfl rfl rfl rfl (val_main_v19 (F := Ideal))
    (val_main_v20 (F := Ideal) x1) (val_main_v18 (F := Ideal) x0) x1 (meanOf x0) hattr zero_at_v19 (seg_at x1) (upd_at x0) a v h]
  exact Finset.sum_congr rfl fun b _ => rfl

/-- Segment `16 · a + v` of the scattered ones is group `(a, v)`'s count. -/
theorem counts_at (x1 : (⟨S2000000x8, .i32⟩ : BufTy).Contents (Elt Ideal))
    (hattr : ∀ i, 0 ≤ (x1 i).toInt ∧ (x1 i).toInt < 16) (a : Fin 8) (v : Fin 16) (h : 16 * a.val + v.val < 128) :
    val_main_v25 (F := Ideal) x1 (ix1 (⟨16 * a.val + v.val, h⟩ : Fin 128)) = countOver x1 (ix2 a v) := by
  have e : val_main_v25 (F := Ideal) x1
      = Ideal.hostScatterAdd scatter_S128_S16000000x1_S16000000_n_0_0_1 (val_main_v23 (F := Ideal))
          (val_main_v24 (F := Ideal) x1) (val_main_v22 (F := Ideal)) :=
    scatterAdd_ideal _ _ _ _
  rw [e, scatter_groups scatter_S128_S16000000x1_S16000000_n_0_0_1 rfl rfl rfl rfl (val_main_v23 (F := Ideal))
    (val_main_v24 (F := Ideal) x1) (val_main_v22 (F := Ideal)) x1 (fun _ => (1 : EReal)) hattr zero_at_v23 (seg_at x1)
    (fun _ _ _ => one_at _) a v h]
  exact Finset.sum_congr rfl fun b _ => rfl

/-! ## From the means and the presence flags on -/

/-- From the table of means and the table of presence flags on, the reference's operations are `pairLoss`'s. -/
theorem tail_eq (x0 : (⟨S2000000x8, .f32⟩ : BufTy).Contents (Elt Ideal)) (x1 : (⟨S2000000x8, .i32⟩ : BufTy).Contents (Elt Ideal)) :
    val_main_v56 (F := Ideal) x0 x1 = pairLoss (val_main_v29 (F := Ideal) x0 x1) (val_main_v32 (F := Ideal) x1) := rfl

/-! ## The means and the presence flags are the specification's -/

/-- Group `(a, v)` of the 8 by 16 tables is segment `16 · a + v` of the 128. -/
theorem group_idx (a : Fin 8) (v : Fin 16) (h : 16 * a.val + v.val < 128) :
    idx_main_v29 (ix2 a v) = ix1 (⟨16 * a.val + v.val, h⟩ : Fin 128) := by
  funext c
  match c with
  | ⟨0, _⟩ => exact Fin.ext (by show a.val * 16 + v.val = 16 * a.val + v.val; omega)

/-- The reference's table of means is the specification's. -/
theorem means_eq (x0 : (⟨S2000000x8, .f32⟩ : BufTy).Contents (Elt Ideal)) (x1 : (⟨S2000000x8, .i32⟩ : BufTy).Contents (Elt Ideal))
    (hattr : ∀ i, 0 ≤ (x1 i).toInt ∧ (x1 i).toInt < 16) :
    val_main_v29 (F := Ideal) x0 x1 = groupMean (sumOver x0 x1) (countOver x1) := by
  funext j
  obtain ⟨a, v, rfl⟩ : ∃ (a : Fin 8) (v : Fin 16), j = ix2 a v := ⟨j 0, j 1, eq_ix2 j⟩
  have hlt : 16 * a.val + v.val < 128 := by have := a.isLt; have := v.isLt; omega
  rw [val_main_v29_apply, val_main_v28_apply, val_main_v27_apply, val_main_v26_apply, group_idx a v hlt,
    totals_at x0 x1 hattr a v hlt, counts_at x1 hattr a v hlt, groupMean_apply]
  rfl

/-- The reference's table of presence flags is the specification's. -/
theorem presence_eq (x1 : (⟨S2000000x8, .i32⟩ : BufTy).Contents (Elt Ideal))
    (hattr : ∀ i, 0 ≤ (x1 i).toInt ∧ (x1 i).toInt < 16) :
    val_main_v32 (F := Ideal) x1 = groupPresent (countOver x1) := by
  funext j
  obtain ⟨a, v, rfl⟩ : ∃ (a : Fin 8) (v : Fin 16), j = ix2 a v := ⟨j 0, j 1, eq_ix2 j⟩
  have hlt : 16 * a.val + v.val < 128 := by have := a.isLt; have := v.isLt; omega
  rw [val_main_v32_apply, val_main_v31_apply, val_main_v30_apply, show idx_main_v32 (ix2 a v) = ix1 (⟨16 * a.val + v.val, hlt⟩ : Fin 128) from group_idx a v hlt,
    counts_at x1 hattr a v hlt, groupPresent_apply]
  rfl

/-- The reference's result term, stage by stage, is the specification's result of its arguments. -/
theorem result_eq (x0 : (⟨S2000000x8, .f32⟩ : BufTy).Contents (Elt Ideal)) (x1 : (⟨S2000000x8, .i32⟩ : BufTy).Contents (Elt Ideal))
    (hattr : ∀ i, 0 ≤ (x1 i).toInt ∧ (x1 i).toInt < 16) :
    val_main_v56 (F := Ideal) x0 x1 = Cert.Hist.result x0 x1 := by
  rw [tail_eq, means_eq x0 x1 hattr, presence_eq x1 hattr]
  rfl

end Cert.ReferenceIdeal.RValue

end
-- ==== Proof.PreRange.lean ====
/-
  What the precondition says of the table of words: every word, read signed, lies in `[0, 16)`.
-/
import proofs.«406109_j36258113913169_2_alg».proof.Pre_finite_inputs
import proofs.«406109_j36258113913169_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Hist

open Idealize.ShloMosaic Idealize.ShloMosaic.ValueIdx

/-- The result of the reduction has a single index. -/
private instance : Subsingleton Cert.Pre_finite_inputs.S_.Idx := ⟨fun _ _ => funext fun d => d.elim0⟩

/-- A word that compares at least the word 0 and below the word 16, both compares signed, lies in `[0, 16)`. -/
private theorem word_range (a : BitVec 32) (hge : IntOp.cmpi .sge a 0#32 = 1#1) (hlt : IntOp.cmpi .slt a 16#32 = 1#1) :
    0 ≤ a.toInt ∧ a.toInt < 16 := by
  have h0 : (0#32 : BitVec 32).toInt = 0 := by decide
  have h16 : (16#32 : BitVec 32).toInt = 16 := by decide
  have hge' := IntOp.cmpi_sge.1 hge
  have hlt' := IntOp.cmpi_slt.1 hlt
  rw [h0] at hge'
  rw [h16] at hlt'
  exact ⟨hge', hlt'⟩

/-- If the precondition evaluates to the set bit, every word of the second table is, read signed, at least 0 and
    below 16. -/
theorem attr_range_of_pre [Cert.Pre_finite_inputs.Facts]
    (x : FVec Ideal Cert.Pre_finite_inputs.S2000000x8 .f32) (attr : IVec Cert.Pre_finite_inputs.S2000000x8 32)
    (h : Cert.Pre_finite_inputs.fn (F := Ideal) x attr = fun _ => 1#1) :
    ∀ i, 0 ≤ (attr i).toInt ∧ (attr i).toInt < 16 := by
  intro i
  -- the predicate's one bit is the and of two all-reductions; the second is over the range test of the words
  have h0 := congrFun h ValueIdx.ix0
  dsimp only [Cert.Pre_finite_inputs.fn] at h0
  obtain ⟨-, h2⟩ := IntOp.andi_eq_one.1 h0
  -- an all-reduction that is set had the bit set at every entry
  have hi := Host.reduce_andi_all _ _ _ _ _ h2 i
  -- the entry's bit is the and of the two signed compares against the broadcast words 0 and 16
  obtain ⟨hge, hlt⟩ := IntOp.andi_eq_one.1 hi
  exact word_range (attr i) hge hlt

end Cert.Hist

end
-- ==== Proof.lean ====
/-
  The certificate of a histogram-of-group-means kernel against its segment-sum reference.

  Both programs take a table of 2,000,000 rows by 8 columns of floats and a table of the same extent of integer
  attribute values in `[0, 16)` (the precondition: the floats finite, the words in that range).  Each row has a value,
  the mean over its columns of the logistic function of the entry.  For each of the 8 attributes and 16 values the
  programs form the total of the row values and the number of rows of the group of rows carrying that value, from
  them the group means and which groups are present, and return the mean squared difference of the group means over
  the pairs of present values of one attribute (zero when there is no pair): `Cert.Hist.result` (Proof/Spec.lean over
  Proof/Tail.lean).

  The kernel forms totals and counts block by block over a 2 by 50 grid of 20,000-row blocks, comparing each word
  with the sixteen values and accumulating in two scratch buffers (Proof/KBodySum.lean, Proof/KBodyCnt.lean: one run of
  the body; Proof/KAcc.lean: the accumulation over a half of the grid and the two result arrays; Proof/KValue.lean: the
  host's sum of the two halves and the re-indexing of blocks of rows as rows, Proof/SumIndex.lean).  The reference
  flattens both tables and scatter-adds row values and ones into 128 segments numbered `value + 16 · attribute`
  (Proof/LibScatterFlat.lean: the scatter at an element; Proof/RValue.lean: with the words in range a segment is a
  group).  Over the extended reals sums may be regrouped freely and a product with an indicator is an `if`, so the two
  totals, and the two counts, are one function of the tables; everything after them is the same operations in both
  programs.  The word range (Proof/PreRange.lean, read off the precondition) is what makes a segment a group: a word
  outside it would be counted by the reference under another attribute and dropped by the kernel.

  The three frames are the generated ones (the reference's from its run read stage by stage, Proof/RefStageRun.lean over the
  stages of Proof/RefRead.lean); the ideal pass rewrote nothing.
-/
import proofs.«406109_j36258113913169_2_alg».proof.Defs
import proofs.«406109_j36258113913169_2_alg».proof.Proof.Gen.Kernel
import proofs.«406109_j36258113913169_2_alg».proof.Proof.Gen.Kernel.Frame
import proofs.«406109_j36258113913169_2_alg».proof.Proof.Gen.KernelIdeal
import proofs.«406109_j36258113913169_2_alg».proof.Proof.Gen.KernelIdeal.Frame
import proofs.«406109_j36258113913169_2_alg».proof.Proof.Gen.ReferenceIdeal
import proofs.«406109_j36258113913169_2_alg».proof.Proof.RefRead
import proofs.«406109_j36258113913169_2_alg».proof.Proof.RefStageRun
import proofs.«406109_j36258113913169_2_alg».proof.Proof.Gen.Pre_finite_inputs
import proofs.«406109_j36258113913169_2_alg».proof.Proof.KValue
import proofs.«406109_j36258113913169_2_alg».proof.Proof.RValue
import proofs.«406109_j36258113913169_2_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.StageRun.run (F := Ideal) m ρ)

theorem preserves : Cert.preserves_Kernel_KernelIdeal := trivial

/-- From tables that agree, the kernel's result is the specification's result of its tables, and the reference's
    result term, stage by stage, is the specification's result of the same tables once the precondition has put
    every word in `[0, 16)`. -/
theorem algebraic : Cert.algebraic_KernelIdeal_ReferenceIdeal := by
  intro m ρ m' ρ' hpre hagree
  refine ⟨fun c => Cert.Hist.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.StageRun.run (F := Ideal) m' ρ')
  rw [(hagree c).1, (hagree c).2]
  exact Cert.ReferenceIdeal.RValue.result_eq _ _ (Cert.Hist.attr_range_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
